-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S8192 .f32) (main_arg7 : FVec F S4096x8192 .f32) (main_arg8 : FVec F S4096 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S4096x8192 .f32 := Host.absf main_arg7
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S2048x4096 .f32) (main_arg1 : FVec F S8192x4096 .f32) (main_arg2 : FVec F S8192 .f32) (main_arg3 : IVec S8192x4096 1) (main_arg4 : FVec F S8192x8192 .f32) (main_arg5 : FVec F S8192 .f32) (main_arg6 : IVec S8192x8192 1) (main_arg7 : FVec F S4096x8192 .f32) (main_arg8 : FVec F S4096 .f32) (main_arg9 : IVec S4096x8192 1) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x8192 .f32 := Host.absf main_arg4
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg5 main_arg7 main_arg8 main_v13 main_v16
-- ==== Kernel.lean ====
abbrev S2048x4096 : Shape := ⟨2, ![2048, 4096]⟩
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S1x8192 : Shape := ⟨2, ![1, 8192]⟩
abbrev S2048x8192 : Shape := ⟨2, ![2048, 8192]⟩
abbrev S256x1024 : Shape := ⟨2, ![256, 1024]⟩
abbrev S1024x1024 : Shape := ⟨2, ![1024, 1024]⟩
abbrev S1x1024 : Shape := ⟨2, ![1, 1024]⟩
abbrev S1x4096 : Shape := ⟨2, ![1, 4096]⟩

abbrev nBuf : Space → Nat
  | .hbm => 19
  | .vmem => 33
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S8192, .f32⟩
  | .hbm, ⟨3, _⟩ => ⟨S8192x4096, .i1⟩
  | .hbm, ⟨4, _⟩ => ⟨S8192x8192, .f32⟩
  | .hbm, ⟨5, _⟩ => ⟨S8192, .f32⟩
  | .hbm, ⟨6, _⟩ => ⟨S8192x8192, .i1⟩
  | .hbm, ⟨7, _⟩ => ⟨S4096x8192, .f32⟩
  | .hbm, ⟨8, _⟩ => ⟨S4096, .f32⟩
  | .hbm, ⟨9, _⟩ => ⟨S4096x8192, .i1⟩
  | .hbm, ⟨10, _⟩ => ⟨S1x8192, .f32⟩
  | .hbm, ⟨11, _⟩ => ⟨S8192x4096, .i32⟩
  | .hbm, ⟨12, _⟩ => ⟨S2048x8192, .f32⟩
  | .hbm, ⟨13, _⟩ => ⟨S1x8192, .f32⟩
  | .hbm, ⟨14, _⟩ => ⟨S8192x8192, .i32⟩
  | .hbm, ⟨15, _⟩ => ⟨S2048x8192, .f32⟩
  | .hbm, ⟨16, _⟩ => ⟨S1x4096, .f32⟩
  | .hbm, ⟨17, _⟩ => ⟨S4096x8192, .i32⟩
  | .hbm, ⟨18, _⟩ => ⟨S2048x4096, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .i32⟩
  | .local _ .vmem, ⟨7, _⟩ => ⟨S1024x1024, .i32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .i32⟩
  | .local _ .vmem, ⟨18, _⟩ => ⟨S1024x1024, .i32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1024x1024, .f32⟩
  | .local _ .vmem, ⟨25, _⟩ => ⟨S1024x1024, .f32⟩
  | .local _ .vmem, ⟨26, _⟩ => ⟨S1x1024, .f32⟩
  | .local _ .vmem, ⟨27, _⟩ => ⟨S1x1024, .f32⟩
  | .local _ .vmem, ⟨28, _⟩ => ⟨S1024x1024, .i32⟩
  | .local _ .vmem, ⟨29, _⟩ => ⟨S1024x1024, .i32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![8, 4, 8], ![false, false, false]⟩

def k2_cond2 (i : grid2.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S8192_S1x8192 : S8192.ShapeCasts S1x8192
  natLt_1_32 : 1 < 32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S4096_S1x4096 : S4096.ShapeCasts S1x4096
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x4096.size a
  hwx0_0 : ∀ i : grid0.Coords, EltTy.bits .f32 = 32 ∨ (Rect.block (s := S2048x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x4096.size a
  hwx0_1 : ∀ i : grid0.Coords, EltTy.bits .f32 = 32 ∨ (Rect.block (s := S8192x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .i32 = 32 ∨ (Rect.block (s := S8192x4096) S1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x8192.size a
  hwx0_4 : ∀ i : grid0.Coords, EltTy.bits .f32 = 32 ∨ (Rect.block (s := S2048x8192) S256x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x8192.size a
  hwx1_0 : ∀ i : grid1.Coords, EltTy.bits .f32 = 32 ∨ (Rect.block (s := S2048x8192) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .i32 = 32 ∨ (Rect.block (s := S8192x8192) S1024x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1024.size a ≤ S2048x8192.size a
  hwx1_4 : ∀ i : grid1.Coords, EltTy.bits .f32 = 32 ∨ (Rect.block (s := S2048x8192) S256x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x8192.size a
  hwx2_0 : ∀ i : grid2.Coords, EltTy.bits .f32 = 32 ∨ (Rect.block (s := S2048x8192) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x8192.size a
  hwx2_1 : ∀ i : grid2.Coords, EltTy.bits .f32 = 32 ∨ (Rect.block (s := S4096x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x8192.size a
  hwx2_3 : ∀ i : grid2.Coords, EltTy.bits .i32 = 32 ∨ (Rect.block (s := S4096x8192) S1024x1024.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x1024.size a ≤ S2048x4096.size a
  hwx2_4 : ∀ i : grid2.Coords, EltTy.bits .f32 = 32 ∨ (Rect.block (s := S2048x4096) S256x1024.size (cc2_transform_4 i) (hinb2_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v5) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S256x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S2048x4096 : Shape := ⟨2, ![2048, 4096]⟩
abbrev S8192x4096 : Shape := ⟨2, ![8192, 4096]⟩
abbrev S8192 : Shape := ⟨1, ![8192]⟩
abbrev S8192x8192 : Shape := ⟨2, ![8192, 8192]⟩
abbrev S4096x8192 : Shape := ⟨2, ![4096, 8192]⟩
abbrev S4096 : Shape := ⟨1, ![4096]⟩
abbrev S2048x8192 : Shape := ⟨2, ![2048, 8192]⟩
abbrev S1x8192 : Shape := ⟨2, ![1, 8192]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S8192, .f32⟩
  | .hbm, ⟨3, _⟩ => ⟨S8192x4096, .i1⟩
  | .hbm, ⟨4, _⟩ => ⟨S8192x8192, .f32⟩
  | .hbm, ⟨5, _⟩ => ⟨S8192, .f32⟩
  | .hbm, ⟨6, _⟩ => ⟨S8192x8192, .i1⟩
  | .hbm, ⟨7, _⟩ => ⟨S4096x8192, .f32⟩
  | .hbm, ⟨8, _⟩ => ⟨S4096, .f32⟩
  | .hbm, ⟨9, _⟩ => ⟨S4096x8192, .i1⟩
  | .hbm, ⟨10, _⟩ => ⟨S8192x4096, .f32⟩
  | .hbm, ⟨11, _⟩ => ⟨S8192x4096, .f32⟩
  | .hbm, ⟨12, _⟩ => ⟨S4096x8192, .f32⟩
  | .hbm, ⟨13, _⟩ => ⟨S2048x8192, .f32⟩
  | .hbm, ⟨14, _⟩ => ⟨S1x8192, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S2048x8192, .f32⟩
  | .hbm, ⟨22, _⟩ => ⟨S1x8192, .f32⟩
  | .hbm, ⟨23, _⟩ => ⟨S2048x8192, .f32⟩
  | .hbm, ⟨24, _⟩ => ⟨S2048x8192, .f32⟩
  | .hbm, ⟨25, _⟩ => ⟨S2048x8192, .f32⟩
  | .hbm, ⟨26, _⟩ => ⟨S4096x8192, .f32⟩
  | .hbm, ⟨27, _⟩ => ⟨S4096x8192, .f32⟩
  | .hbm, ⟨28, _⟩ => ⟨S8192x4096, .f32⟩
  | .hbm, ⟨29, _⟩ => ⟨S2048x4096, .f32⟩
  | .hbm, ⟨30, _⟩ => ⟨S1x4096, .f32⟩
  | .hbm, ⟨31, _⟩ => ⟨S2048x4096, .f32⟩
  | .hbm, ⟨32, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  transposes_S8192x8192_S8192x8192_1_0 : S8192x8192.Transposes [1, 0] S8192x8192
  transposes_S4096x8192_S8192x4096_1_0 : S4096x8192.Transposes [1, 0] S8192x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x4096_S4096x8192_S2048x8192_1_0_0_1_n_n_wf : DotDims.WF S2048x4096 S4096x8192 S2048x8192 [1] [0] [0] [1] [] []
  dot_S2048x8192_S8192x8192_S2048x8192_1_0_0_1_n_n_wf : DotDims.WF S2048x8192 S8192x8192 S2048x8192 [1] [0] [0] [1] [] []
  dot_S2048x8192_S8192x4096_S2048x4096_1_0_0_1_n_n_wf : DotDims.WF S2048x8192 S8192x4096 S2048x4096 [1] [0] [0] [1] [] []

variable [Facts₀]

def dot_S2048x4096_S4096x8192_S2048x8192_1_0_0_1_n_n : DotDims S2048x4096 S4096x8192 S2048x8192 where
  lhsContracting := [1]
  rhsContracting := [0]
  lhsNonContracting := [0]
  rhsNonContracting := [1]
  lhsBatch := []
  rhsBatch := []
  wf := dot_S2048x4096_S4096x8192_S2048x8192_1_0_0_1_n_n_wf
def dot_S2048x8192_S8192x8192_S2048x8192_1_0_0_1_n_n : DotDims S2048x8192 S8192x8192 S2048x8192 where
  lhsContracting := [1]
  rhsContracting := [0]
  lhsNonContracting := [0]
  rhsNonContracting := [1]
  lhsBatch := []
  rhsBatch := []
  wf := dot_S2048x8192_S8192x8192_S2048x8192_1_0_0_1_n_n_wf
def dot_S2048x8192_S8192x4096_S2048x4096_1_0_0_1_n_n : DotDims S2048x8192 S8192x4096 S2048x4096 where
  lhsContracting := [1]
  rhsContracting := [0]
  lhsNonContracting := [0]
  rhsNonContracting := [1]
  lhsBatch := []
  rhsBatch := []
  wf := dot_S2048x8192_S8192x4096_S2048x4096_1_0_0_1_n_n_wf

class Facts : Prop extends Facts₀ where

variable [Facts]
-- ==== Proof.Kernel.Body0.lean ====
/-
  The first masked linear layer's pallas_call (grid 8 x 8 x 4: row block i, column block j, contraction block k;
  point t = (i * 8 + j) * 4 + k), as the pipeline runs it. At every point the body adds the product of the point's
  x block (256 x 1024) with its masked weight block (1024 x 1024, contracted along the second axis of both) into a
  256 x 1024 accumulator held in a scratch buffer, zeroed first when k = 0; when k = 3 it adds the bias row,
  applies tanh and stores the result block. So the accumulator after point t is a recursion on t that restarts
  every fourth point (acc0), and the block written back after the points with k = 3 is out0.
  Stated for any float instance F and any contents V of the core's buffers at the region's entry.
-/
import proofs.«159617_j84035330113916_1_alg».proof.Proof.Gen.Kernel.Launch
import proofs.«159617_j84035330113916_1_alg».proof.Proof.Gen.Kernel.Skeleton
import proofs.«159617_j84035330113916_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches of the body, as conditions on the grid point -/

/-- "k = 0": the accumulator is zeroed first. -/
abbrev condA0 (i : grid0.Coords) : Prop :=
  (Scalar.cmpi .ne (Scalar.extui (Scalar.cmpi .eq (BitVec.ofNat 32 (i 2).val) 0#32)) 0#32) = 1#1
/-- "k = 3": the result block is finished and stored. -/
abbrev condB0 (i : grid0.Coords) : Prop := k0_cond2 i = 1#1

theorem hcondA0 : ∀ t : Fin cfg0.N, condA0 (grid0.coords t) ↔ t.val % 4 = 0 :=
  (by decide +kernel : ∀ t : Fin grid0.N, condA0 (grid0.coords t) ↔ t.val % 4 = 0)
theorem hcondB0 : ∀ t : Fin cfg0.N, condB0 (grid0.coords t) ↔ t.val % 4 = 3 :=
  (by decide +kernel : ∀ t : Fin grid0.N, condB0 (grid0.coords t) ↔ t.val % 4 = 3)
/-- The result window is idle exactly at the points with k ≠ 3. -/
theorem idle0_4 : ∀ t : Fin cfg0.N, cfg0.idle 4 (grid0.coords t) = true ↔ ¬ t.val % 4 = 3 :=
  (by decide +kernel : ∀ t : Fin grid0.N, cfg0.idle 4 (grid0.coords t) = true ↔ ¬ t.val % 4 = 3)

theorem hz0_256 : (![0, 0] : Fin S256x1024.rank → ℕ) = fun _ => 0 := by funext a; fin_cases a <;> rfl
theorem hz0_1024 : (![0, 0] : Fin S1024x1024.rank → ℕ) = fun _ => 0 := by funext a; fin_cases a <;> rfl
theorem hz0_1 : (![0, 0] : Fin S1x1024.rank → ℕ) = fun _ => 0 := by funext a; fin_cases a <;> rfl

/-! ## The body's three runs -/

set_option maxHeartbeats 1000000 in
/-- k = 0 (and k ≠ 3): whatever the accumulator held, it ends at the product added to zero. -/
theorem body0_first (c : Dev nD) (E : Set ℕ) (i : grid0.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : condA0 i) (hB : ¬ condB0 i)
    (x : Vec F S256x1024 .f32) (w : Vec F S1024x1024 .f32) (mk : Vec F S1024x1024 .i32) (K : PUnit → sProp 𝕄) :
    iprop(owns (c : Thread nD τ) arg3 fullShare x ∗ owns (c : Thread nD τ) arg4 fullShare w ∗ owns (c : Thread nD τ) arg6 fullShare mk
        ∗ (∃ s, owns (c : Thread nD τ) arg8 fullShare s)
        ∗ (iprop(owns (c : Thread nD τ) arg3 fullShare x ∗ owns (c : Thread nD τ) arg4 fullShare w ∗ owns (c : Thread nD τ) arg6 fullShare mk
            ∗ owns (c : Thread nD τ) arg8 fullShare (k0_pay2 x w mk (k0_pay1 (F := F)))) -∗ K ⟨⟩))
      ⊢ wp frame (wpE (defs₀ (F := F)) Variants.none c none) E (cc0__masked_linear_kernel i arg3 harg3 arg4 harg4 arg5 harg5 arg6 harg6 arg7 harg7 arg8 harg8) K := by
  simp only [cc0__masked_linear_kernel_eq_skeleton]; unfold cc0__masked_linear_kernel_skel
  unfold owns
  iintro ⟨⟨%f3, %hf3, H3⟩, ⟨%f4, %hf4, H4⟩, ⟨%f6, %hf6, H6⟩, ⟨%s, %f8, -, H8⟩, Hk⟩
  obtain rfl := harg3.eq_unread hf3; obtain rfl := harg4.eq_unread hf4; obtain rfl := harg6.eq_unread hf6
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz0_256 inb_S256x1024_S256x1024_0_0 y⟩)]
  rw [View.canon_cons_unit_zero hz0_256]
  sl_unfold_words
  simp only [View.readAt_eq_ld, harg3.read_unread, harg4.read_unread, harg6.read_unread, View.ld_unit_zero (S := S256x1024) hz0_256,
    View.ld_unit_zero (S := S1024x1024) hz0_1024, View.readCov_unit_zero (S := S256x1024) _ hz0_256]

set_option maxHeartbeats 1000000 in
/-- 0 < k < 3: the product is added to what the accumulator held. -/
theorem body0_middle (c : Dev nD) (E : Set ℕ) (i : grid0.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA0 i) (hB : ¬ condB0 i)
    (x : Vec F S256x1024 .f32) (w : Vec F S1024x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg6 fullShare mk
        ∗ owns (c : Thread nD τ) arg8 fullShare s
        ∗ (iprop(owns (c : Thread nD τ) arg3 fullShare x ∗ owns (c : Thread nD τ) arg4 fullShare w ∗ owns (c : Thread nD τ) arg6 fullShare mk
            ∗ owns (c : Thread nD τ) arg8 fullShare (k0_pay2 x w mk s)) -∗ K ⟨⟩))
      ⊢ wp frame (wpE (defs₀ (F := F)) Variants.none c none) E (cc0__masked_linear_kernel i arg3 harg3 arg4 harg4 arg5 harg5 arg6 harg6 arg7 harg7 arg8 harg8) K := by
  simp only [cc0__masked_linear_kernel_eq_skeleton]; unfold cc0__masked_linear_kernel_skel
  unfold owns
  iintro ⟨⟨%f3, %hf3, H3⟩, ⟨%f4, %hf4, H4⟩, ⟨%f6, %hf6, H6⟩, ⟨%f8, %hf8, H8⟩, Hk⟩
  obtain rfl := harg3.eq_unread hf3; obtain rfl := harg4.eq_unread hf4; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz0_256 inb_S256x1024_S256x1024_0_0 y⟩)]
  rw [View.canon_cons_unit_zero hz0_256]
  sl_unfold_words
  simp only [View.readAt_eq_ld, harg3.read_unread, harg4.read_unread, harg6.read_unread, harg8.read_unread, View.ld_unit_zero (S := S256x1024) hz0_256,
    View.ld_unit_zero (S := S1024x1024) hz0_1024]

set_option maxHeartbeats 1000000 in
/-- k = 3 (and k ≠ 0): the product is added, and the result block is the activation of accumulator plus bias. -/
theorem body0_last (c : Dev nD) (E : Set ℕ) (i : grid0.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA0 i) (hB : condB0 i)
    (x : Vec F S256x1024 .f32) (w : Vec F S1024x1024 .f32) (b : Vec F S1x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare mk ∗ (∃ d, owns (c : Thread nD τ) arg7 fullShare d)
        ∗ owns (c : Thread nD τ) arg8 fullShare s
        ∗ (iprop(owns (c : Thread nD τ) arg3 fullShare x ∗ owns (c : Thread nD τ) arg4 fullShare w ∗ owns (c : Thread nD τ) arg5 fullShare b
            ∗ owns (c : Thread nD τ) arg6 fullShare mk ∗ owns (c : Thread nD τ) arg7 fullShare (k0_pay3 (k0_pay2 x w mk s) b)
            ∗ owns (c : Thread nD τ) arg8 fullShare (k0_pay2 x w mk s)) -∗ K ⟨⟩))
      ⊢ wp frame (wpE (defs₀ (F := F)) Variants.none c none) E (cc0__masked_linear_kernel i arg3 harg3 arg4 harg4 arg5 harg5 arg6 harg6 arg7 harg7 arg8 harg8) K := by
  simp only [cc0__masked_linear_kernel_eq_skeleton]; unfold cc0__masked_linear_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz0_256 inb_S256x1024_S256x1024_0_0 y⟩)]
    rw [View.canon_cons_unit_zero hz0_256]
    (try sl_unfold_words)
    simp only [View.readAt_eq_ld, harg3.read_unread, harg4.read_unread, harg5.read_unread, harg6.read_unread, harg8.read_unread, View.ld_unit_zero (S := S256x1024) hz0_256,
      View.ld_unit_zero (S := S1024x1024) hz0_1024, View.ld_unit_zero (S := S1x1024) hz0_1, View.readCov_unit_zero (S := S256x1024) _ hz0_256]
  iexists _; isplitr
  swap; · iexact H8
  ipureintro
  sl_unfold_words
  rw [View.read_writes_eq_canon _ _ _ (fun y => ⟨_, List.mem_cons_self, View.mem_set_unit_zero hz0_256 inb_S256x1024_S256x1024_0_0 y⟩)]
  rw [View.canon_cons_unit_zero hz0_256]
  (try sl_unfold_words)
  simp only [View.readAt_eq_ld, harg3.read_unread, harg4.read_unread, harg6.read_unread, harg8.read_unread, View.ld_unit_zero (S := S256x1024) hz0_256,
    View.ld_unit_zero (S := S1024x1024) hz0_1024]

end Cert.Kernel.Hand

end
-- ==== Proof.Kernel.Region0.lean ====
/-
  The first layer's pallas_call as proof data for the pipeline (see Body0 for the body's three runs).
  V is what the core's buffers hold when the region is entered. Window w's block at point t is read off V
  (iblk0); the accumulator after point t is acc0 (it restarts at the points with k = 0); the block the body
  leaves in the result window at a point with k = 3 is out0. Between points the scratch buffer holds the
  accumulator (Phi0); before the first point it holds anything.
-/
import proofs.«159617_j84035330113916_1_alg».proof.Proof.Kernel.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, accumulator, result block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' block (256 rows, 1024 contraction positions). -/
abbrev xb0 (c : Dev nD) (t : Fin cfg0.N) : Vec F S256x1024 .f32 := iblk0 V c 0 t
/-- The weights' block (1024 output columns, 1024 contraction positions). -/
abbrev wb0 (c : Dev nD) (t : Fin cfg0.N) : Vec F S1024x1024 .f32 := iblk0 V c 1 t
/-- The bias row's block. -/
abbrev bb0 (c : Dev nD) (t : Fin cfg0.N) : Vec F S1x1024 .f32 := iblk0 V c 2 t
/-- The mask's block, as 32-bit words. -/
abbrev mb0 (c : Dev nD) (t : Fin cfg0.N) : Vec F S1024x1024 .i32 := iblk0 V c 3 t

/-- The accumulator after point `n`: this point's product added to zero when k = 0, else to what the point before left. -/
def acc0 (c : Dev nD) : (n : ℕ) → n < cfg0.N → Vec F S256x1024 .f32
  | 0, h => k0_pay2 (xb0 V c ⟨0, h⟩) (wb0 V c ⟨0, h⟩) (mb0 V c ⟨0, h⟩) (k0_pay1 (F := F))
  | n + 1, h => k0_pay2 (xb0 V c ⟨n + 1, h⟩) (wb0 V c ⟨n + 1, h⟩) (mb0 V c ⟨n + 1, h⟩)
      (if (n + 1) % 4 = 0 then k0_pay1 (F := F) else acc0 c n (Nat.lt_of_succ_lt h))

theorem acc0_first (c : Dev nD) (t : Fin cfg0.N) (h : t.val % 4 = 0) :
    acc0 V c t.val t.isLt = k0_pay2 (xb0 V c t) (wb0 V c t) (mb0 V c t) (k0_pay1 (F := F)) := by
  obtain ⟨n, hn⟩ := t
  cases n with
  | zero => rfl
  | succ n =>
    show k0_pay2 _ _ _ (if (n + 1) % 4 = 0 then _ else _) = _
    rw [if_pos h]

theorem acc0_next (c : Dev nD) (t : Fin cfg0.N) (h : ¬ t.val % 4 = 0) :
    acc0 V c t.val t.isLt = k0_pay2 (xb0 V c t) (wb0 V c t) (mb0 V c t) (acc0 V c (t.val - 1) (Nat.lt_of_le_of_lt (Nat.sub_le _ _) t.isLt)) := by
  obtain ⟨n, hn⟩ := t
  cases n with
  | zero => exact absurd (Nat.zero_mod _) h
  | succ n =>
    show k0_pay2 _ _ _ (if (n + 1) % 4 = 0 then _ else _) = _
    rw [if_neg h]; rfl

/-- The block the body stores into the result window at a point with k = 3. -/
def out0 (c : Dev nD) (t : Fin cfg0.N) : Vec F S256x1024 .f32 := k0_pay3 (acc0 V c t.val t.isLt) (bb0 V c t)

/-! ## The invariant between points -/

/-- The accumulator's scratch buffer. -/
abbrev scM0 : Memref sig .tc .vmem S256x1024 .f32 := Memref.whole cc0_scratch0

/-- The core's scoped buffers other than this call's staging buffers and its scratch, at some contents. -/
abbrev others0 (c : Dev nD) : sProp 𝕄 :=
  Pipeline.scopedRestBut (Ix := Unit) (Name := ℕ) (U := UR sig nD τ) (Lvl := ℕ) (Val := Elt F) spec0 c [cc0_scratch0]

/-- What the launch hands the region, with the scratch buffer split off. -/
theorem PhiA0_split (c : Dev nD) :
    (Pipeline.ΦA spec0 c : sProp 𝕄)
      = iprop(((∃ d, owns (c : Thread nD τ) scM0 fullShare d) ∗ others0 (F := F) c) ∗ (∃ r, prngReg c r)) := by
  unfold Pipeline.ΦA
  rw [Pipeline.scopedRest_split_of_list spec0 c [cc0_scratch0] (by decide) (by decide)]
  simp only [bigSepL_singleton, scM0, owns_whole]
  rfl

/-- Before point `n`: anything at the start, then the scratch at the accumulator the point before left. -/
def Phi0 (c : Dev nD) : (n : ℕ) → n ≤ cfg0.N → sProp 𝕄
  | 0, _ => Pipeline.ΦA spec0 c
  | n + 1, hn => iprop((owns (c : Thread nD τ) scM0 fullShare (acc0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ others0 (F := F) c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- An input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (st0_2 t) fullShare (iblk0 V c 2 t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (st0_3 t) fullShare (iblk0 V c 3 t) := by
  unfold Dat.leavesExact; rw [show cfg0.idle 3 (cfg0.grid.coords t) = false from rfl, after0_3]
/-- At a point with k = 3 the result window holds the finished block. -/
theorem leaves0_4_last (c : Dev nD) (t : Fin cfg0.N) (h : t.val % 4 = 3) :
    (dat0 V c).leavesExact 4 t = owns (c : Thread nD τ) (st0_4 t) fullShare (out0 V c t) := by
  unfold Dat.leavesExact
  rw [show cfg0.idle 4 (cfg0.grid.coords t) = false from by
    have := (idle0_4 t).not.mpr (not_not.mpr h); simpa using this, after0_4]
/-- At the other points it is handed back as found. -/
theorem leaves0_4_idle (c : Dev nD) (t : Fin cfg0.N) (h : ¬ t.val % 4 = 3) :
    (dat0 V c).leavesExact 4 t = iprop(∃ d, owns (c : Thread nD τ) (st0_4 t) fullShare ((dat0 V c).before 4 t d)) :=
  (dat0 V c).leavesExact_idle 4 t ((idle0_4 t).mpr h) (by
    have := (flush0_4 t).not.mpr h; simpa using this)

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3, Phi0_castSucc]
  have hN : t.val < 256 := lt_of_lt_of_eq t.isLt (show cfg0.N = 256 from N_0)
  by_cases h0 : t.val % 4 = 0
  · have h3 : ¬ t.val % 4 = 3 := by omega
    rw [leaves0_4_idle V c t h3, acc0_first V c t h0]
    have hpre : Phi0 V c t.val (Nat.le_of_lt t.isLt) ⊢
        iprop(((∃ d, owns (c : Thread nD τ) scM0 fullShare d) ∗ others0 (F := F) c) ∗ (∃ r, prngReg c r)) := by
      by_cases hz : t.val = 0
      · rw [Phi0_zero V c _ _ hz, PhiA0_split]
      · rw [Phi0_pos V c _ _ hz]
        iintro ⟨⟨HS, HO⟩, Hg⟩
        isplitr [Hg]
        · isplitl [HS]; · iexists _; iexact HS
          iexact HO
        iexact Hg
    iintro ⟨HΦ, Ho, ⟨%d0, H0⟩, ⟨%d1, H1⟩, ⟨%d2, H2⟩, ⟨%d3, H3⟩, H4⟩
    ihave HΦ' := hpre $$ HΦ
    icases HΦ' with ⟨⟨HS, HO⟩, Hg⟩
    iapply (body0_first c Set.univ (grid0.coords t) _ _ _ _ _ _ _ _ _ _ _ _ ((hcondA0 t).mpr h0) (fun h => h3 ((hcondB0 t).mp h))
      (xb0 V c t) (wb0 V c t) (mb0 V c t) _)
    isplitl [H0]; · iexact H0
    isplitl [H1]; · iexact H1
    isplitl [H3]; · iexact H3
    isplitl [HS]; · iexact HS
    iintro ⟨H0, H1, H3, HS⟩
    isplitl [HS HO Hg]
    · isplitr [Hg]
      · isplitl [HS]; · iexact HS
        iexact HO
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi0_pos V c _ _ hz, acc0_next V c t h0]
    by_cases h3 : t.val % 4 = 3
    · rw [leaves0_4_last V c t h3]
      unfold out0
      rw [acc0_next V c t h0]
      iintro ⟨⟨⟨HS, HO⟩, Hg⟩, Ho, ⟨%d0, H0⟩, ⟨%d1, H1⟩, ⟨%d2, H2⟩, ⟨%d3, H3⟩, H4⟩
      iapply (body0_last c Set.univ (grid0.coords t) _ _ _ _ _ _ _ _ _ _ _ _ (fun h => h0 ((hcondA0 t).mp h)) ((hcondB0 t).mpr h3)
        (xb0 V c t) (wb0 V c t) (bb0 V c t) (mb0 V c t) _ _)
      isplitl [H0]; · iexact H0
      isplitl [H1]; · iexact H1
      isplitl [H2]; · iexact H2
      isplitl [H3]; · iexact H3
      isplitl [H4]
      · icases H4 with ⟨%d4, H4⟩; iexists _; iexact H4
      isplitl [HS]; · iexact HS
      iintro ⟨H0, H1, H2, H3, H4, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4
    · rw [leaves0_4_idle V c t h3]
      iintro ⟨⟨⟨HS, HO⟩, Hg⟩, Ho, ⟨%d0, H0⟩, ⟨%d1, H1⟩, ⟨%d2, H2⟩, ⟨%d3, H3⟩, H4⟩
      iapply (body0_middle c Set.univ (grid0.coords t) _ _ _ _ _ _ _ _ _ _ _ _ (fun h => h0 ((hcondA0 t).mp h)) (fun h => h3 ((hcondB0 t).mp h))
        (xb0 V c t) (wb0 V c t) (mb0 V c t) _ _)
      isplitl [H0]; · iexact H0
      isplitl [H1]; · iexact H1
      isplitl [H3]; · iexact H3
      isplitl [HS]; · iexact HS
      iintro ⟨H0, H1, H3, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives it back, the accumulator's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_split]
  iintro ⟨⟨HS, HO⟩, Hg⟩
  isplitr [Hg]
  · isplitl [HS]; · iexists _; iexact HS
    iexact HO
  iexact Hg

end Cert.Kernel.Hand

end
-- ==== Proof.Kernel.Body1.lean ====
/-
  The second masked linear layer's pallas_call (grid 8 x 8 x 8: row block i, column block j, contraction block k;
  point t = (i * 8 + j) * 8 + k), as the pipeline runs it. At every point the body adds the product of the point's
  x block (256 x 1024) with its masked weight block (1024 x 1024, contracted along the second axis of both) into a
  256 x 1024 accumulator held in a scratch buffer, zeroed first when k = 0; when k = 7 it adds the bias row,
  applies tanh and stores the result block. So the accumulator after point t is a recursion on t that restarts
  every eighth point (acc1), and the block written back after the points with k = 7 is out1.
  Stated for any float instance F and any contents V of the core's buffers at the region's entry.
-/
import proofs.«159617_j84035330113916_1_alg».proof.Proof.Gen.Kernel.Launch
import proofs.«159617_j84035330113916_1_alg».proof.Proof.Gen.Kernel.Skeleton
import proofs.«159617_j84035330113916_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches of the body, as conditions on the grid point -/

/-- "k = 0": the accumulator is zeroed first. -/
abbrev condA1 (i : grid1.Coords) : Prop :=
  (Scalar.cmpi .ne (Scalar.extui (Scalar.cmpi .eq (BitVec.ofNat 32 (i 2).val) 0#32)) 0#32) = 1#1
/-- "k = 7": the result block is finished and stored. -/
abbrev condB1 (i : grid1.Coords) : Prop := k1_cond2 i = 1#1

theorem hcondA1 : ∀ t : Fin cfg1.N, condA1 (grid1.coords t) ↔ t.val % 8 = 0 :=
  (by decide +kernel : ∀ t : Fin grid1.N, condA1 (grid1.coords t) ↔ t.val % 8 = 0)
theorem hcondB1 : ∀ t : Fin cfg1.N, condB1 (grid1.coords t) ↔ t.val % 8 = 7 :=
  (by decide +kernel : ∀ t : Fin grid1.N, condB1 (grid1.coords t) ↔ t.val % 8 = 7)
/-- The result window is idle exactly at the points with k ≠ 3. -/
theorem idle1_4 : ∀ t : Fin cfg1.N, cfg1.idle 4 (grid1.coords t) = true ↔ ¬ t.val % 8 = 7 :=
  (by decide +kernel : ∀ t : Fin grid1.N, cfg1.idle 4 (grid1.coords t) = true ↔ ¬ t.val % 8 = 7)

theorem hz1_256 : (![0, 0] : Fin S256x1024.rank → ℕ) = fun _ => 0 := by funext a; fin_cases a <;> rfl
theorem hz1_1024 : (![0, 0] : Fin S1024x1024.rank → ℕ) = fun _ => 0 := by funext a; fin_cases a <;> rfl
theorem hz1_1 : (![0, 0] : Fin S1x1024.rank → ℕ) = fun _ => 0 := by funext a; fin_cases a <;> rfl

/-! ## The body's three runs -/

set_option maxHeartbeats 1000000 in
/-- k = 0 (and k ≠ 3): whatever the accumulator held, it ends at the product added to zero. -/
theorem body1_first (c : Dev nD) (E : Set ℕ) (i : grid1.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : condA1 i) (hB : ¬ condB1 i)
    (x : Vec F S256x1024 .f32) (w : Vec F S1024x1024 .f32) (mk : Vec F S1024x1024 .i32) (K : PUnit → sProp 𝕄) :
    iprop(owns (c : Thread nD τ) arg3 fullShare x ∗ owns (c : Thread nD τ) arg4 fullShare w ∗ owns (c : Thread nD τ) arg6 fullShare mk
        ∗ (∃ s, owns (c : Thread nD τ) arg8 fullShare s)
        ∗ (iprop(owns (c : Thread nD τ) arg3 fullShare x ∗ owns (c : Thread nD τ) arg4 fullShare w ∗ owns (c : Thread nD τ) arg6 fullShare mk
            ∗ owns (c : Thread nD τ) arg8 fullShare (k1_pay2 x w mk (k1_pay1 (F := F)))) -∗ K ⟨⟩))
      ⊢ wp frame (wpE (defs₀ (F := F)) Variants.none c none) E (cc1__masked_linear_kernel i arg3 harg3 arg4 harg4 arg5 harg5 arg6 harg6 arg7 harg7 arg8 harg8) K := by
  simp only [cc1__masked_linear_kernel_eq_skeleton]; unfold cc1__masked_linear_kernel_skel
  unfold owns
  iintro ⟨⟨%f3, %hf3, H3⟩, ⟨%f4, %hf4, H4⟩, ⟨%f6, %hf6, H6⟩, ⟨%s, %f8, -, H8⟩, Hk⟩
  obtain rfl := harg3.eq_unread hf3; obtain rfl := harg4.eq_unread hf4; obtain rfl := harg6.eq_unread hf6
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz1_256 inb_S256x1024_S256x1024_0_0 y⟩)]
  rw [View.canon_cons_unit_zero hz1_256]
  sl_unfold_words
  simp only [View.readAt_eq_ld, harg3.read_unread, harg4.read_unread, harg6.read_unread, View.ld_unit_zero (S := S256x1024) hz1_256,
    View.ld_unit_zero (S := S1024x1024) hz1_1024, View.readCov_unit_zero (S := S256x1024) _ hz1_256]

set_option maxHeartbeats 1000000 in
/-- 0 < k < 3: the product is added to what the accumulator held. -/
theorem body1_middle (c : Dev nD) (E : Set ℕ) (i : grid1.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA1 i) (hB : ¬ condB1 i)
    (x : Vec F S256x1024 .f32) (w : Vec F S1024x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg6 fullShare mk
        ∗ owns (c : Thread nD τ) arg8 fullShare s
        ∗ (iprop(owns (c : Thread nD τ) arg3 fullShare x ∗ owns (c : Thread nD τ) arg4 fullShare w ∗ owns (c : Thread nD τ) arg6 fullShare mk
            ∗ owns (c : Thread nD τ) arg8 fullShare (k1_pay2 x w mk s)) -∗ K ⟨⟩))
      ⊢ wp frame (wpE (defs₀ (F := F)) Variants.none c none) E (cc1__masked_linear_kernel i arg3 harg3 arg4 harg4 arg5 harg5 arg6 harg6 arg7 harg7 arg8 harg8) K := by
  simp only [cc1__masked_linear_kernel_eq_skeleton]; unfold cc1__masked_linear_kernel_skel
  unfold owns
  iintro ⟨⟨%f3, %hf3, H3⟩, ⟨%f4, %hf4, H4⟩, ⟨%f6, %hf6, H6⟩, ⟨%f8, %hf8, H8⟩, Hk⟩
  obtain rfl := harg3.eq_unread hf3; obtain rfl := harg4.eq_unread hf4; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz1_256 inb_S256x1024_S256x1024_0_0 y⟩)]
  rw [View.canon_cons_unit_zero hz1_256]
  sl_unfold_words
  simp only [View.readAt_eq_ld, harg3.read_unread, harg4.read_unread, harg6.read_unread, harg8.read_unread, View.ld_unit_zero (S := S256x1024) hz1_256,
    View.ld_unit_zero (S := S1024x1024) hz1_1024]

set_option maxHeartbeats 1000000 in
/-- k = 7 (and k ≠ 0): the product is added, and the result block is the activation of accumulator plus bias. -/
theorem body1_last (c : Dev nD) (E : Set ℕ) (i : grid1.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA1 i) (hB : condB1 i)
    (x : Vec F S256x1024 .f32) (w : Vec F S1024x1024 .f32) (b : Vec F S1x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare mk ∗ (∃ d, owns (c : Thread nD τ) arg7 fullShare d)
        ∗ owns (c : Thread nD τ) arg8 fullShare s
        ∗ (iprop(owns (c : Thread nD τ) arg3 fullShare x ∗ owns (c : Thread nD τ) arg4 fullShare w ∗ owns (c : Thread nD τ) arg5 fullShare b
            ∗ owns (c : Thread nD τ) arg6 fullShare mk ∗ owns (c : Thread nD τ) arg7 fullShare (k1_pay3 (k1_pay2 x w mk s) b)
            ∗ owns (c : Thread nD τ) arg8 fullShare (k1_pay2 x w mk s)) -∗ K ⟨⟩))
      ⊢ wp frame (wpE (defs₀ (F := F)) Variants.none c none) E (cc1__masked_linear_kernel i arg3 harg3 arg4 harg4 arg5 harg5 arg6 harg6 arg7 harg7 arg8 harg8) K := by
  simp only [cc1__masked_linear_kernel_eq_skeleton]; unfold cc1__masked_linear_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz1_256 inb_S256x1024_S256x1024_0_0 y⟩)]
    rw [View.canon_cons_unit_zero hz1_256]
    (try sl_unfold_words)
    simp only [View.readAt_eq_ld, harg3.read_unread, harg4.read_unread, harg5.read_unread, harg6.read_unread, harg8.read_unread, View.ld_unit_zero (S := S256x1024) hz1_256,
      View.ld_unit_zero (S := S1024x1024) hz1_1024, View.ld_unit_zero (S := S1x1024) hz1_1, View.readCov_unit_zero (S := S256x1024) _ hz1_256]
  iexists _; isplitr
  swap; · iexact H8
  ipureintro
  sl_unfold_words
  rw [View.read_writes_eq_canon _ _ _ (fun y => ⟨_, List.mem_cons_self, View.mem_set_unit_zero hz1_256 inb_S256x1024_S256x1024_0_0 y⟩)]
  rw [View.canon_cons_unit_zero hz1_256]
  (try sl_unfold_words)
  simp only [View.readAt_eq_ld, harg3.read_unread, harg4.read_unread, harg6.read_unread, harg8.read_unread, View.ld_unit_zero (S := S256x1024) hz1_256,
    View.ld_unit_zero (S := S1024x1024) hz1_1024]

end Cert.Kernel.Hand

end
-- ==== Proof.Kernel.Region1.lean ====
/-
  The second layer's pallas_call as proof data for the pipeline (see Body1 for the body's three runs).
  V is what the core's buffers hold when the region is entered. Window w's block at point t is read off V
  (iblk1); the accumulator after point t is acc1 (it restarts at the points with k = 0); the block the body
  leaves in the result window at a point with k = 7 is out1. Between points the scratch buffer holds the
  accumulator (Phi1); before the first point it holds anything.
-/
import proofs.«159617_j84035330113916_1_alg».proof.Proof.Kernel.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, accumulator, result block -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' block (256 rows, 1024 contraction positions). -/
abbrev xb1 (c : Dev nD) (t : Fin cfg1.N) : Vec F S256x1024 .f32 := iblk1 V c 0 t
/-- The weights' block (1024 output columns, 1024 contraction positions). -/
abbrev wb1 (c : Dev nD) (t : Fin cfg1.N) : Vec F S1024x1024 .f32 := iblk1 V c 1 t
/-- The bias row's block. -/
abbrev bb1 (c : Dev nD) (t : Fin cfg1.N) : Vec F S1x1024 .f32 := iblk1 V c 2 t
/-- The mask's block, as 32-bit words. -/
abbrev mb1 (c : Dev nD) (t : Fin cfg1.N) : Vec F S1024x1024 .i32 := iblk1 V c 3 t

/-- The accumulator after point `n`: this point's product added to zero when k = 0, else to what the point before left. -/
def acc1 (c : Dev nD) : (n : ℕ) → n < cfg1.N → Vec F S256x1024 .f32
  | 0, h => k1_pay2 (xb1 V c ⟨0, h⟩) (wb1 V c ⟨0, h⟩) (mb1 V c ⟨0, h⟩) (k1_pay1 (F := F))
  | n + 1, h => k1_pay2 (xb1 V c ⟨n + 1, h⟩) (wb1 V c ⟨n + 1, h⟩) (mb1 V c ⟨n + 1, h⟩)
      (if (n + 1) % 8 = 0 then k1_pay1 (F := F) else acc1 c n (Nat.lt_of_succ_lt h))

theorem acc1_first (c : Dev nD) (t : Fin cfg1.N) (h : t.val % 8 = 0) :
    acc1 V c t.val t.isLt = k1_pay2 (xb1 V c t) (wb1 V c t) (mb1 V c t) (k1_pay1 (F := F)) := by
  obtain ⟨n, hn⟩ := t
  cases n with
  | zero => rfl
  | succ n =>
    show k1_pay2 _ _ _ (if (n + 1) % 8 = 0 then _ else _) = _
    rw [if_pos h]

theorem acc1_next (c : Dev nD) (t : Fin cfg1.N) (h : ¬ t.val % 8 = 0) :
    acc1 V c t.val t.isLt = k1_pay2 (xb1 V c t) (wb1 V c t) (mb1 V c t) (acc1 V c (t.val - 1) (Nat.lt_of_le_of_lt (Nat.sub_le _ _) t.isLt)) := by
  obtain ⟨n, hn⟩ := t
  cases n with
  | zero => exact absurd (Nat.zero_mod _) h
  | succ n =>
    show k1_pay2 _ _ _ (if (n + 1) % 8 = 0 then _ else _) = _
    rw [if_neg h]; rfl

/-- The block the body stores into the result window at a point with k = 7. -/
def out1 (c : Dev nD) (t : Fin cfg1.N) : Vec F S256x1024 .f32 := k1_pay3 (acc1 V c t.val t.isLt) (bb1 V c t)

/-! ## The invariant between points -/

/-- The accumulator's scratch buffer. -/
abbrev scM1 : Memref sig .tc .vmem S256x1024 .f32 := Memref.whole cc1_scratch0

/-- The core's scoped buffers other than this call's staging buffers and its scratch, at some contents. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the scratch buffer split off. -/
theorem PhiA1_split (c : Dev nD) :
    (Pipeline.ΦA spec1 c : sProp 𝕄)
      = iprop(((∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [bigSepL_singleton, scM1, owns_whole]
  rfl

/-- Before point `n`: anything at the start, then the scratch at the accumulator the point before left. -/
def Phi1 (c : Dev nD) : (n : ℕ) → n ≤ cfg1.N → sProp 𝕄
  | 0, _ => Pipeline.ΦA spec1 c
  | n + 1, hn => iprop((owns (c : Thread nD τ) scM1 fullShare (acc1 V c n hn) ∗ others1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ others1 (F := F) c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) : (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

/-- An input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
/-- At a point with k = 7 the result window holds the finished block. -/
theorem leaves1_4_last (c : Dev nD) (t : Fin cfg1.N) (h : t.val % 8 = 7) :
    (dat1 V c).leavesExact 4 t = owns (c : Thread nD τ) (st1_4 t) fullShare (out1 V c t) := by
  unfold Dat.leavesExact
  rw [show cfg1.idle 4 (cfg1.grid.coords t) = false from by
    have := (idle1_4 t).not.mpr (not_not.mpr h); simpa using this, after1_4]
/-- At the other points it is handed back as found. -/
theorem leaves1_4_idle (c : Dev nD) (t : Fin cfg1.N) (h : ¬ t.val % 8 = 7) :
    (dat1 V c).leavesExact 4 t = iprop(∃ d, owns (c : Thread nD τ) (st1_4 t) fullShare ((dat1 V c).before 4 t d)) :=
  (dat1 V c).leavesExact_idle 4 t ((idle1_4 t).mpr h) (by
    have := (flush1_4 t).not.mpr h; simpa using this)

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, Phi1_castSucc]
  have hN : t.val < 512 := lt_of_lt_of_eq t.isLt (show cfg1.N = 512 from N_1)
  by_cases h0 : t.val % 8 = 0
  · have h3 : ¬ t.val % 8 = 7 := by omega
    rw [leaves1_4_idle V c t h3, acc1_first V c t h0]
    have hpre : Phi1 V c t.val (Nat.le_of_lt t.isLt) ⊢
        iprop(((∃ d, owns (c : Thread nD τ) scM1 fullShare d) ∗ others1 (F := F) c) ∗ (∃ r, prngReg c r)) := by
      by_cases hz : t.val = 0
      · rw [Phi1_zero V c _ _ hz, PhiA1_split]
      · rw [Phi1_pos V c _ _ hz]
        iintro ⟨⟨HS, HO⟩, Hg⟩
        isplitr [Hg]
        · isplitl [HS]; · iexists _; iexact HS
          iexact HO
        iexact Hg
    iintro ⟨HΦ, Ho, ⟨%d0, H0⟩, ⟨%d1, H1⟩, ⟨%d2, H2⟩, ⟨%d3, H3⟩, H4⟩
    ihave HΦ' := hpre $$ HΦ
    icases HΦ' with ⟨⟨HS, HO⟩, Hg⟩
    iapply (body1_first c Set.univ (grid1.coords t) _ _ _ _ _ _ _ _ _ _ _ _ ((hcondA1 t).mpr h0) (fun h => h3 ((hcondB1 t).mp h))
      (xb1 V c t) (wb1 V c t) (mb1 V c t) _)
    isplitl [H0]; · iexact H0
    isplitl [H1]; · iexact H1
    isplitl [H3]; · iexact H3
    isplitl [HS]; · iexact HS
    iintro ⟨H0, H1, H3, HS⟩
    isplitl [HS HO Hg]
    · isplitr [Hg]
      · isplitl [HS]; · iexact HS
        iexact HO
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi1_pos V c _ _ hz, acc1_next V c t h0]
    by_cases h3 : t.val % 8 = 7
    · rw [leaves1_4_last V c t h3]
      unfold out1
      rw [acc1_next V c t h0]
      iintro ⟨⟨⟨HS, HO⟩, Hg⟩, Ho, ⟨%d0, H0⟩, ⟨%d1, H1⟩, ⟨%d2, H2⟩, ⟨%d3, H3⟩, H4⟩
      iapply (body1_last c Set.univ (grid1.coords t) _ _ _ _ _ _ _ _ _ _ _ _ (fun h => h0 ((hcondA1 t).mp h)) ((hcondB1 t).mpr h3)
        (xb1 V c t) (wb1 V c t) (bb1 V c t) (mb1 V c t) _ _)
      isplitl [H0]; · iexact H0
      isplitl [H1]; · iexact H1
      isplitl [H2]; · iexact H2
      isplitl [H3]; · iexact H3
      isplitl [H4]
      · icases H4 with ⟨%d4, H4⟩; iexists _; iexact H4
      isplitl [HS]; · iexact HS
      iintro ⟨H0, H1, H2, H3, H4, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4
    · rw [leaves1_4_idle V c t h3]
      iintro ⟨⟨⟨HS, HO⟩, Hg⟩, Ho, ⟨%d0, H0⟩, ⟨%d1, H1⟩, ⟨%d2, H2⟩, ⟨%d3, H3⟩, H4⟩
      iapply (body1_middle c Set.univ (grid1.coords t) _ _ _ _ _ _ _ _ _ _ _ _ (fun h => h0 ((hcondA1 t).mp h)) (fun h => h3 ((hcondB1 t).mp h))
        (xb1 V c t) (wb1 V c t) (mb1 V c t) _ _)
      isplitl [H0]; · iexact H0
      isplitl [H1]; · iexact H1
      isplitl [H3]; · iexact H3
      isplitl [HS]; · iexact HS
      iintro ⟨H0, H1, H3, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 512 := N_1; omega), PhiA1_split]
  iintro ⟨⟨HS, HO⟩, Hg⟩
  isplitr [Hg]
  · isplitl [HS]; · iexists _; iexact HS
    iexact HO
  iexact Hg

end Cert.Kernel.Hand

end
-- ==== Proof.Kernel.Body2.lean ====
/-
  The third masked linear layer's pallas_call (grid 8 x 4 x 8: row block i, column block j, contraction block k;
  point t = (i * 4 + j) * 8 + k), as the pipeline runs it. At every point the body adds the product of the point's
  x block (256 x 1024) with its masked weight block (1024 x 1024, contracted along the second axis of both) into a
  256 x 1024 accumulator held in a scratch buffer, zeroed first when k = 0; when k = 7 it adds the bias row,
  stores the result block. So the accumulator after point t is a recursion on t that restarts
  every eighth point (acc2), and the block written back after the points with k = 7 is out2.
  Stated for any float instance F and any contents V of the core's buffers at the region's entry.
-/
import proofs.«159617_j84035330113916_1_alg».proof.Proof.Gen.Kernel.Launch
import proofs.«159617_j84035330113916_1_alg».proof.Proof.Gen.Kernel.Skeleton
import proofs.«159617_j84035330113916_1_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches of the body, as conditions on the grid point -/

/-- "k = 0": the accumulator is zeroed first. -/
abbrev condA2 (i : grid2.Coords) : Prop :=
  (Scalar.cmpi .ne (Scalar.extui (Scalar.cmpi .eq (BitVec.ofNat 32 (i 2).val) 0#32)) 0#32) = 1#1
/-- "k = 7": the result block is finished and stored. -/
abbrev condB2 (i : grid2.Coords) : Prop := k2_cond2 i = 1#1

theorem hcondA2 : ∀ t : Fin cfg2.N, condA2 (grid2.coords t) ↔ t.val % 8 = 0 :=
  (by decide +kernel : ∀ t : Fin grid2.N, condA2 (grid2.coords t) ↔ t.val % 8 = 0)
theorem hcondB2 : ∀ t : Fin cfg2.N, condB2 (grid2.coords t) ↔ t.val % 8 = 7 :=
  (by decide +kernel : ∀ t : Fin grid2.N, condB2 (grid2.coords t) ↔ t.val % 8 = 7)
/-- The result window is idle exactly at the points with k ≠ 3. -/
theorem idle2_4 : ∀ t : Fin cfg2.N, cfg2.idle 4 (grid2.coords t) = true ↔ ¬ t.val % 8 = 7 :=
  (by decide +kernel : ∀ t : Fin grid2.N, cfg2.idle 4 (grid2.coords t) = true ↔ ¬ t.val % 8 = 7)

theorem hz2_256 : (![0, 0] : Fin S256x1024.rank → ℕ) = fun _ => 0 := by funext a; fin_cases a <;> rfl
theorem hz2_1024 : (![0, 0] : Fin S1024x1024.rank → ℕ) = fun _ => 0 := by funext a; fin_cases a <;> rfl
theorem hz2_1 : (![0, 0] : Fin S1x1024.rank → ℕ) = fun _ => 0 := by funext a; fin_cases a <;> rfl

/-! ## The body's three runs -/

set_option maxHeartbeats 1000000 in
/-- k = 0 (and k ≠ 3): whatever the accumulator held, it ends at the product added to zero. -/
theorem body2_first (c : Dev nD) (E : Set ℕ) (i : grid2.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : condA2 i) (hB : ¬ condB2 i)
    (x : Vec F S256x1024 .f32) (w : Vec F S1024x1024 .f32) (mk : Vec F S1024x1024 .i32) (K : PUnit → sProp 𝕄) :
    iprop(owns (c : Thread nD τ) arg3 fullShare x ∗ owns (c : Thread nD τ) arg4 fullShare w ∗ owns (c : Thread nD τ) arg6 fullShare mk
        ∗ (∃ s, owns (c : Thread nD τ) arg8 fullShare s)
        ∗ (iprop(owns (c : Thread nD τ) arg3 fullShare x ∗ owns (c : Thread nD τ) arg4 fullShare w ∗ owns (c : Thread nD τ) arg6 fullShare mk
            ∗ owns (c : Thread nD τ) arg8 fullShare (k2_pay2 x w mk (k2_pay1 (F := F)))) -∗ K ⟨⟩))
      ⊢ wp frame (wpE (defs₀ (F := F)) Variants.none c none) E (cc2__masked_linear_kernel i arg3 harg3 arg4 harg4 arg5 harg5 arg6 harg6 arg7 harg7 arg8 harg8) K := by
  simp only [cc2__masked_linear_kernel_eq_skeleton]; unfold cc2__masked_linear_kernel_skel
  unfold owns
  iintro ⟨⟨%f3, %hf3, H3⟩, ⟨%f4, %hf4, H4⟩, ⟨%f6, %hf6, H6⟩, ⟨%s, %f8, -, H8⟩, Hk⟩
  obtain rfl := harg3.eq_unread hf3; obtain rfl := harg4.eq_unread hf4; obtain rfl := harg6.eq_unread hf6
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz2_256 inb_S256x1024_S256x1024_0_0 y⟩)]
  rw [View.canon_cons_unit_zero hz2_256]
  sl_unfold_words
  simp only [View.readAt_eq_ld, harg3.read_unread, harg4.read_unread, harg6.read_unread, View.ld_unit_zero (S := S256x1024) hz2_256,
    View.ld_unit_zero (S := S1024x1024) hz2_1024, View.readCov_unit_zero (S := S256x1024) _ hz2_256]

set_option maxHeartbeats 1000000 in
/-- 0 < k < 3: the product is added to what the accumulator held. -/
theorem body2_middle (c : Dev nD) (E : Set ℕ) (i : grid2.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA2 i) (hB : ¬ condB2 i)
    (x : Vec F S256x1024 .f32) (w : Vec F S1024x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg6 fullShare mk
        ∗ owns (c : Thread nD τ) arg8 fullShare s
        ∗ (iprop(owns (c : Thread nD τ) arg3 fullShare x ∗ owns (c : Thread nD τ) arg4 fullShare w ∗ owns (c : Thread nD τ) arg6 fullShare mk
            ∗ owns (c : Thread nD τ) arg8 fullShare (k2_pay2 x w mk s)) -∗ K ⟨⟩))
      ⊢ wp frame (wpE (defs₀ (F := F)) Variants.none c none) E (cc2__masked_linear_kernel i arg3 harg3 arg4 harg4 arg5 harg5 arg6 harg6 arg7 harg7 arg8 harg8) K := by
  simp only [cc2__masked_linear_kernel_eq_skeleton]; unfold cc2__masked_linear_kernel_skel
  unfold owns
  iintro ⟨⟨%f3, %hf3, H3⟩, ⟨%f4, %hf4, H4⟩, ⟨%f6, %hf6, H6⟩, ⟨%f8, %hf8, H8⟩, Hk⟩
  obtain rfl := harg3.eq_unread hf3; obtain rfl := harg4.eq_unread hf4; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz2_256 inb_S256x1024_S256x1024_0_0 y⟩)]
  rw [View.canon_cons_unit_zero hz2_256]
  sl_unfold_words
  simp only [View.readAt_eq_ld, harg3.read_unread, harg4.read_unread, harg6.read_unread, harg8.read_unread, View.ld_unit_zero (S := S256x1024) hz2_256,
    View.ld_unit_zero (S := S1024x1024) hz2_1024]

set_option maxHeartbeats 1000000 in
/-- k = 7 (and k ≠ 0): the product is added, and the result block is accumulator plus bias. -/
theorem body2_last (c : Dev nD) (E : Set ℕ) (i : grid2.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA2 i) (hB : condB2 i)
    (x : Vec F S256x1024 .f32) (w : Vec F S1024x1024 .f32) (b : Vec F S1x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare mk ∗ (∃ d, owns (c : Thread nD τ) arg7 fullShare d)
        ∗ owns (c : Thread nD τ) arg8 fullShare s
        ∗ (iprop(owns (c : Thread nD τ) arg3 fullShare x ∗ owns (c : Thread nD τ) arg4 fullShare w ∗ owns (c : Thread nD τ) arg5 fullShare b
            ∗ owns (c : Thread nD τ) arg6 fullShare mk ∗ owns (c : Thread nD τ) arg7 fullShare (k2_pay3 (k2_pay2 x w mk s) b)
            ∗ owns (c : Thread nD τ) arg8 fullShare (k2_pay2 x w mk s)) -∗ K ⟨⟩))
      ⊢ wp frame (wpE (defs₀ (F := F)) Variants.none c none) E (cc2__masked_linear_kernel i arg3 harg3 arg4 harg4 arg5 harg5 arg6 harg6 arg7 harg7 arg8 harg8) K := by
  simp only [cc2__masked_linear_kernel_eq_skeleton]; unfold cc2__masked_linear_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_256 inb_S256x1024_S256x1024_0_0 y⟩)]
    rw [View.canon_cons_unit_zero hz2_256]
    (try sl_unfold_words)
    simp only [View.readAt_eq_ld, harg3.read_unread, harg4.read_unread, harg5.read_unread, harg6.read_unread, harg8.read_unread, View.ld_unit_zero (S := S256x1024) hz2_256,
      View.ld_unit_zero (S := S1024x1024) hz2_1024, View.ld_unit_zero (S := S1x1024) hz2_1, View.readCov_unit_zero (S := S256x1024) _ hz2_256]
  iexists _; isplitr
  swap; · iexact H8
  ipureintro
  sl_unfold_words
  rw [View.read_writes_eq_canon _ _ _ (fun y => ⟨_, List.mem_cons_self, View.mem_set_unit_zero hz2_256 inb_S256x1024_S256x1024_0_0 y⟩)]
  rw [View.canon_cons_unit_zero hz2_256]
  (try sl_unfold_words)
  simp only [View.readAt_eq_ld, harg3.read_unread, harg4.read_unread, harg6.read_unread, harg8.read_unread, View.ld_unit_zero (S := S256x1024) hz2_256,
    View.ld_unit_zero (S := S1024x1024) hz2_1024]

end Cert.Kernel.Hand

end
-- ==== Proof.Kernel.Region2.lean ====
/-
  The third layer's pallas_call as proof data for the pipeline (see Body2 for the body's three runs).
  V is what the core's buffers hold when the region is entered. Window w's block at point t is read off V
  (iblk2); the accumulator after point t is acc2 (it restarts at the points with k = 0); the block the body
  leaves in the result window at a point with k = 7 is out2. Between points the scratch buffer holds the
  accumulator (Phi2); before the first point it holds anything.
-/
import proofs.«159617_j84035330113916_1_alg».proof.Proof.Kernel.Body2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, accumulator, result block -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' block (256 rows, 1024 contraction positions). -/
abbrev xb2 (c : Dev nD) (t : Fin cfg2.N) : Vec F S256x1024 .f32 := iblk2 V c 0 t
/-- The weights' block (1024 output columns, 1024 contraction positions). -/
abbrev wb2 (c : Dev nD) (t : Fin cfg2.N) : Vec F S1024x1024 .f32 := iblk2 V c 1 t
/-- The bias row's block. -/
abbrev bb2 (c : Dev nD) (t : Fin cfg2.N) : Vec F S1x1024 .f32 := iblk2 V c 2 t
/-- The mask's block, as 32-bit words. -/
abbrev mb2 (c : Dev nD) (t : Fin cfg2.N) : Vec F S1024x1024 .i32 := iblk2 V c 3 t

/-- The accumulator after point `n`: this point's product added to zero when k = 0, else to what the point before left. -/
def acc2 (c : Dev nD) : (n : ℕ) → n < cfg2.N → Vec F S256x1024 .f32
  | 0, h => k2_pay2 (xb2 V c ⟨0, h⟩) (wb2 V c ⟨0, h⟩) (mb2 V c ⟨0, h⟩) (k2_pay1 (F := F))
  | n + 1, h => k2_pay2 (xb2 V c ⟨n + 1, h⟩) (wb2 V c ⟨n + 1, h⟩) (mb2 V c ⟨n + 1, h⟩)
      (if (n + 1) % 8 = 0 then k2_pay1 (F := F) else acc2 c n (Nat.lt_of_succ_lt h))

theorem acc2_first (c : Dev nD) (t : Fin cfg2.N) (h : t.val % 8 = 0) :
    acc2 V c t.val t.isLt = k2_pay2 (xb2 V c t) (wb2 V c t) (mb2 V c t) (k2_pay1 (F := F)) := by
  obtain ⟨n, hn⟩ := t
  cases n with
  | zero => rfl
  | succ n =>
    show k2_pay2 _ _ _ (if (n + 1) % 8 = 0 then _ else _) = _
    rw [if_pos h]

theorem acc2_next (c : Dev nD) (t : Fin cfg2.N) (h : ¬ t.val % 8 = 0) :
    acc2 V c t.val t.isLt = k2_pay2 (xb2 V c t) (wb2 V c t) (mb2 V c t) (acc2 V c (t.val - 1) (Nat.lt_of_le_of_lt (Nat.sub_le _ _) t.isLt)) := by
  obtain ⟨n, hn⟩ := t
  cases n with
  | zero => exact absurd (Nat.zero_mod _) h
  | succ n =>
    show k2_pay2 _ _ _ (if (n + 1) % 8 = 0 then _ else _) = _
    rw [if_neg h]; rfl

/-- The block the body stores into the result window at a point with k = 7. -/
def out2 (c : Dev nD) (t : Fin cfg2.N) : Vec F S256x1024 .f32 := k2_pay3 (acc2 V c t.val t.isLt) (bb2 V c t)

/-! ## The invariant between points -/

/-- The accumulator's scratch buffer. -/
abbrev scM2 : Memref sig .tc .vmem S256x1024 .f32 := Memref.whole cc2_scratch0

/-- The core's scoped buffers other than this call's staging buffers and its scratch, at some contents. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the scratch buffer split off. -/
theorem PhiA2_split (c : Dev nD) :
    (Pipeline.ΦA spec2 c : sProp 𝕄)
      = iprop(((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [bigSepL_singleton, scM2, owns_whole]
  rfl

/-- Before point `n`: anything at the start, then the scratch at the accumulator the point before left. -/
def Phi2 (c : Dev nD) : (n : ℕ) → n ≤ cfg2.N → sProp 𝕄
  | 0, _ => Pipeline.ΦA spec2 c
  | n + 1, hn => iprop((owns (c : Thread nD τ) scM2 fullShare (acc2 V c n hn) ∗ others2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ others2 (F := F) c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ others2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) : (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

/-- An input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (st2_3 t) fullShare (iblk2 V c 3 t) := by
  unfold Dat.leavesExact; rw [show cfg2.idle 3 (cfg2.grid.coords t) = false from rfl, after2_3]
/-- At a point with k = 7 the result window holds the finished block. -/
theorem leaves2_4_last (c : Dev nD) (t : Fin cfg2.N) (h : t.val % 8 = 7) :
    (dat2 V c).leavesExact 4 t = owns (c : Thread nD τ) (st2_4 t) fullShare (out2 V c t) := by
  unfold Dat.leavesExact
  rw [show cfg2.idle 4 (cfg2.grid.coords t) = false from by
    have := (idle2_4 t).not.mpr (not_not.mpr h); simpa using this, after2_4]
/-- At the other points it is handed back as found. -/
theorem leaves2_4_idle (c : Dev nD) (t : Fin cfg2.N) (h : ¬ t.val % 8 = 7) :
    (dat2 V c).leavesExact 4 t = iprop(∃ d, owns (c : Thread nD τ) (st2_4 t) fullShare ((dat2 V c).before 4 t d)) :=
  (dat2 V c).leavesExact_idle 4 t ((idle2_4 t).mpr h) (by
    have := (flush2_4 t).not.mpr h; simpa using this)

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, Phi2_castSucc]
  have hN : t.val < 256 := lt_of_lt_of_eq t.isLt (show cfg2.N = 256 from N_2)
  by_cases h0 : t.val % 8 = 0
  · have h3 : ¬ t.val % 8 = 7 := by omega
    rw [leaves2_4_idle V c t h3, acc2_first V c t h0]
    have hpre : Phi2 V c t.val (Nat.le_of_lt t.isLt) ⊢
        iprop(((∃ d, owns (c : Thread nD τ) scM2 fullShare d) ∗ others2 (F := F) c) ∗ (∃ r, prngReg c r)) := by
      by_cases hz : t.val = 0
      · rw [Phi2_zero V c _ _ hz, PhiA2_split]
      · rw [Phi2_pos V c _ _ hz]
        iintro ⟨⟨HS, HO⟩, Hg⟩
        isplitr [Hg]
        · isplitl [HS]; · iexists _; iexact HS
          iexact HO
        iexact Hg
    iintro ⟨HΦ, Ho, ⟨%d0, H0⟩, ⟨%d1, H1⟩, ⟨%d2, H2⟩, ⟨%d3, H3⟩, H4⟩
    ihave HΦ' := hpre $$ HΦ
    icases HΦ' with ⟨⟨HS, HO⟩, Hg⟩
    iapply (body2_first c Set.univ (grid2.coords t) _ _ _ _ _ _ _ _ _ _ _ _ ((hcondA2 t).mpr h0) (fun h => h3 ((hcondB2 t).mp h))
      (xb2 V c t) (wb2 V c t) (mb2 V c t) _)
    isplitl [H0]; · iexact H0
    isplitl [H1]; · iexact H1
    isplitl [H3]; · iexact H3
    isplitl [HS]; · iexact HS
    iintro ⟨H0, H1, H3, HS⟩
    isplitl [HS HO Hg]
    · isplitr [Hg]
      · isplitl [HS]; · iexact HS
        iexact HO
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi2_pos V c _ _ hz, acc2_next V c t h0]
    by_cases h3 : t.val % 8 = 7
    · rw [leaves2_4_last V c t h3]
      unfold out2
      rw [acc2_next V c t h0]
      iintro ⟨⟨⟨HS, HO⟩, Hg⟩, Ho, ⟨%d0, H0⟩, ⟨%d1, H1⟩, ⟨%d2, H2⟩, ⟨%d3, H3⟩, H4⟩
      iapply (body2_last c Set.univ (grid2.coords t) _ _ _ _ _ _ _ _ _ _ _ _ (fun h => h0 ((hcondA2 t).mp h)) ((hcondB2 t).mpr h3)
        (xb2 V c t) (wb2 V c t) (bb2 V c t) (mb2 V c t) _ _)
      isplitl [H0]; · iexact H0
      isplitl [H1]; · iexact H1
      isplitl [H2]; · iexact H2
      isplitl [H3]; · iexact H3
      isplitl [H4]
      · icases H4 with ⟨%d4, H4⟩; iexists _; iexact H4
      isplitl [HS]; · iexact HS
      iintro ⟨H0, H1, H2, H3, H4, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4
    · rw [leaves2_4_idle V c t h3]
      iintro ⟨⟨⟨HS, HO⟩, Hg⟩, Ho, ⟨%d0, H0⟩, ⟨%d1, H1⟩, ⟨%d2, H2⟩, ⟨%d3, H3⟩, H4⟩
      iapply (body2_middle c Set.univ (grid2.coords t) _ _ _ _ _ _ _ _ _ _ _ _ (fun h => h0 ((hcondA2 t).mp h)) (fun h => h3 ((hcondB2 t).mp h))
        (xb2 V c t) (wb2 V c t) (mb2 V c t) _ _)
      isplitl [H0]; · iexact H0
      isplitl [H1]; · iexact H1
      isplitl [H3]; · iexact H3
      isplitl [HS]; · iexact HS
      iintro ⟨H0, H1, H3, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives it back, the accumulator's contents forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 256 := N_2; omega), PhiA2_split]
  iintro ⟨⟨HS, HO⟩, Hg⟩
  isplitr [Hg]
  · isplitl [HS]; · iexists _; iexact HS
    iexact HO
  iexact Hg

end Cert.Kernel.Hand

end
-- ==== Proof.Kernel.Run.lean ====
/-
  The three layers' regions in order, as @main runs them: between two items every unscoped buffer of the core
  is held at contents named by a fold from the launch memory — a host stretch applies its operations
  (the bias row reshaped, the mask widened to 32-bit words), a region leaves its result array at what its
  write-backs produce and everything else as it found it. The run ends with the last result array at the third
  region's final contents and every argument array as launched.
-/
import proofs.«159617_j84035330113916_1_alg».proof.Proof.Kernel.Region0
import proofs.«159617_j84035330113916_1_alg».proof.Proof.Kernel.Region1
import proofs.«159617_j84035330113916_1_alg».proof.Proof.Kernel.Region2
import proofs.«159617_j84035330113916_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (layer 1's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After layer 1's region: its arrays at what the pipeline leaves (the inputs as entered, the result's blocks
    written back), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- A buffer other than the result keeps its contents through the region: an input window's array is never written,
    and a buffer no window stages is not touched. -/
theorem W2_keep (c : Dev nD) (b : Ref sig .tc) (hb : b ≠ main_v2) : W2 m c (Proc.devRef .tc b) = W1 m c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact (W2_arr m c w).trans (((dat0 (V1 m) c).arrAt_in w hin _).trans (A_eq0 (V1 m) c w))
  · exact W2_of_ne m c b fun w e => h ⟨w, e⟩

/-- After the second host stretch (layer 2's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After layer 2's region: its arrays at what the pipeline leaves (the inputs as entered, the result's blocks
    written back), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- A buffer other than the result keeps its contents through the region: an input window's array is never written,
    and a buffer no window stages is not touched. -/
theorem W4_keep (c : Dev nD) (b : Ref sig .tc) (hb : b ≠ main_v5) : W4 m c (Proc.devRef .tc b) = W3 m c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact (W4_arr m c w).trans (((dat1 (V3 m) c).arrAt_in w hin _).trans (A_eq1 (V3 m) c w))
  · exact W4_of_ne m c b fun w e => h ⟨w, e⟩

/-- After the third host stretch (layer 3's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After layer 3's region: its arrays at what the pipeline leaves (the inputs as entered, the result's blocks
    written back), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- A buffer other than the result keeps its contents through the region: an input window's array is never written,
    and a buffer no window stages is not touched. -/
theorem W6_keep (c : Dev nD) (b : Ref sig .tc) (hb : b ≠ main_v8) : W6 m c (Proc.devRef .tc b) = W5 m c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact (W6_arr m c w).trans (((dat2 (V5 m) c).arrAt_in w hin _).trans (A_eq2 (V5 m) c w))
  · exact W6_of_ne m c b fun w e => h ⟨w, e⟩

/-! ## The arguments end as launched -/

/-- A buffer no host stretch writes and no region's result lands in holds its launch contents at the end. -/
theorem W6_through (c : Dev nD) (r : Ref sig .tc) (h0 : r ∉ hostOps0_W) (h1 : r ≠ main_v2) (h2 : r ∉ hostOps1_W) (h3 : r ≠ main_v5)
    (h4 : r ∉ hostOps2_W) (h5 : r ≠ main_v8) : W6 m c (Proc.devRef .tc r) = m ((c : Thread nD τ).loc r) :=
  (W6_keep m c r h5).trans <| (StableHlo.after_of_writes_sub hostOps2 _ hostOps2_writes h4).trans <|
    (W4_keep m c r h3).trans <| (StableHlo.after_of_writes_sub hostOps1 _ hostOps1_writes h2).trans <|
    (W2_keep m c r h1).trans <| (StableHlo.after_of_writes_sub hostOps0 _ hostOps0_writes h0).trans rfl

theorem W6_main_arg0 (c : Dev nD) : W6 m c (Proc.devRef .tc main_arg0) = m ((c : Thread nD τ).loc main_arg0) :=
  W6_through m c main_arg0 (by decide) (by decide) (by decide) (by decide) (by decide) (by decide)
theorem W6_main_arg1 (c : Dev nD) : W6 m c (Proc.devRef .tc main_arg1) = m ((c : Thread nD τ).loc main_arg1) :=
  W6_through m c main_arg1 (by decide) (by decide) (by decide) (by decide) (by decide) (by decide)
theorem W6_main_arg2 (c : Dev nD) : W6 m c (Proc.devRef .tc main_arg2) = m ((c : Thread nD τ).loc main_arg2) :=
  W6_through m c main_arg2 (by decide) (by decide) (by decide) (by decide) (by decide) (by decide)
theorem W6_main_arg3 (c : Dev nD) : W6 m c (Proc.devRef .tc main_arg3) = m ((c : Thread nD τ).loc main_arg3) :=
  W6_through m c main_arg3 (by decide) (by decide) (by decide) (by decide) (by decide) (by decide)
theorem W6_main_arg4 (c : Dev nD) : W6 m c (Proc.devRef .tc main_arg4) = m ((c : Thread nD τ).loc main_arg4) :=
  W6_through m c main_arg4 (by decide) (by decide) (by decide) (by decide) (by decide) (by decide)
theorem W6_main_arg5 (c : Dev nD) : W6 m c (Proc.devRef .tc main_arg5) = m ((c : Thread nD τ).loc main_arg5) :=
  W6_through m c main_arg5 (by decide) (by decide) (by decide) (by decide) (by decide) (by decide)
theorem W6_main_arg6 (c : Dev nD) : W6 m c (Proc.devRef .tc main_arg6) = m ((c : Thread nD τ).loc main_arg6) :=
  W6_through m c main_arg6 (by decide) (by decide) (by decide) (by decide) (by decide) (by decide)
theorem W6_main_arg7 (c : Dev nD) : W6 m c (Proc.devRef .tc main_arg7) = m ((c : Thread nD τ).loc main_arg7) :=
  W6_through m c main_arg7 (by decide) (by decide) (by decide) (by decide) (by decide) (by decide)
theorem W6_main_arg8 (c : Dev nD) : W6 m c (Proc.devRef .tc main_arg8) = m ((c : Thread nD τ).loc main_arg8) :=
  W6_through m c main_arg8 (by decide) (by decide) (by decide) (by decide) (by decide) (by decide)
theorem W6_main_arg9 (c : Dev nD) : W6 m c (Proc.devRef .tc main_arg9) = m ((c : Thread nD τ).loc main_arg9) :=
  W6_through m c main_arg9 (by decide) (by decide) (by decide) (by decide) (by decide) (by decide)

/-! ## The proof data family and the thread state -/

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Layer 1's region over the thread state: entered with every unscoped buffer at `W1`, left with them at `W2`.
    Its five arrays are split out of the unscoped buffers and put back at what the write-backs leave; the
    generator register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at `W3`, left with them at `W4`.
    Its five arrays are split out of the unscoped buffers and put back at what the write-backs leave; the
    generator register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region over the thread state: entered with every unscoped buffer at `W5`, left with them at `W6`.
    Its five arrays are split out of the unscoped buffers and put back at what the write-backs leave; the
    generator register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting; the last
    layer's result array ends at what the third region's write-backs leave, and every argument array as launched. -/
theorem run_main : θ_run defs (onTc (τ := τ) (main (F := F))) ⟨m, fun _ => 0, ρ⟩ (fun r => ∀ c : Dev nD,
      r.2.mem ((c.tc : Thread nD τ).loc main_v8) = (dat2 (V5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v8 (by decide))).trans (W6_arr m c 4),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c),
       (h c _ (mem_uc main_arg8 (by decide))).trans (W6_main_arg8 m c),
       (h c _ (mem_uc main_arg9 (by decide))).trans (W6_main_arg9 m c)⟩)

end Cert.Kernel.Hand

end
-- ==== Proof.KernelIdeal.Body0.lean ====
/-
  The first masked linear layer's pallas_call (grid 8 x 8 x 4: row block i, column block j, contraction block k;
  point t = (i * 8 + j) * 4 + k), as the pipeline runs it. At every point the body adds the product of the point's
  x block (256 x 1024) with its masked weight block (1024 x 1024, contracted along the second axis of both) into a
  256 x 1024 accumulator held in a scratch buffer, zeroed first when k = 0; when k = 3 it adds the bias row,
  applies tanh and stores the result block. So the accumulator after point t is a recursion on t that restarts
  every fourth point (acc0), and the block written back after the points with k = 3 is out0.
  Stated for any float instance F and any contents V of the core's buffers at the region's entry.
-/
import proofs.«159617_j84035330113916_1_alg».proof.Proof.Gen.KernelIdeal.Launch
import proofs.«159617_j84035330113916_1_alg».proof.Proof.Gen.KernelIdeal.Skeleton
import proofs.«159617_j84035330113916_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches of the body, as conditions on the grid point -/

/-- "k = 0": the accumulator is zeroed first. -/
abbrev condA0 (i : grid0.Coords) : Prop :=
  (Scalar.cmpi .ne (Scalar.extui (Scalar.cmpi .eq (BitVec.ofNat 32 (i 2).val) 0#32)) 0#32) = 1#1
/-- "k = 3": the result block is finished and stored. -/
abbrev condB0 (i : grid0.Coords) : Prop := k0_cond2 i = 1#1

theorem hcondA0 : ∀ t : Fin cfg0.N, condA0 (grid0.coords t) ↔ t.val % 4 = 0 :=
  (by decide +kernel : ∀ t : Fin grid0.N, condA0 (grid0.coords t) ↔ t.val % 4 = 0)
theorem hcondB0 : ∀ t : Fin cfg0.N, condB0 (grid0.coords t) ↔ t.val % 4 = 3 :=
  (by decide +kernel : ∀ t : Fin grid0.N, condB0 (grid0.coords t) ↔ t.val % 4 = 3)
/-- The result window is idle exactly at the points with k ≠ 3. -/
theorem idle0_4 : ∀ t : Fin cfg0.N, cfg0.idle 4 (grid0.coords t) = true ↔ ¬ t.val % 4 = 3 :=
  (by decide +kernel : ∀ t : Fin grid0.N, cfg0.idle 4 (grid0.coords t) = true ↔ ¬ t.val % 4 = 3)

theorem hz0_256 : (![0, 0] : Fin S256x1024.rank → ℕ) = fun _ => 0 := by funext a; fin_cases a <;> rfl
theorem hz0_1024 : (![0, 0] : Fin S1024x1024.rank → ℕ) = fun _ => 0 := by funext a; fin_cases a <;> rfl
theorem hz0_1 : (![0, 0] : Fin S1x1024.rank → ℕ) = fun _ => 0 := by funext a; fin_cases a <;> rfl

/-! ## The body's three runs -/

set_option maxHeartbeats 1000000 in
/-- k = 0 (and k ≠ 3): whatever the accumulator held, it ends at the product added to zero. -/
theorem body0_first (c : Dev nD) (E : Set ℕ) (i : grid0.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : condA0 i) (hB : ¬ condB0 i)
    (x : Vec F S256x1024 .f32) (w : Vec F S1024x1024 .f32) (mk : Vec F S1024x1024 .i32) (K : PUnit → sProp 𝕄) :
    iprop(owns (c : Thread nD τ) arg3 fullShare x ∗ owns (c : Thread nD τ) arg4 fullShare w ∗ owns (c : Thread nD τ) arg6 fullShare mk
        ∗ (∃ s, owns (c : Thread nD τ) arg8 fullShare s)
        ∗ (iprop(owns (c : Thread nD τ) arg3 fullShare x ∗ owns (c : Thread nD τ) arg4 fullShare w ∗ owns (c : Thread nD τ) arg6 fullShare mk
            ∗ owns (c : Thread nD τ) arg8 fullShare (k0_pay2 x w mk (k0_pay1 (F := F)))) -∗ K ⟨⟩))
      ⊢ wp frame (wpE (defs₀ (F := F)) Variants.none c none) E (cc0__masked_linear_kernel i arg3 harg3 arg4 harg4 arg5 harg5 arg6 harg6 arg7 harg7 arg8 harg8) K := by
  simp only [cc0__masked_linear_kernel_eq_skeleton]; unfold cc0__masked_linear_kernel_skel
  unfold owns
  iintro ⟨⟨%f3, %hf3, H3⟩, ⟨%f4, %hf4, H4⟩, ⟨%f6, %hf6, H6⟩, ⟨%s, %f8, -, H8⟩, Hk⟩
  obtain rfl := harg3.eq_unread hf3; obtain rfl := harg4.eq_unread hf4; obtain rfl := harg6.eq_unread hf6
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz0_256 inb_S256x1024_S256x1024_0_0 y⟩)]
  rw [View.canon_cons_unit_zero hz0_256]
  sl_unfold_words
  simp only [View.readAt_eq_ld, harg3.read_unread, harg4.read_unread, harg6.read_unread, View.ld_unit_zero (S := S256x1024) hz0_256,
    View.ld_unit_zero (S := S1024x1024) hz0_1024, View.readCov_unit_zero (S := S256x1024) _ hz0_256]

set_option maxHeartbeats 1000000 in
/-- 0 < k < 3: the product is added to what the accumulator held. -/
theorem body0_middle (c : Dev nD) (E : Set ℕ) (i : grid0.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA0 i) (hB : ¬ condB0 i)
    (x : Vec F S256x1024 .f32) (w : Vec F S1024x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg6 fullShare mk
        ∗ owns (c : Thread nD τ) arg8 fullShare s
        ∗ (iprop(owns (c : Thread nD τ) arg3 fullShare x ∗ owns (c : Thread nD τ) arg4 fullShare w ∗ owns (c : Thread nD τ) arg6 fullShare mk
            ∗ owns (c : Thread nD τ) arg8 fullShare (k0_pay2 x w mk s)) -∗ K ⟨⟩))
      ⊢ wp frame (wpE (defs₀ (F := F)) Variants.none c none) E (cc0__masked_linear_kernel i arg3 harg3 arg4 harg4 arg5 harg5 arg6 harg6 arg7 harg7 arg8 harg8) K := by
  simp only [cc0__masked_linear_kernel_eq_skeleton]; unfold cc0__masked_linear_kernel_skel
  unfold owns
  iintro ⟨⟨%f3, %hf3, H3⟩, ⟨%f4, %hf4, H4⟩, ⟨%f6, %hf6, H6⟩, ⟨%f8, %hf8, H8⟩, Hk⟩
  obtain rfl := harg3.eq_unread hf3; obtain rfl := harg4.eq_unread hf4; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz0_256 inb_S256x1024_S256x1024_0_0 y⟩)]
  rw [View.canon_cons_unit_zero hz0_256]
  sl_unfold_words
  simp only [View.readAt_eq_ld, harg3.read_unread, harg4.read_unread, harg6.read_unread, harg8.read_unread, View.ld_unit_zero (S := S256x1024) hz0_256,
    View.ld_unit_zero (S := S1024x1024) hz0_1024]

set_option maxHeartbeats 1000000 in
/-- k = 3 (and k ≠ 0): the product is added, and the result block is the activation of accumulator plus bias. -/
theorem body0_last (c : Dev nD) (E : Set ℕ) (i : grid0.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA0 i) (hB : condB0 i)
    (x : Vec F S256x1024 .f32) (w : Vec F S1024x1024 .f32) (b : Vec F S1x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare mk ∗ (∃ d, owns (c : Thread nD τ) arg7 fullShare d)
        ∗ owns (c : Thread nD τ) arg8 fullShare s
        ∗ (iprop(owns (c : Thread nD τ) arg3 fullShare x ∗ owns (c : Thread nD τ) arg4 fullShare w ∗ owns (c : Thread nD τ) arg5 fullShare b
            ∗ owns (c : Thread nD τ) arg6 fullShare mk ∗ owns (c : Thread nD τ) arg7 fullShare (k0_pay3 (k0_pay2 x w mk s) b)
            ∗ owns (c : Thread nD τ) arg8 fullShare (k0_pay2 x w mk s)) -∗ K ⟨⟩))
      ⊢ wp frame (wpE (defs₀ (F := F)) Variants.none c none) E (cc0__masked_linear_kernel i arg3 harg3 arg4 harg4 arg5 harg5 arg6 harg6 arg7 harg7 arg8 harg8) K := by
  simp only [cc0__masked_linear_kernel_eq_skeleton]; unfold cc0__masked_linear_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz0_256 inb_S256x1024_S256x1024_0_0 y⟩)]
    rw [View.canon_cons_unit_zero hz0_256]
    (try sl_unfold_words)
    simp only [View.readAt_eq_ld, harg3.read_unread, harg4.read_unread, harg5.read_unread, harg6.read_unread, harg8.read_unread, View.ld_unit_zero (S := S256x1024) hz0_256,
      View.ld_unit_zero (S := S1024x1024) hz0_1024, View.ld_unit_zero (S := S1x1024) hz0_1, View.readCov_unit_zero (S := S256x1024) _ hz0_256]
  iexists _; isplitr
  swap; · iexact H8
  ipureintro
  sl_unfold_words
  rw [View.read_writes_eq_canon _ _ _ (fun y => ⟨_, List.mem_cons_self, View.mem_set_unit_zero hz0_256 inb_S256x1024_S256x1024_0_0 y⟩)]
  rw [View.canon_cons_unit_zero hz0_256]
  (try sl_unfold_words)
  simp only [View.readAt_eq_ld, harg3.read_unread, harg4.read_unread, harg6.read_unread, harg8.read_unread, View.ld_unit_zero (S := S256x1024) hz0_256,
    View.ld_unit_zero (S := S1024x1024) hz0_1024]

end Cert.KernelIdeal.Hand

end
-- ==== Proof.KernelIdeal.Region0.lean ====
/-
  The first layer's pallas_call as proof data for the pipeline (see Body0 for the body's three runs).
  V is what the core's buffers hold when the region is entered. Window w's block at point t is read off V
  (iblk0); the accumulator after point t is acc0 (it restarts at the points with k = 0); the block the body
  leaves in the result window at a point with k = 3 is out0. Between points the scratch buffer holds the
  accumulator (Phi0); before the first point it holds anything.
-/
import proofs.«159617_j84035330113916_1_alg».proof.Proof.KernelIdeal.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, accumulator, result block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' block (256 rows, 1024 contraction positions). -/
abbrev xb0 (c : Dev nD) (t : Fin cfg0.N) : Vec F S256x1024 .f32 := iblk0 V c 0 t
/-- The weights' block (1024 output columns, 1024 contraction positions). -/
abbrev wb0 (c : Dev nD) (t : Fin cfg0.N) : Vec F S1024x1024 .f32 := iblk0 V c 1 t
/-- The bias row's block. -/
abbrev bb0 (c : Dev nD) (t : Fin cfg0.N) : Vec F S1x1024 .f32 := iblk0 V c 2 t
/-- The mask's block, as 32-bit words. -/
abbrev mb0 (c : Dev nD) (t : Fin cfg0.N) : Vec F S1024x1024 .i32 := iblk0 V c 3 t

/-- The accumulator after point `n`: this point's product added to zero when k = 0, else to what the point before left. -/
def acc0 (c : Dev nD) : (n : ℕ) → n < cfg0.N → Vec F S256x1024 .f32
  | 0, h => k0_pay2 (xb0 V c ⟨0, h⟩) (wb0 V c ⟨0, h⟩) (mb0 V c ⟨0, h⟩) (k0_pay1 (F := F))
  | n + 1, h => k0_pay2 (xb0 V c ⟨n + 1, h⟩) (wb0 V c ⟨n + 1, h⟩) (mb0 V c ⟨n + 1, h⟩)
      (if (n + 1) % 4 = 0 then k0_pay1 (F := F) else acc0 c n (Nat.lt_of_succ_lt h))

theorem acc0_first (c : Dev nD) (t : Fin cfg0.N) (h : t.val % 4 = 0) :
    acc0 V c t.val t.isLt = k0_pay2 (xb0 V c t) (wb0 V c t) (mb0 V c t) (k0_pay1 (F := F)) := by
  obtain ⟨n, hn⟩ := t
  cases n with
  | zero => rfl
  | succ n =>
    show k0_pay2 _ _ _ (if (n + 1) % 4 = 0 then _ else _) = _
    rw [if_pos h]

theorem acc0_next (c : Dev nD) (t : Fin cfg0.N) (h : ¬ t.val % 4 = 0) :
    acc0 V c t.val t.isLt = k0_pay2 (xb0 V c t) (wb0 V c t) (mb0 V c t) (acc0 V c (t.val - 1) (Nat.lt_of_le_of_lt (Nat.sub_le _ _) t.isLt)) := by
  obtain ⟨n, hn⟩ := t
  cases n with
  | zero => exact absurd (Nat.zero_mod _) h
  | succ n =>
    show k0_pay2 _ _ _ (if (n + 1) % 4 = 0 then _ else _) = _
    rw [if_neg h]; rfl

/-- The block the body stores into the result window at a point with k = 3. -/
def out0 (c : Dev nD) (t : Fin cfg0.N) : Vec F S256x1024 .f32 := k0_pay3 (acc0 V c t.val t.isLt) (bb0 V c t)

/-! ## The invariant between points -/

/-- The accumulator's scratch buffer. -/
abbrev scM0 : Memref sig .tc .vmem S256x1024 .f32 := Memref.whole cc0_scratch0

/-- The core's scoped buffers other than this call's staging buffers and its scratch, at some contents. -/
abbrev others0 (c : Dev nD) : sProp 𝕄 :=
  Pipeline.scopedRestBut (Ix := Unit) (Name := ℕ) (U := UR sig nD τ) (Lvl := ℕ) (Val := Elt F) spec0 c [cc0_scratch0]

/-- What the launch hands the region, with the scratch buffer split off. -/
theorem PhiA0_split (c : Dev nD) :
    (Pipeline.ΦA spec0 c : sProp 𝕄)
      = iprop(((∃ d, owns (c : Thread nD τ) scM0 fullShare d) ∗ others0 (F := F) c) ∗ (∃ r, prngReg c r)) := by
  unfold Pipeline.ΦA
  rw [Pipeline.scopedRest_split_of_list spec0 c [cc0_scratch0] (by decide) (by decide)]
  simp only [bigSepL_singleton, scM0, owns_whole]
  rfl

/-- Before point `n`: anything at the start, then the scratch at the accumulator the point before left. -/
def Phi0 (c : Dev nD) : (n : ℕ) → n ≤ cfg0.N → sProp 𝕄
  | 0, _ => Pipeline.ΦA spec0 c
  | n + 1, hn => iprop((owns (c : Thread nD τ) scM0 fullShare (acc0 V c n hn) ∗ others0 (F := F) c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop((owns (c : Thread nD τ) scM0 fullShare (acc0 V c n hn) ∗ others0 (F := F) c) ∗ (∃ r, prngReg c r)) := rfl
theorem Phi0_pos (c : Dev nD) (n : ℕ) (h : n ≤ cfg0.N) (hz : n ≠ 0) :
    Phi0 V c n h = iprop((owns (c : Thread nD τ) scM0 fullShare (acc0 V c (n - 1) (by omega)) ∗ others0 (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) : (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

/-- An input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (st0_2 t) fullShare (iblk0 V c 2 t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (st0_3 t) fullShare (iblk0 V c 3 t) := by
  unfold Dat.leavesExact; rw [show cfg0.idle 3 (cfg0.grid.coords t) = false from rfl, after0_3]
/-- At a point with k = 3 the result window holds the finished block. -/
theorem leaves0_4_last (c : Dev nD) (t : Fin cfg0.N) (h : t.val % 4 = 3) :
    (dat0 V c).leavesExact 4 t = owns (c : Thread nD τ) (st0_4 t) fullShare (out0 V c t) := by
  unfold Dat.leavesExact
  rw [show cfg0.idle 4 (cfg0.grid.coords t) = false from by
    have := (idle0_4 t).not.mpr (not_not.mpr h); simpa using this, after0_4]
/-- At the other points it is handed back as found. -/
theorem leaves0_4_idle (c : Dev nD) (t : Fin cfg0.N) (h : ¬ t.val % 4 = 3) :
    (dat0 V c).leavesExact 4 t = iprop(∃ d, owns (c : Thread nD τ) (st0_4 t) fullShare ((dat0 V c).before 4 t d)) :=
  (dat0 V c).leavesExact_idle 4 t ((idle0_4 t).mpr h) (by
    have := (flush0_4 t).not.mpr h; simpa using this)

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, leaves0_3, Phi0_castSucc]
  have hN : t.val < 256 := lt_of_lt_of_eq t.isLt (show cfg0.N = 256 from N_0)
  by_cases h0 : t.val % 4 = 0
  · have h3 : ¬ t.val % 4 = 3 := by omega
    rw [leaves0_4_idle V c t h3, acc0_first V c t h0]
    have hpre : Phi0 V c t.val (Nat.le_of_lt t.isLt) ⊢
        iprop(((∃ d, owns (c : Thread nD τ) scM0 fullShare d) ∗ others0 (F := F) c) ∗ (∃ r, prngReg c r)) := by
      by_cases hz : t.val = 0
      · rw [Phi0_zero V c _ _ hz, PhiA0_split]
      · rw [Phi0_pos V c _ _ hz]
        iintro ⟨⟨HS, HO⟩, Hg⟩
        isplitr [Hg]
        · isplitl [HS]; · iexists _; iexact HS
          iexact HO
        iexact Hg
    iintro ⟨HΦ, Ho, ⟨%d0, H0⟩, ⟨%d1, H1⟩, ⟨%d2, H2⟩, ⟨%d3, H3⟩, H4⟩
    ihave HΦ' := hpre $$ HΦ
    icases HΦ' with ⟨⟨HS, HO⟩, Hg⟩
    iapply (body0_first c Set.univ (grid0.coords t) _ _ _ _ _ _ _ _ _ _ _ _ ((hcondA0 t).mpr h0) (fun h => h3 ((hcondB0 t).mp h))
      (xb0 V c t) (wb0 V c t) (mb0 V c t) _)
    isplitl [H0]; · iexact H0
    isplitl [H1]; · iexact H1
    isplitl [H3]; · iexact H3
    isplitl [HS]; · iexact HS
    iintro ⟨H0, H1, H3, HS⟩
    isplitl [HS HO Hg]
    · isplitr [Hg]
      · isplitl [HS]; · iexact HS
        iexact HO
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi0_pos V c _ _ hz, acc0_next V c t h0]
    by_cases h3 : t.val % 4 = 3
    · rw [leaves0_4_last V c t h3]
      unfold out0
      rw [acc0_next V c t h0]
      iintro ⟨⟨⟨HS, HO⟩, Hg⟩, Ho, ⟨%d0, H0⟩, ⟨%d1, H1⟩, ⟨%d2, H2⟩, ⟨%d3, H3⟩, H4⟩
      iapply (body0_last c Set.univ (grid0.coords t) _ _ _ _ _ _ _ _ _ _ _ _ (fun h => h0 ((hcondA0 t).mp h)) ((hcondB0 t).mpr h3)
        (xb0 V c t) (wb0 V c t) (bb0 V c t) (mb0 V c t) _ _)
      isplitl [H0]; · iexact H0
      isplitl [H1]; · iexact H1
      isplitl [H2]; · iexact H2
      isplitl [H3]; · iexact H3
      isplitl [H4]
      · icases H4 with ⟨%d4, H4⟩; iexists _; iexact H4
      isplitl [HS]; · iexact HS
      iintro ⟨H0, H1, H2, H3, H4, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4
    · rw [leaves0_4_idle V c t h3]
      iintro ⟨⟨⟨HS, HO⟩, Hg⟩, Ho, ⟨%d0, H0⟩, ⟨%d1, H1⟩, ⟨%d2, H2⟩, ⟨%d3, H3⟩, H4⟩
      iapply (body0_middle c Set.univ (grid0.coords t) _ _ _ _ _ _ _ _ _ _ _ _ (fun h => h0 ((hcondA0 t).mp h)) (fun h => h3 ((hcondB0 t).mp h))
        (xb0 V c t) (wb0 V c t) (mb0 V c t) _ _)
      isplitl [H0]; · iexact H0
      isplitl [H1]; · iexact H1
      isplitl [H3]; · iexact H3
      isplitl [HS]; · iexact HS
      iintro ⟨H0, H1, H3, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives it back, the accumulator's contents forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 256 := N_0; omega), PhiA0_split]
  iintro ⟨⟨HS, HO⟩, Hg⟩
  isplitr [Hg]
  · isplitl [HS]; · iexists _; iexact HS
    iexact HO
  iexact Hg

end Cert.KernelIdeal.Hand

end
-- ==== Proof.KernelIdeal.Body1.lean ====
/-
  The second masked linear layer's pallas_call (grid 8 x 8 x 8: row block i, column block j, contraction block k;
  point t = (i * 8 + j) * 8 + k), as the pipeline runs it. At every point the body adds the product of the point's
  x block (256 x 1024) with its masked weight block (1024 x 1024, contracted along the second axis of both) into a
  256 x 1024 accumulator held in a scratch buffer, zeroed first when k = 0; when k = 7 it adds the bias row,
  applies tanh and stores the result block. So the accumulator after point t is a recursion on t that restarts
  every eighth point (acc1), and the block written back after the points with k = 7 is out1.
  Stated for any float instance F and any contents V of the core's buffers at the region's entry.
-/
import proofs.«159617_j84035330113916_1_alg».proof.Proof.Gen.KernelIdeal.Launch
import proofs.«159617_j84035330113916_1_alg».proof.Proof.Gen.KernelIdeal.Skeleton
import proofs.«159617_j84035330113916_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches of the body, as conditions on the grid point -/

/-- "k = 0": the accumulator is zeroed first. -/
abbrev condA1 (i : grid1.Coords) : Prop :=
  (Scalar.cmpi .ne (Scalar.extui (Scalar.cmpi .eq (BitVec.ofNat 32 (i 2).val) 0#32)) 0#32) = 1#1
/-- "k = 7": the result block is finished and stored. -/
abbrev condB1 (i : grid1.Coords) : Prop := k1_cond2 i = 1#1

theorem hcondA1 : ∀ t : Fin cfg1.N, condA1 (grid1.coords t) ↔ t.val % 8 = 0 :=
  (by decide +kernel : ∀ t : Fin grid1.N, condA1 (grid1.coords t) ↔ t.val % 8 = 0)
theorem hcondB1 : ∀ t : Fin cfg1.N, condB1 (grid1.coords t) ↔ t.val % 8 = 7 :=
  (by decide +kernel : ∀ t : Fin grid1.N, condB1 (grid1.coords t) ↔ t.val % 8 = 7)
/-- The result window is idle exactly at the points with k ≠ 3. -/
theorem idle1_4 : ∀ t : Fin cfg1.N, cfg1.idle 4 (grid1.coords t) = true ↔ ¬ t.val % 8 = 7 :=
  (by decide +kernel : ∀ t : Fin grid1.N, cfg1.idle 4 (grid1.coords t) = true ↔ ¬ t.val % 8 = 7)

theorem hz1_256 : (![0, 0] : Fin S256x1024.rank → ℕ) = fun _ => 0 := by funext a; fin_cases a <;> rfl
theorem hz1_1024 : (![0, 0] : Fin S1024x1024.rank → ℕ) = fun _ => 0 := by funext a; fin_cases a <;> rfl
theorem hz1_1 : (![0, 0] : Fin S1x1024.rank → ℕ) = fun _ => 0 := by funext a; fin_cases a <;> rfl

/-! ## The body's three runs -/

set_option maxHeartbeats 1000000 in
/-- k = 0 (and k ≠ 3): whatever the accumulator held, it ends at the product added to zero. -/
theorem body1_first (c : Dev nD) (E : Set ℕ) (i : grid1.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : condA1 i) (hB : ¬ condB1 i)
    (x : Vec F S256x1024 .f32) (w : Vec F S1024x1024 .f32) (mk : Vec F S1024x1024 .i32) (K : PUnit → sProp 𝕄) :
    iprop(owns (c : Thread nD τ) arg3 fullShare x ∗ owns (c : Thread nD τ) arg4 fullShare w ∗ owns (c : Thread nD τ) arg6 fullShare mk
        ∗ (∃ s, owns (c : Thread nD τ) arg8 fullShare s)
        ∗ (iprop(owns (c : Thread nD τ) arg3 fullShare x ∗ owns (c : Thread nD τ) arg4 fullShare w ∗ owns (c : Thread nD τ) arg6 fullShare mk
            ∗ owns (c : Thread nD τ) arg8 fullShare (k1_pay2 x w mk (k1_pay1 (F := F)))) -∗ K ⟨⟩))
      ⊢ wp frame (wpE (defs₀ (F := F)) Variants.none c none) E (cc1__masked_linear_kernel i arg3 harg3 arg4 harg4 arg5 harg5 arg6 harg6 arg7 harg7 arg8 harg8) K := by
  simp only [cc1__masked_linear_kernel_eq_skeleton]; unfold cc1__masked_linear_kernel_skel
  unfold owns
  iintro ⟨⟨%f3, %hf3, H3⟩, ⟨%f4, %hf4, H4⟩, ⟨%f6, %hf6, H6⟩, ⟨%s, %f8, -, H8⟩, Hk⟩
  obtain rfl := harg3.eq_unread hf3; obtain rfl := harg4.eq_unread hf4; obtain rfl := harg6.eq_unread hf6
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz1_256 inb_S256x1024_S256x1024_0_0 y⟩)]
  rw [View.canon_cons_unit_zero hz1_256]
  sl_unfold_words
  simp only [View.readAt_eq_ld, harg3.read_unread, harg4.read_unread, harg6.read_unread, View.ld_unit_zero (S := S256x1024) hz1_256,
    View.ld_unit_zero (S := S1024x1024) hz1_1024, View.readCov_unit_zero (S := S256x1024) _ hz1_256]

set_option maxHeartbeats 1000000 in
/-- 0 < k < 3: the product is added to what the accumulator held. -/
theorem body1_middle (c : Dev nD) (E : Set ℕ) (i : grid1.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA1 i) (hB : ¬ condB1 i)
    (x : Vec F S256x1024 .f32) (w : Vec F S1024x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg6 fullShare mk
        ∗ owns (c : Thread nD τ) arg8 fullShare s
        ∗ (iprop(owns (c : Thread nD τ) arg3 fullShare x ∗ owns (c : Thread nD τ) arg4 fullShare w ∗ owns (c : Thread nD τ) arg6 fullShare mk
            ∗ owns (c : Thread nD τ) arg8 fullShare (k1_pay2 x w mk s)) -∗ K ⟨⟩))
      ⊢ wp frame (wpE (defs₀ (F := F)) Variants.none c none) E (cc1__masked_linear_kernel i arg3 harg3 arg4 harg4 arg5 harg5 arg6 harg6 arg7 harg7 arg8 harg8) K := by
  simp only [cc1__masked_linear_kernel_eq_skeleton]; unfold cc1__masked_linear_kernel_skel
  unfold owns
  iintro ⟨⟨%f3, %hf3, H3⟩, ⟨%f4, %hf4, H4⟩, ⟨%f6, %hf6, H6⟩, ⟨%f8, %hf8, H8⟩, Hk⟩
  obtain rfl := harg3.eq_unread hf3; obtain rfl := harg4.eq_unread hf4; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz1_256 inb_S256x1024_S256x1024_0_0 y⟩)]
  rw [View.canon_cons_unit_zero hz1_256]
  sl_unfold_words
  simp only [View.readAt_eq_ld, harg3.read_unread, harg4.read_unread, harg6.read_unread, harg8.read_unread, View.ld_unit_zero (S := S256x1024) hz1_256,
    View.ld_unit_zero (S := S1024x1024) hz1_1024]

set_option maxHeartbeats 1000000 in
/-- k = 7 (and k ≠ 0): the product is added, and the result block is the activation of accumulator plus bias. -/
theorem body1_last (c : Dev nD) (E : Set ℕ) (i : grid1.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA1 i) (hB : condB1 i)
    (x : Vec F S256x1024 .f32) (w : Vec F S1024x1024 .f32) (b : Vec F S1x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare mk ∗ (∃ d, owns (c : Thread nD τ) arg7 fullShare d)
        ∗ owns (c : Thread nD τ) arg8 fullShare s
        ∗ (iprop(owns (c : Thread nD τ) arg3 fullShare x ∗ owns (c : Thread nD τ) arg4 fullShare w ∗ owns (c : Thread nD τ) arg5 fullShare b
            ∗ owns (c : Thread nD τ) arg6 fullShare mk ∗ owns (c : Thread nD τ) arg7 fullShare (k1_pay3 (k1_pay2 x w mk s) b)
            ∗ owns (c : Thread nD τ) arg8 fullShare (k1_pay2 x w mk s)) -∗ K ⟨⟩))
      ⊢ wp frame (wpE (defs₀ (F := F)) Variants.none c none) E (cc1__masked_linear_kernel i arg3 harg3 arg4 harg4 arg5 harg5 arg6 harg6 arg7 harg7 arg8 harg8) K := by
  simp only [cc1__masked_linear_kernel_eq_skeleton]; unfold cc1__masked_linear_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz1_256 inb_S256x1024_S256x1024_0_0 y⟩)]
    rw [View.canon_cons_unit_zero hz1_256]
    (try sl_unfold_words)
    simp only [View.readAt_eq_ld, harg3.read_unread, harg4.read_unread, harg5.read_unread, harg6.read_unread, harg8.read_unread, View.ld_unit_zero (S := S256x1024) hz1_256,
      View.ld_unit_zero (S := S1024x1024) hz1_1024, View.ld_unit_zero (S := S1x1024) hz1_1, View.readCov_unit_zero (S := S256x1024) _ hz1_256]
  iexists _; isplitr
  swap; · iexact H8
  ipureintro
  sl_unfold_words
  rw [View.read_writes_eq_canon _ _ _ (fun y => ⟨_, List.mem_cons_self, View.mem_set_unit_zero hz1_256 inb_S256x1024_S256x1024_0_0 y⟩)]
  rw [View.canon_cons_unit_zero hz1_256]
  (try sl_unfold_words)
  simp only [View.readAt_eq_ld, harg3.read_unread, harg4.read_unread, harg6.read_unread, harg8.read_unread, View.ld_unit_zero (S := S256x1024) hz1_256,
    View.ld_unit_zero (S := S1024x1024) hz1_1024]

end Cert.KernelIdeal.Hand

end
-- ==== Proof.KernelIdeal.Region1.lean ====
/-
  The second layer's pallas_call as proof data for the pipeline (see Body1 for the body's three runs).
  V is what the core's buffers hold when the region is entered. Window w's block at point t is read off V
  (iblk1); the accumulator after point t is acc1 (it restarts at the points with k = 0); the block the body
  leaves in the result window at a point with k = 7 is out1. Between points the scratch buffer holds the
  accumulator (Phi1); before the first point it holds anything.
-/
import proofs.«159617_j84035330113916_1_alg».proof.Proof.KernelIdeal.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, accumulator, result block -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' block (256 rows, 1024 contraction positions). -/
abbrev xb1 (c : Dev nD) (t : Fin cfg1.N) : Vec F S256x1024 .f32 := iblk1 V c 0 t
/-- The weights' block (1024 output columns, 1024 contraction positions). -/
abbrev wb1 (c : Dev nD) (t : Fin cfg1.N) : Vec F S1024x1024 .f32 := iblk1 V c 1 t
/-- The bias row's block. -/
abbrev bb1 (c : Dev nD) (t : Fin cfg1.N) : Vec F S1x1024 .f32 := iblk1 V c 2 t
/-- The mask's block, as 32-bit words. -/
abbrev mb1 (c : Dev nD) (t : Fin cfg1.N) : Vec F S1024x1024 .i32 := iblk1 V c 3 t

/-- The accumulator after point `n`: this point's product added to zero when k = 0, else to what the point before left. -/
def acc1 (c : Dev nD) : (n : ℕ) → n < cfg1.N → Vec F S256x1024 .f32
  | 0, h => k1_pay2 (xb1 V c ⟨0, h⟩) (wb1 V c ⟨0, h⟩) (mb1 V c ⟨0, h⟩) (k1_pay1 (F := F))
  | n + 1, h => k1_pay2 (xb1 V c ⟨n + 1, h⟩) (wb1 V c ⟨n + 1, h⟩) (mb1 V c ⟨n + 1, h⟩)
      (if (n + 1) % 8 = 0 then k1_pay1 (F := F) else acc1 c n (Nat.lt_of_succ_lt h))

theorem acc1_first (c : Dev nD) (t : Fin cfg1.N) (h : t.val % 8 = 0) :
    acc1 V c t.val t.isLt = k1_pay2 (xb1 V c t) (wb1 V c t) (mb1 V c t) (k1_pay1 (F := F)) := by
  obtain ⟨n, hn⟩ := t
  cases n with
  | zero => rfl
  | succ n =>
    show k1_pay2 _ _ _ (if (n + 1) % 8 = 0 then _ else _) = _
    rw [if_pos h]

theorem acc1_next (c : Dev nD) (t : Fin cfg1.N) (h : ¬ t.val % 8 = 0) :
    acc1 V c t.val t.isLt = k1_pay2 (xb1 V c t) (wb1 V c t) (mb1 V c t) (acc1 V c (t.val - 1) (Nat.lt_of_le_of_lt (Nat.sub_le _ _) t.isLt)) := by
  obtain ⟨n, hn⟩ := t
  cases n with
  | zero => exact absurd (Nat.zero_mod _) h
  | succ n =>
    show k1_pay2 _ _ _ (if (n + 1) % 8 = 0 then _ else _) = _
    rw [if_neg h]; rfl

/-- The block the body stores into the result window at a point with k = 7. -/
def out1 (c : Dev nD) (t : Fin cfg1.N) : Vec F S256x1024 .f32 := k1_pay3 (acc1 V c t.val t.isLt) (bb1 V c t)

/-! ## The invariant between points -/

/-- The accumulator's scratch buffer. -/
abbrev scM1 : Memref sig .tc .vmem S256x1024 .f32 := Memref.whole cc1_scratch0

/-- The core's scoped buffers other than this call's staging buffers and its scratch, at some contents. -/
abbrev others1 (c : Dev nD) : sProp 𝕄 :=
  Pipeline.scopedRestBut (Ix := Unit) (Name := ℕ) (U := UR sig nD τ) (Lvl := ℕ) (Val := Elt F) spec1 c [cc1_scratch0]

/-- What the launch hands the region, with the scratch buffer split off. -/
theorem PhiA1_split (c : Dev nD) :
    (Pipeline.ΦA spec1 c : sProp 𝕄)
      = iprop(((∃ d, owns (c : Thread nD τ) scM1 fullShare d) ∗ others1 (F := F) c) ∗ (∃ r, prngReg c r)) := by
  unfold Pipeline.ΦA
  rw [Pipeline.scopedRest_split_of_list spec1 c [cc1_scratch0] (by decide) (by decide)]
  simp only [bigSepL_singleton, scM1, owns_whole]
  rfl

/-- Before point `n`: anything at the start, then the scratch at the accumulator the point before left. -/
def Phi1 (c : Dev nD) : (n : ℕ) → n ≤ cfg1.N → sProp 𝕄
  | 0, _ => Pipeline.ΦA spec1 c
  | n + 1, hn => iprop((owns (c : Thread nD τ) scM1 fullShare (acc1 V c n hn) ∗ others1 (F := F) c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) scM1 fullShare (acc1 V c n hn) ∗ others1 (F := F) c) ∗ (∃ r, prngReg c r)) := rfl
theorem Phi1_pos (c : Dev nD) (n : ℕ) (h : n ≤ cfg1.N) (hz : n ≠ 0) :
    Phi1 V c n h = iprop((owns (c : Thread nD τ) scM1 fullShare (acc1 V c (n - 1) (by omega)) ∗ others1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) : (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

/-- An input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]
/-- At a point with k = 7 the result window holds the finished block. -/
theorem leaves1_4_last (c : Dev nD) (t : Fin cfg1.N) (h : t.val % 8 = 7) :
    (dat1 V c).leavesExact 4 t = owns (c : Thread nD τ) (st1_4 t) fullShare (out1 V c t) := by
  unfold Dat.leavesExact
  rw [show cfg1.idle 4 (cfg1.grid.coords t) = false from by
    have := (idle1_4 t).not.mpr (not_not.mpr h); simpa using this, after1_4]
/-- At the other points it is handed back as found. -/
theorem leaves1_4_idle (c : Dev nD) (t : Fin cfg1.N) (h : ¬ t.val % 8 = 7) :
    (dat1 V c).leavesExact 4 t = iprop(∃ d, owns (c : Thread nD τ) (st1_4 t) fullShare ((dat1 V c).before 4 t d)) :=
  (dat1 V c).leavesExact_idle 4 t ((idle1_4 t).mpr h) (by
    have := (flush1_4 t).not.mpr h; simpa using this)

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, Phi1_castSucc]
  have hN : t.val < 512 := lt_of_lt_of_eq t.isLt (show cfg1.N = 512 from N_1)
  by_cases h0 : t.val % 8 = 0
  · have h3 : ¬ t.val % 8 = 7 := by omega
    rw [leaves1_4_idle V c t h3, acc1_first V c t h0]
    have hpre : Phi1 V c t.val (Nat.le_of_lt t.isLt) ⊢
        iprop(((∃ d, owns (c : Thread nD τ) scM1 fullShare d) ∗ others1 (F := F) c) ∗ (∃ r, prngReg c r)) := by
      by_cases hz : t.val = 0
      · rw [Phi1_zero V c _ _ hz, PhiA1_split]
      · rw [Phi1_pos V c _ _ hz]
        iintro ⟨⟨HS, HO⟩, Hg⟩
        isplitr [Hg]
        · isplitl [HS]; · iexists _; iexact HS
          iexact HO
        iexact Hg
    iintro ⟨HΦ, Ho, ⟨%d0, H0⟩, ⟨%d1, H1⟩, ⟨%d2, H2⟩, ⟨%d3, H3⟩, H4⟩
    ihave HΦ' := hpre $$ HΦ
    icases HΦ' with ⟨⟨HS, HO⟩, Hg⟩
    iapply (body1_first c Set.univ (grid1.coords t) _ _ _ _ _ _ _ _ _ _ _ _ ((hcondA1 t).mpr h0) (fun h => h3 ((hcondB1 t).mp h))
      (xb1 V c t) (wb1 V c t) (mb1 V c t) _)
    isplitl [H0]; · iexact H0
    isplitl [H1]; · iexact H1
    isplitl [H3]; · iexact H3
    isplitl [HS]; · iexact HS
    iintro ⟨H0, H1, H3, HS⟩
    isplitl [HS HO Hg]
    · isplitr [Hg]
      · isplitl [HS]; · iexact HS
        iexact HO
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi1_pos V c _ _ hz, acc1_next V c t h0]
    by_cases h3 : t.val % 8 = 7
    · rw [leaves1_4_last V c t h3]
      unfold out1
      rw [acc1_next V c t h0]
      iintro ⟨⟨⟨HS, HO⟩, Hg⟩, Ho, ⟨%d0, H0⟩, ⟨%d1, H1⟩, ⟨%d2, H2⟩, ⟨%d3, H3⟩, H4⟩
      iapply (body1_last c Set.univ (grid1.coords t) _ _ _ _ _ _ _ _ _ _ _ _ (fun h => h0 ((hcondA1 t).mp h)) ((hcondB1 t).mpr h3)
        (xb1 V c t) (wb1 V c t) (bb1 V c t) (mb1 V c t) _ _)
      isplitl [H0]; · iexact H0
      isplitl [H1]; · iexact H1
      isplitl [H2]; · iexact H2
      isplitl [H3]; · iexact H3
      isplitl [H4]
      · icases H4 with ⟨%d4, H4⟩; iexists _; iexact H4
      isplitl [HS]; · iexact HS
      iintro ⟨H0, H1, H2, H3, H4, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4
    · rw [leaves1_4_idle V c t h3]
      iintro ⟨⟨⟨HS, HO⟩, Hg⟩, Ho, ⟨%d0, H0⟩, ⟨%d1, H1⟩, ⟨%d2, H2⟩, ⟨%d3, H3⟩, H4⟩
      iapply (body1_middle c Set.univ (grid1.coords t) _ _ _ _ _ _ _ _ _ _ _ _ (fun h => h0 ((hcondA1 t).mp h)) (fun h => h3 ((hcondB1 t).mp h))
        (xb1 V c t) (wb1 V c t) (mb1 V c t) _ _)
      isplitl [H0]; · iexact H0
      isplitl [H1]; · iexact H1
      isplitl [H3]; · iexact H3
      isplitl [HS]; · iexact HS
      iintro ⟨H0, H1, H3, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives it back, the accumulator's contents forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 512 := N_1; omega), PhiA1_split]
  iintro ⟨⟨HS, HO⟩, Hg⟩
  isplitr [Hg]
  · isplitl [HS]; · iexists _; iexact HS
    iexact HO
  iexact Hg

end Cert.KernelIdeal.Hand

end
-- ==== Proof.KernelIdeal.Body2.lean ====
/-
  The third masked linear layer's pallas_call (grid 8 x 4 x 8: row block i, column block j, contraction block k;
  point t = (i * 4 + j) * 8 + k), as the pipeline runs it. At every point the body adds the product of the point's
  x block (256 x 1024) with its masked weight block (1024 x 1024, contracted along the second axis of both) into a
  256 x 1024 accumulator held in a scratch buffer, zeroed first when k = 0; when k = 7 it adds the bias row,
  stores the result block. So the accumulator after point t is a recursion on t that restarts
  every eighth point (acc2), and the block written back after the points with k = 7 is out2.
  Stated for any float instance F and any contents V of the core's buffers at the region's entry.
-/
import proofs.«159617_j84035330113916_1_alg».proof.Proof.Gen.KernelIdeal.Launch
import proofs.«159617_j84035330113916_1_alg».proof.Proof.Gen.KernelIdeal.Skeleton
import proofs.«159617_j84035330113916_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches of the body, as conditions on the grid point -/

/-- "k = 0": the accumulator is zeroed first. -/
abbrev condA2 (i : grid2.Coords) : Prop :=
  (Scalar.cmpi .ne (Scalar.extui (Scalar.cmpi .eq (BitVec.ofNat 32 (i 2).val) 0#32)) 0#32) = 1#1
/-- "k = 7": the result block is finished and stored. -/
abbrev condB2 (i : grid2.Coords) : Prop := k2_cond2 i = 1#1

theorem hcondA2 : ∀ t : Fin cfg2.N, condA2 (grid2.coords t) ↔ t.val % 8 = 0 :=
  (by decide +kernel : ∀ t : Fin grid2.N, condA2 (grid2.coords t) ↔ t.val % 8 = 0)
theorem hcondB2 : ∀ t : Fin cfg2.N, condB2 (grid2.coords t) ↔ t.val % 8 = 7 :=
  (by decide +kernel : ∀ t : Fin grid2.N, condB2 (grid2.coords t) ↔ t.val % 8 = 7)
/-- The result window is idle exactly at the points with k ≠ 3. -/
theorem idle2_4 : ∀ t : Fin cfg2.N, cfg2.idle 4 (grid2.coords t) = true ↔ ¬ t.val % 8 = 7 :=
  (by decide +kernel : ∀ t : Fin grid2.N, cfg2.idle 4 (grid2.coords t) = true ↔ ¬ t.val % 8 = 7)

theorem hz2_256 : (![0, 0] : Fin S256x1024.rank → ℕ) = fun _ => 0 := by funext a; fin_cases a <;> rfl
theorem hz2_1024 : (![0, 0] : Fin S1024x1024.rank → ℕ) = fun _ => 0 := by funext a; fin_cases a <;> rfl
theorem hz2_1 : (![0, 0] : Fin S1x1024.rank → ℕ) = fun _ => 0 := by funext a; fin_cases a <;> rfl

/-! ## The body's three runs -/

set_option maxHeartbeats 1000000 in
/-- k = 0 (and k ≠ 3): whatever the accumulator held, it ends at the product added to zero. -/
theorem body2_first (c : Dev nD) (E : Set ℕ) (i : grid2.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : condA2 i) (hB : ¬ condB2 i)
    (x : Vec F S256x1024 .f32) (w : Vec F S1024x1024 .f32) (mk : Vec F S1024x1024 .i32) (K : PUnit → sProp 𝕄) :
    iprop(owns (c : Thread nD τ) arg3 fullShare x ∗ owns (c : Thread nD τ) arg4 fullShare w ∗ owns (c : Thread nD τ) arg6 fullShare mk
        ∗ (∃ s, owns (c : Thread nD τ) arg8 fullShare s)
        ∗ (iprop(owns (c : Thread nD τ) arg3 fullShare x ∗ owns (c : Thread nD τ) arg4 fullShare w ∗ owns (c : Thread nD τ) arg6 fullShare mk
            ∗ owns (c : Thread nD τ) arg8 fullShare (k2_pay2 x w mk (k2_pay1 (F := F)))) -∗ K ⟨⟩))
      ⊢ wp frame (wpE (defs₀ (F := F)) Variants.none c none) E (cc2__masked_linear_kernel i arg3 harg3 arg4 harg4 arg5 harg5 arg6 harg6 arg7 harg7 arg8 harg8) K := by
  simp only [cc2__masked_linear_kernel_eq_skeleton]; unfold cc2__masked_linear_kernel_skel
  unfold owns
  iintro ⟨⟨%f3, %hf3, H3⟩, ⟨%f4, %hf4, H4⟩, ⟨%f6, %hf6, H6⟩, ⟨%s, %f8, -, H8⟩, Hk⟩
  obtain rfl := harg3.eq_unread hf3; obtain rfl := harg4.eq_unread hf4; obtain rfl := harg6.eq_unread hf6
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz2_256 inb_S256x1024_S256x1024_0_0 y⟩)]
  rw [View.canon_cons_unit_zero hz2_256]
  sl_unfold_words
  simp only [View.readAt_eq_ld, harg3.read_unread, harg4.read_unread, harg6.read_unread, View.ld_unit_zero (S := S256x1024) hz2_256,
    View.ld_unit_zero (S := S1024x1024) hz2_1024, View.readCov_unit_zero (S := S256x1024) _ hz2_256]

set_option maxHeartbeats 1000000 in
/-- 0 < k < 3: the product is added to what the accumulator held. -/
theorem body2_middle (c : Dev nD) (E : Set ℕ) (i : grid2.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA2 i) (hB : ¬ condB2 i)
    (x : Vec F S256x1024 .f32) (w : Vec F S1024x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg6 fullShare mk
        ∗ owns (c : Thread nD τ) arg8 fullShare s
        ∗ (iprop(owns (c : Thread nD τ) arg3 fullShare x ∗ owns (c : Thread nD τ) arg4 fullShare w ∗ owns (c : Thread nD τ) arg6 fullShare mk
            ∗ owns (c : Thread nD τ) arg8 fullShare (k2_pay2 x w mk s)) -∗ K ⟨⟩))
      ⊢ wp frame (wpE (defs₀ (F := F)) Variants.none c none) E (cc2__masked_linear_kernel i arg3 harg3 arg4 harg4 arg5 harg5 arg6 harg6 arg7 harg7 arg8 harg8) K := by
  simp only [cc2__masked_linear_kernel_eq_skeleton]; unfold cc2__masked_linear_kernel_skel
  unfold owns
  iintro ⟨⟨%f3, %hf3, H3⟩, ⟨%f4, %hf4, H4⟩, ⟨%f6, %hf6, H6⟩, ⟨%f8, %hf8, H8⟩, Hk⟩
  obtain rfl := harg3.eq_unread hf3; obtain rfl := harg4.eq_unread hf4; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H6]
  · iexists _; isplitr; · ipureintro; exact harg6.read_unread _
    iexact H6
  iexists _; isplitr
  swap; · iexact H8
  ipureintro
  rw [View.read_writes_eq_canon _ _ _ (fun y => ⟨_, List.mem_cons_self, View.mem_set_unit_zero hz2_256 inb_S256x1024_S256x1024_0_0 y⟩)]
  rw [View.canon_cons_unit_zero hz2_256]
  sl_unfold_words
  simp only [View.readAt_eq_ld, harg3.read_unread, harg4.read_unread, harg6.read_unread, harg8.read_unread, View.ld_unit_zero (S := S256x1024) hz2_256,
    View.ld_unit_zero (S := S1024x1024) hz2_1024]

set_option maxHeartbeats 1000000 in
/-- k = 7 (and k ≠ 0): the product is added, and the result block is accumulator plus bias. -/
theorem body2_last (c : Dev nD) (E : Set ℕ) (i : grid2.Coords)
    (arg3 : Memref sig .tc .vmem S256x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .i32) (harg6 : arg6.IsWhole)
    (arg7 : Memref sig .tc .vmem S256x1024 .f32) (harg7 : arg7.IsWhole) (arg8 : Memref sig .tc .vmem S256x1024 .f32) (harg8 : arg8.IsWhole)
    (hA : ¬ condA2 i) (hB : condB2 i)
    (x : Vec F S256x1024 .f32) (w : Vec F S1024x1024 .f32) (b : Vec F S1x1024 .f32) (mk : Vec F S1024x1024 .i32) (s : Vec F S256x1024 .f32) (K : PUnit → sProp 𝕄) :
    iprop(owns (c : Thread nD τ) arg3 fullShare x ∗ owns (c : Thread nD τ) arg4 fullShare w ∗ owns (c : Thread nD τ) arg5 fullShare b
        ∗ owns (c : Thread nD τ) arg6 fullShare mk ∗ (∃ d, owns (c : Thread nD τ) arg7 fullShare d)
        ∗ owns (c : Thread nD τ) arg8 fullShare s
        ∗ (iprop(owns (c : Thread nD τ) arg3 fullShare x ∗ owns (c : Thread nD τ) arg4 fullShare w ∗ owns (c : Thread nD τ) arg5 fullShare b
            ∗ owns (c : Thread nD τ) arg6 fullShare mk ∗ owns (c : Thread nD τ) arg7 fullShare (k2_pay3 (k2_pay2 x w mk s) b)
            ∗ owns (c : Thread nD τ) arg8 fullShare (k2_pay2 x w mk s)) -∗ K ⟨⟩))
      ⊢ wp frame (wpE (defs₀ (F := F)) Variants.none c none) E (cc2__masked_linear_kernel i arg3 harg3 arg4 harg4 arg5 harg5 arg6 harg6 arg7 harg7 arg8 harg8) K := by
  simp only [cc2__masked_linear_kernel_eq_skeleton]; unfold cc2__masked_linear_kernel_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg3.eq_unread hf3; obtain rfl := harg4.eq_unread hf4; obtain rfl := harg5.eq_unread hf5; obtain rfl := harg6.eq_unread hf6
  obtain rfl := harg8.eq_unread hf8
  sl_exec (disch := first | exact hA | exact hB)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_words
    rw [View.read_writes_eq_canon _ _ _ (fun y => ⟨_, List.mem_cons_self, View.mem_set_unit_zero hz2_256 inb_S256x1024_S256x1024_0_0 y⟩)]
    rw [View.canon_cons_unit_zero hz2_256]
    (try sl_unfold_words)
    simp only [View.readAt_eq_ld, harg3.read_unread, harg4.read_unread, harg5.read_unread, harg6.read_unread, harg8.read_unread, View.ld_unit_zero (S := S256x1024) hz2_256,
      View.ld_unit_zero (S := S1024x1024) hz2_1024, View.ld_unit_zero (S := S1x1024) hz2_1, View.readCov_unit_zero (S := S256x1024) _ hz2_256]
  iexists _; isplitr
  swap; · iexact H8
  ipureintro
  sl_unfold_words
  rw [View.read_writes_eq_canon _ _ _ (fun y => ⟨_, List.mem_cons_self, View.mem_set_unit_zero hz2_256 inb_S256x1024_S256x1024_0_0 y⟩)]
  rw [View.canon_cons_unit_zero hz2_256]
  (try sl_unfold_words)
  simp only [View.readAt_eq_ld, harg3.read_unread, harg4.read_unread, harg6.read_unread, harg8.read_unread, View.ld_unit_zero (S := S256x1024) hz2_256,
    View.ld_unit_zero (S := S1024x1024) hz2_1024]

end Cert.KernelIdeal.Hand

end
-- ==== Proof.KernelIdeal.Region2.lean ====
/-
  The third layer's pallas_call as proof data for the pipeline (see Body2 for the body's three runs).
  V is what the core's buffers hold when the region is entered. Window w's block at point t is read off V
  (iblk2); the accumulator after point t is acc2 (it restarts at the points with k = 0); the block the body
  leaves in the result window at a point with k = 7 is out2. Between points the scratch buffer holds the
  accumulator (Phi2); before the first point it holds anything.
-/
import proofs.«159617_j84035330113916_1_alg».proof.Proof.KernelIdeal.Body2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, accumulator, result block -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' block (256 rows, 1024 contraction positions). -/
abbrev xb2 (c : Dev nD) (t : Fin cfg2.N) : Vec F S256x1024 .f32 := iblk2 V c 0 t
/-- The weights' block (1024 output columns, 1024 contraction positions). -/
abbrev wb2 (c : Dev nD) (t : Fin cfg2.N) : Vec F S1024x1024 .f32 := iblk2 V c 1 t
/-- The bias row's block. -/
abbrev bb2 (c : Dev nD) (t : Fin cfg2.N) : Vec F S1x1024 .f32 := iblk2 V c 2 t
/-- The mask's block, as 32-bit words. -/
abbrev mb2 (c : Dev nD) (t : Fin cfg2.N) : Vec F S1024x1024 .i32 := iblk2 V c 3 t

/-- The accumulator after point `n`: this point's product added to zero when k = 0, else to what the point before left. -/
def acc2 (c : Dev nD) : (n : ℕ) → n < cfg2.N → Vec F S256x1024 .f32
  | 0, h => k2_pay2 (xb2 V c ⟨0, h⟩) (wb2 V c ⟨0, h⟩) (mb2 V c ⟨0, h⟩) (k2_pay1 (F := F))
  | n + 1, h => k2_pay2 (xb2 V c ⟨n + 1, h⟩) (wb2 V c ⟨n + 1, h⟩) (mb2 V c ⟨n + 1, h⟩)
      (if (n + 1) % 8 = 0 then k2_pay1 (F := F) else acc2 c n (Nat.lt_of_succ_lt h))

theorem acc2_first (c : Dev nD) (t : Fin cfg2.N) (h : t.val % 8 = 0) :
    acc2 V c t.val t.isLt = k2_pay2 (xb2 V c t) (wb2 V c t) (mb2 V c t) (k2_pay1 (F := F)) := by
  obtain ⟨n, hn⟩ := t
  cases n with
  | zero => rfl
  | succ n =>
    show k2_pay2 _ _ _ (if (n + 1) % 8 = 0 then _ else _) = _
    rw [if_pos h]

theorem acc2_next (c : Dev nD) (t : Fin cfg2.N) (h : ¬ t.val % 8 = 0) :
    acc2 V c t.val t.isLt = k2_pay2 (xb2 V c t) (wb2 V c t) (mb2 V c t) (acc2 V c (t.val - 1) (Nat.lt_of_le_of_lt (Nat.sub_le _ _) t.isLt)) := by
  obtain ⟨n, hn⟩ := t
  cases n with
  | zero => exact absurd (Nat.zero_mod _) h
  | succ n =>
    show k2_pay2 _ _ _ (if (n + 1) % 8 = 0 then _ else _) = _
    rw [if_neg h]; rfl

/-- The block the body stores into the result window at a point with k = 7. -/
def out2 (c : Dev nD) (t : Fin cfg2.N) : Vec F S256x1024 .f32 := k2_pay3 (acc2 V c t.val t.isLt) (bb2 V c t)

/-! ## The invariant between points -/

/-- The accumulator's scratch buffer. -/
abbrev scM2 : Memref sig .tc .vmem S256x1024 .f32 := Memref.whole cc2_scratch0

/-- The core's scoped buffers other than this call's staging buffers and its scratch, at some contents. -/
abbrev others2 (c : Dev nD) : sProp 𝕄 :=
  Pipeline.scopedRestBut (Ix := Unit) (Name := ℕ) (U := UR sig nD τ) (Lvl := ℕ) (Val := Elt F) spec2 c [cc2_scratch0]

/-- What the launch hands the region, with the scratch buffer split off. -/
theorem PhiA2_split (c : Dev nD) :
    (Pipeline.ΦA spec2 c : sProp 𝕄)
      = iprop(((∃ d, owns (c : Thread nD τ) scM2 fullShare d) ∗ others2 (F := F) c) ∗ (∃ r, prngReg c r)) := by
  unfold Pipeline.ΦA
  rw [Pipeline.scopedRest_split_of_list spec2 c [cc2_scratch0] (by decide) (by decide)]
  simp only [bigSepL_singleton, scM2, owns_whole]
  rfl

/-- Before point `n`: anything at the start, then the scratch at the accumulator the point before left. -/
def Phi2 (c : Dev nD) : (n : ℕ) → n ≤ cfg2.N → sProp 𝕄
  | 0, _ => Pipeline.ΦA spec2 c
  | n + 1, hn => iprop((owns (c : Thread nD τ) scM2 fullShare (acc2 V c n hn) ∗ others2 (F := F) c) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) scM2 fullShare (acc2 V c n hn) ∗ others2 (F := F) c) ∗ (∃ r, prngReg c r)) := rfl
theorem Phi2_pos (c : Dev nD) (n : ℕ) (h : n ≤ cfg2.N) (hz : n ≠ 0) :
    Phi2 V c n h = iprop((owns (c : Thread nD τ) scM2 fullShare (acc2 V c (n - 1) (by omega)) ∗ others2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) : (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

/-- An input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  unfold Dat.leavesExact; rw [show cfg2.idle 0 (cfg2.grid.coords t) = false from rfl, after2_0]
theorem leaves2_1 (c : Dev nD) (t : Fin cfg2.N) :
    (dat2 V c).leavesExact 1 t = owns (c : Thread nD τ) (st2_1 t) fullShare (iblk2 V c 1 t) := by
  unfold Dat.leavesExact; rw [show cfg2.idle 1 (cfg2.grid.coords t) = false from rfl, after2_1]
theorem leaves2_2 (c : Dev nD) (t : Fin cfg2.N) :
    (dat2 V c).leavesExact 2 t = owns (c : Thread nD τ) (st2_2 t) fullShare (iblk2 V c 2 t) := by
  unfold Dat.leavesExact; rw [show cfg2.idle 2 (cfg2.grid.coords t) = false from rfl, after2_2]
theorem leaves2_3 (c : Dev nD) (t : Fin cfg2.N) :
    (dat2 V c).leavesExact 3 t = owns (c : Thread nD τ) (st2_3 t) fullShare (iblk2 V c 3 t) := by
  unfold Dat.leavesExact; rw [show cfg2.idle 3 (cfg2.grid.coords t) = false from rfl, after2_3]
/-- At a point with k = 7 the result window holds the finished block. -/
theorem leaves2_4_last (c : Dev nD) (t : Fin cfg2.N) (h : t.val % 8 = 7) :
    (dat2 V c).leavesExact 4 t = owns (c : Thread nD τ) (st2_4 t) fullShare (out2 V c t) := by
  unfold Dat.leavesExact
  rw [show cfg2.idle 4 (cfg2.grid.coords t) = false from by
    have := (idle2_4 t).not.mpr (not_not.mpr h); simpa using this, after2_4]
/-- At the other points it is handed back as found. -/
theorem leaves2_4_idle (c : Dev nD) (t : Fin cfg2.N) (h : ¬ t.val % 8 = 7) :
    (dat2 V c).leavesExact 4 t = iprop(∃ d, owns (c : Thread nD τ) (st2_4 t) fullShare ((dat2 V c).before 4 t d)) :=
  (dat2 V c).leavesExact_idle 4 t ((idle2_4 t).mpr h) (by
    have := (flush2_4 t).not.mpr h; simpa using this)

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, Phi2_castSucc]
  have hN : t.val < 256 := lt_of_lt_of_eq t.isLt (show cfg2.N = 256 from N_2)
  by_cases h0 : t.val % 8 = 0
  · have h3 : ¬ t.val % 8 = 7 := by omega
    rw [leaves2_4_idle V c t h3, acc2_first V c t h0]
    have hpre : Phi2 V c t.val (Nat.le_of_lt t.isLt) ⊢
        iprop(((∃ d, owns (c : Thread nD τ) scM2 fullShare d) ∗ others2 (F := F) c) ∗ (∃ r, prngReg c r)) := by
      by_cases hz : t.val = 0
      · rw [Phi2_zero V c _ _ hz, PhiA2_split]
      · rw [Phi2_pos V c _ _ hz]
        iintro ⟨⟨HS, HO⟩, Hg⟩
        isplitr [Hg]
        · isplitl [HS]; · iexists _; iexact HS
          iexact HO
        iexact Hg
    iintro ⟨HΦ, Ho, ⟨%d0, H0⟩, ⟨%d1, H1⟩, ⟨%d2, H2⟩, ⟨%d3, H3⟩, H4⟩
    ihave HΦ' := hpre $$ HΦ
    icases HΦ' with ⟨⟨HS, HO⟩, Hg⟩
    iapply (body2_first c Set.univ (grid2.coords t) _ _ _ _ _ _ _ _ _ _ _ _ ((hcondA2 t).mpr h0) (fun h => h3 ((hcondB2 t).mp h))
      (xb2 V c t) (wb2 V c t) (mb2 V c t) _)
    isplitl [H0]; · iexact H0
    isplitl [H1]; · iexact H1
    isplitl [H3]; · iexact H3
    isplitl [HS]; · iexact HS
    iintro ⟨H0, H1, H3, HS⟩
    isplitl [HS HO Hg]
    · isplitr [Hg]
      · isplitl [HS]; · iexact HS
        iexact HO
      iexact Hg
    isplitl [Ho]; · iexact Ho
    isplitl [H0]; · iexact H0
    isplitl [H1]; · iexact H1
    isplitl [H2]; · iexact H2
    isplitl [H3]; · iexact H3
    iexact H4
  · have hz : t.val ≠ 0 := fun e => h0 (by rw [e])
    rw [Phi2_pos V c _ _ hz, acc2_next V c t h0]
    by_cases h3 : t.val % 8 = 7
    · rw [leaves2_4_last V c t h3]
      unfold out2
      rw [acc2_next V c t h0]
      iintro ⟨⟨⟨HS, HO⟩, Hg⟩, Ho, ⟨%d0, H0⟩, ⟨%d1, H1⟩, ⟨%d2, H2⟩, ⟨%d3, H3⟩, H4⟩
      iapply (body2_last c Set.univ (grid2.coords t) _ _ _ _ _ _ _ _ _ _ _ _ (fun h => h0 ((hcondA2 t).mp h)) ((hcondB2 t).mpr h3)
        (xb2 V c t) (wb2 V c t) (bb2 V c t) (mb2 V c t) _ _)
      isplitl [H0]; · iexact H0
      isplitl [H1]; · iexact H1
      isplitl [H2]; · iexact H2
      isplitl [H3]; · iexact H3
      isplitl [H4]
      · icases H4 with ⟨%d4, H4⟩; iexists _; iexact H4
      isplitl [HS]; · iexact HS
      iintro ⟨H0, H1, H2, H3, H4, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4
    · rw [leaves2_4_idle V c t h3]
      iintro ⟨⟨⟨HS, HO⟩, Hg⟩, Ho, ⟨%d0, H0⟩, ⟨%d1, H1⟩, ⟨%d2, H2⟩, ⟨%d3, H3⟩, H4⟩
      iapply (body2_middle c Set.univ (grid2.coords t) _ _ _ _ _ _ _ _ _ _ _ _ (fun h => h0 ((hcondA2 t).mp h)) (fun h => h3 ((hcondB2 t).mp h))
        (xb2 V c t) (wb2 V c t) (mb2 V c t) _ _)
      isplitl [H0]; · iexact H0
      isplitl [H1]; · iexact H1
      isplitl [H3]; · iexact H3
      isplitl [HS]; · iexact HS
      iintro ⟨H0, H1, H3, HS⟩
      isplitl [HS HO Hg]
      · isplitr [Hg]
        · isplitl [HS]; · iexact HS
          iexact HO
        iexact Hg
      isplitl [Ho]; · iexact Ho
      isplitl [H0]; · iexact H0
      isplitl [H1]; · iexact H1
      isplitl [H2]; · iexact H2
      isplitl [H3]; · iexact H3
      iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives it back, the accumulator's contents forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 256 := N_2; omega), PhiA2_split]
  iintro ⟨⟨HS, HO⟩, Hg⟩
  isplitr [Hg]
  · isplitl [HS]; · iexists _; iexact HS
    iexact HO
  iexact Hg

end Cert.KernelIdeal.Hand

end
-- ==== Proof.KernelIdeal.Run.lean ====
/-
  The three layers' regions in order, as @main runs them: between two items every unscoped buffer of the core
  is held at contents named by a fold from the launch memory — a host stretch applies its operations
  (the bias row reshaped, the mask widened to 32-bit words), a region leaves its result array at what its
  write-backs produce and everything else as it found it. The run ends with the last result array at the third
  region's final contents and every argument array as launched.
-/
import proofs.«159617_j84035330113916_1_alg».proof.Proof.KernelIdeal.Region0
import proofs.«159617_j84035330113916_1_alg».proof.Proof.KernelIdeal.Region1
import proofs.«159617_j84035330113916_1_alg».proof.Proof.KernelIdeal.Region2
import proofs.«159617_j84035330113916_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (layer 1's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After layer 1's region: its arrays at what the pipeline leaves (the inputs as entered, the result's blocks
    written back), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- A buffer other than the result keeps its contents through the region: an input window's array is never written,
    and a buffer no window stages is not touched. -/
theorem W2_keep (c : Dev nD) (b : Ref sig .tc) (hb : b ≠ main_v2) : W2 m c (Proc.devRef .tc b) = W1 m c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact (W2_arr m c w).trans (((dat0 (V1 m) c).arrAt_in w hin _).trans (A_eq0 (V1 m) c w))
  · exact W2_of_ne m c b fun w e => h ⟨w, e⟩

/-- After the second host stretch (layer 2's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After layer 2's region: its arrays at what the pipeline leaves (the inputs as entered, the result's blocks
    written back), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- A buffer other than the result keeps its contents through the region: an input window's array is never written,
    and a buffer no window stages is not touched. -/
theorem W4_keep (c : Dev nD) (b : Ref sig .tc) (hb : b ≠ main_v5) : W4 m c (Proc.devRef .tc b) = W3 m c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact (W4_arr m c w).trans (((dat1 (V3 m) c).arrAt_in w hin _).trans (A_eq1 (V3 m) c w))
  · exact W4_of_ne m c b fun w e => h ⟨w, e⟩

/-- After the third host stretch (layer 3's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- After layer 3's region: its arrays at what the pipeline leaves (the inputs as entered, the result's blocks
    written back), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- A buffer other than the result keeps its contents through the region: an input window's array is never written,
    and a buffer no window stages is not touched. -/
theorem W6_keep (c : Dev nD) (b : Ref sig .tc) (hb : b ≠ main_v8) : W6 m c (Proc.devRef .tc b) = W5 m c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, _ => rfl
      | ⟨3, _⟩, _ => rfl
      | ⟨4, _⟩, hb => exact absurd rfl hb
    exact (W6_arr m c w).trans (((dat2 (V5 m) c).arrAt_in w hin _).trans (A_eq2 (V5 m) c w))
  · exact W6_of_ne m c b fun w e => h ⟨w, e⟩

/-! ## The arguments end as launched -/

/-- A buffer no host stretch writes and no region's result lands in holds its launch contents at the end. -/
theorem W6_through (c : Dev nD) (r : Ref sig .tc) (h0 : r ∉ hostOps0_W) (h1 : r ≠ main_v2) (h2 : r ∉ hostOps1_W) (h3 : r ≠ main_v5)
    (h4 : r ∉ hostOps2_W) (h5 : r ≠ main_v8) : W6 m c (Proc.devRef .tc r) = m ((c : Thread nD τ).loc r) :=
  (W6_keep m c r h5).trans <| (StableHlo.after_of_writes_sub hostOps2 _ hostOps2_writes h4).trans <|
    (W4_keep m c r h3).trans <| (StableHlo.after_of_writes_sub hostOps1 _ hostOps1_writes h2).trans <|
    (W2_keep m c r h1).trans <| (StableHlo.after_of_writes_sub hostOps0 _ hostOps0_writes h0).trans rfl

theorem W6_main_arg0 (c : Dev nD) : W6 m c (Proc.devRef .tc main_arg0) = m ((c : Thread nD τ).loc main_arg0) :=
  W6_through m c main_arg0 (by decide) (by decide) (by decide) (by decide) (by decide) (by decide)
theorem W6_main_arg1 (c : Dev nD) : W6 m c (Proc.devRef .tc main_arg1) = m ((c : Thread nD τ).loc main_arg1) :=
  W6_through m c main_arg1 (by decide) (by decide) (by decide) (by decide) (by decide) (by decide)
theorem W6_main_arg2 (c : Dev nD) : W6 m c (Proc.devRef .tc main_arg2) = m ((c : Thread nD τ).loc main_arg2) :=
  W6_through m c main_arg2 (by decide) (by decide) (by decide) (by decide) (by decide) (by decide)
theorem W6_main_arg3 (c : Dev nD) : W6 m c (Proc.devRef .tc main_arg3) = m ((c : Thread nD τ).loc main_arg3) :=
  W6_through m c main_arg3 (by decide) (by decide) (by decide) (by decide) (by decide) (by decide)
theorem W6_main_arg4 (c : Dev nD) : W6 m c (Proc.devRef .tc main_arg4) = m ((c : Thread nD τ).loc main_arg4) :=
  W6_through m c main_arg4 (by decide) (by decide) (by decide) (by decide) (by decide) (by decide)
theorem W6_main_arg5 (c : Dev nD) : W6 m c (Proc.devRef .tc main_arg5) = m ((c : Thread nD τ).loc main_arg5) :=
  W6_through m c main_arg5 (by decide) (by decide) (by decide) (by decide) (by decide) (by decide)
theorem W6_main_arg6 (c : Dev nD) : W6 m c (Proc.devRef .tc main_arg6) = m ((c : Thread nD τ).loc main_arg6) :=
  W6_through m c main_arg6 (by decide) (by decide) (by decide) (by decide) (by decide) (by decide)
theorem W6_main_arg7 (c : Dev nD) : W6 m c (Proc.devRef .tc main_arg7) = m ((c : Thread nD τ).loc main_arg7) :=
  W6_through m c main_arg7 (by decide) (by decide) (by decide) (by decide) (by decide) (by decide)
theorem W6_main_arg8 (c : Dev nD) : W6 m c (Proc.devRef .tc main_arg8) = m ((c : Thread nD τ).loc main_arg8) :=
  W6_through m c main_arg8 (by decide) (by decide) (by decide) (by decide) (by decide) (by decide)
theorem W6_main_arg9 (c : Dev nD) : W6 m c (Proc.devRef .tc main_arg9) = m ((c : Thread nD τ).loc main_arg9) :=
  W6_through m c main_arg9 (by decide) (by decide) (by decide) (by decide) (by decide) (by decide)

/-! ## The proof data family and the thread state -/

/-- Each pipeline's proof data at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Layer 1's region over the thread state: entered with every unscoped buffer at `W1`, left with them at `W2`.
    Its five arrays are split out of the unscoped buffers and put back at what the write-backs leave; the
    generator register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2's region over the thread state: entered with every unscoped buffer at `W3`, left with them at `W4`.
    Its five arrays are split out of the unscoped buffers and put back at what the write-backs leave; the
    generator register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3's region over the thread state: entered with every unscoped buffer at `W5`, left with them at `W6`.
    Its five arrays are split out of the unscoped buffers and put back at what the write-backs leave; the
    generator register goes into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m) c)
    unfold Pipeline.ΦA
    iintro ⟨Hp, -, Hr⟩
    isplitl [Hr]; · iexact Hr
    iexact Hp
  hout c := by
    rw [Pipeline.ownSems0_none]
    refine BIBase.Entails.trans (hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting; the last
    layer's result array ends at what the third region's write-backs leave, and every argument array as launched. -/
theorem run_main : θ_run defs (onTc (τ := τ) (main (F := F))) ⟨m, fun _ => 0, ρ⟩ (fun r => ∀ c : Dev nD,
      r.2.mem ((c.tc : Thread nD τ).loc main_v8) = (dat2 (V5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v8 (by decide))).trans (W6_arr m c 4),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c),
       (h c _ (mem_uc main_arg4 (by decide))).trans (W6_main_arg4 m c),
       (h c _ (mem_uc main_arg5 (by decide))).trans (W6_main_arg5 m c),
       (h c _ (mem_uc main_arg6 (by decide))).trans (W6_main_arg6 m c),
       (h c _ (mem_uc main_arg7 (by decide))).trans (W6_main_arg7 m c),
       (h c _ (mem_uc main_arg8 (by decide))).trans (W6_main_arg8 m c),
       (h c _ (mem_uc main_arg9 (by decide))).trans (W6_main_arg9 m c)⟩)

end Cert.KernelIdeal.Hand

end
-- ==== Proof.Spec.lean ====
/-
  The function both programs compute, over the extended reals.
  A masked linear layer takes activations X (M x K), weights W (N x K), a 0/1 mask of W's shape and a bias b (N) to
    lin X W mask b (r, n) = (sum over κ < K of X(r, κ) * (W(n, κ) * mask(n, κ))) + b(n);
  the network is three such layers, tanh after the first two.
  A sum over κ < K taken in consecutive blocks of B is the whole sum (psum_succ, psum_full): this is the only
  law that separates a blocked accumulation from the plain contraction, and it holds in any commutative monoid,
  so no finiteness of the inputs is needed.
-/
import Idealize.ShloMosaic.PureOps.Ideal
import Idealize.ShloMosaic.Lib.ValueIdx

noncomputable section

open scoped BigOperators

namespace Cert.Spec

open Idealize.ShloMosaic Idealize.ShloMosaic.ValueIdx

/-- A mask bit as a number: 0 or 1. -/
def mval (b : BitVec 1) : EReal := ((b.toNat : ℝ) : EReal)

/-- One term of a layer's contraction. -/
def term {M K N : ℕ} (X : (⟨2, ![M, K]⟩ : Shape).Idx → EReal) (W : (⟨2, ![N, K]⟩ : Shape).Idx → EReal)
    (Mk : (⟨2, ![N, K]⟩ : Shape).Idx → BitVec 1) (r : Fin M) (n : Fin N) (κ : Fin K) : EReal :=
  X (ix2 r κ) * (W (ix2 n κ) * mval (Mk (ix2 n κ)))

/-- The contraction's terms below position `n`, summed. -/
def psum {K : ℕ} (f : Fin K → EReal) (n : ℕ) : EReal := ∑ κ ∈ Finset.univ.filter (fun κ : Fin K => κ.val < n), f κ

/-- A masked linear layer. -/
def lin {M K N : ℕ} (X : (⟨2, ![M, K]⟩ : Shape).Idx → EReal) (W : (⟨2, ![N, K]⟩ : Shape).Idx → EReal)
    (Mk : (⟨2, ![N, K]⟩ : Shape).Idx → BitVec 1) (b : (⟨1, ![N]⟩ : Shape).Idx → EReal) : (⟨2, ![M, N]⟩ : Shape).Idx → EReal :=
  fun i => (∑ κ : Fin K, term X W Mk (i 0) (i 1) κ) + b (ix1 (i 1))

/-- tanh, entry by entry. -/
def act {S : Shape} (Y : S.Idx → EReal) : S.Idx → EReal := fun i => Ideal.tanh (Y i)

/-- The three layers. -/
def net (x : (⟨2, ![2048, 4096]⟩ : Shape).Idx → EReal)
    (W1 : (⟨2, ![8192, 4096]⟩ : Shape).Idx → EReal) (b1 : (⟨1, ![8192]⟩ : Shape).Idx → EReal) (m1 : (⟨2, ![8192, 4096]⟩ : Shape).Idx → BitVec 1)
    (W2 : (⟨2, ![8192, 8192]⟩ : Shape).Idx → EReal) (b2 : (⟨1, ![8192]⟩ : Shape).Idx → EReal) (m2 : (⟨2, ![8192, 8192]⟩ : Shape).Idx → BitVec 1)
    (W3 : (⟨2, ![4096, 8192]⟩ : Shape).Idx → EReal) (b3 : (⟨1, ![4096]⟩ : Shape).Idx → EReal) (m3 : (⟨2, ![4096, 8192]⟩ : Shape).Idx → BitVec 1) :
    (⟨2, ![2048, 4096]⟩ : Shape).Idx → EReal :=
  lin (act (lin (act (lin x W1 m1 b1)) W2 m2 b2)) W3 m3 b3

theorem lin_apply {M K N : ℕ} (X : (⟨2, ![M, K]⟩ : Shape).Idx → EReal) (W : (⟨2, ![N, K]⟩ : Shape).Idx → EReal)
    (Mk : (⟨2, ![N, K]⟩ : Shape).Idx → BitVec 1) (b : (⟨1, ![N]⟩ : Shape).Idx → EReal) (r : Fin M) (n : Fin N) :
    lin X W Mk b (ix2 r n) = (∑ κ : Fin K, term X W Mk r n κ) + b (ix1 n) := rfl

theorem psum_zero {K : ℕ} (f : Fin K → EReal) : psum f 0 = 0 := by
  unfold psum
  rw [Finset.filter_false_of_mem (fun κ _ => Nat.not_lt_zero _), Finset.sum_empty]

theorem psum_full {K : ℕ} (f : Fin K → EReal) : psum f K = ∑ κ : Fin K, f κ := by
  unfold psum
  rw [Finset.filter_true_of_mem (fun κ _ => κ.isLt)]

/-- The next block of `B` terms. -/
theorem psum_succ {K B : ℕ} (f : Fin K → EReal) (k : ℕ) (h : (k + 1) * B ≤ K) :
    psum f ((k + 1) * B) = psum f (k * B) + ∑ kk : Fin B, f ⟨k * B + kk.val, by have := kk.isLt; nlinarith⟩ := by
  unfold psum
  have e : (k + 1) * B = k * B + B := Nat.succ_mul k B
  -- the positions below (k+1)*B are those below k*B together with the block [k*B, (k+1)*B)
  have hsplit : Finset.univ.filter (fun κ : Fin K => κ.val < (k + 1) * B)
      = Finset.univ.filter (fun κ : Fin K => κ.val < k * B) ∪
        Finset.univ.filter (fun κ : Fin K => k * B ≤ κ.val ∧ κ.val < (k + 1) * B) := by
    ext κ
    simp only [Finset.mem_filter, Finset.mem_univ, true_and, Finset.mem_union]
    constructor
    · intro hκ
      by_cases h1 : κ.val < k * B
      · exact Or.inl h1
      · exact Or.inr ⟨Nat.le_of_not_lt h1, hκ⟩
    · rintro (h1 | ⟨_, h2⟩)
      · omega
      · exact h2
  have hdisj : Disjoint (Finset.univ.filter (fun κ : Fin K => κ.val < k * B))
      (Finset.univ.filter (fun κ : Fin K => k * B ≤ κ.val ∧ κ.val < (k + 1) * B)) := by
    rw [Finset.disjoint_filter]
    intro κ _ h1 h2
    omega
  rw [hsplit, Finset.sum_union hdisj]
  congr 1
  -- the block is the image of Fin B under kk ↦ k*B + kk
  symm
  refine Finset.sum_bij (fun (kk : Fin B) _ => (⟨k * B + kk.val, by have := kk.isLt; omega⟩ : Fin K)) ?_ ?_ ?_ ?_
  · intro kk _
    simp only [Finset.mem_filter, Finset.mem_univ, true_and]
    have := kk.isLt
    constructor <;> omega
  · intro a _ b _ hab
    have := congrArg Fin.val hab
    simp only at this
    exact Fin.ext (by omega)
  · intro κ hκ
    simp only [Finset.mem_filter, Finset.mem_univ, true_and] at hκ
    refine ⟨⟨κ.val - k * B, by omega⟩, Finset.mem_univ _, Fin.ext ?_⟩
    simp only
    omega
  · intro kk _
    rfl

end Cert.Spec

end
-- ==== Proof.KernelIdeal.Pay.lean ====
/-
  The kernel bodies' pure payloads, read at one index, at the ideal instance.

  Each of the three kernels (one per layer) stores three computed values into its blocks:
    * the accumulator's initial value, a zero splat: every element is 0;
    * the accumulator's update: with x a block of activations (rows p, contraction κ), w a block of weights and mk the
      block of mask words (both rows n, contraction κ), and s the accumulator so far,
        (p, n)  ↦  s(p, n) + ∑ κ, x(p, κ) * (w(n, κ) * [mk(n, κ) ≠ 0]),
      the product contracting the SECOND axis of both operands (the weights are stored output-major). At the ideal
      instance the format changes to and from bf16 are the identity and the product is the exact sum, so nothing of
      the kernel's number formats is left. The mask factor: a mask word is a bit widened to 32 bits; "word ≠ 0" is
      that bit again, widened and read as a signed integer it is 0 or 1, the bit's value as a number;
    * the finished block: the accumulator plus the bias row broadcast over the rows, under tanh for the first two
      layers and bare for the last.
-/
import proofs.«159617_j84035330113916_1_alg».proof.Proof.Gen.KernelIdeal.Skeleton
import proofs.«159617_j84035330113916_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-! ## The mask word as a number -/

/-- A mask bit `b`, stored as the 32-bit word `b` widened: the comparison "word ≠ 0" gives `b` back, and that bit
    widened to 32 bits and read as a signed integer is `b`'s value, 0 or 1. -/
theorem maskWord (b : BitVec 1) :
    (FloatOps.sitofp .f32 ((IntOp.cmpi .ne (b.setWidth 32) 0#32).setWidth 32) : Ideal .f32) = Cert.Spec.mval b := by
  have key : ((IntOp.cmpi .ne (b.setWidth 32) 0#32).setWidth 32).toInt = (b.toNat : ℤ) := by
    rcases BitVec.eq_zero_or_eq_one b with h | h <;> subst h <;> decide
  show ((((IntOp.cmpi .ne (b.setWidth 32) 0#32).setWidth 32).toInt : ℝ) : EReal) = (((b.toNat : ℝ)) : EReal)
  rw [key, Int.cast_natCast]

/-! ## The product's operand indices

The dot record contracts axis 1 of both operands and keeps axis 0 of each: at output index `(p, n)` and contraction
position `κ` the left operand is read at `(p, κ)` and the right one at `(n, κ)`. One lemma per operand axis. -/

theorem lhs_0 (i : S256x1024.Idx) (c : dot_S256x1024_S1024x1024_S256x1024_1_1_0_0_n_n.contr.Idx) :
    (dot_S256x1024_S1024x1024_S256x1024_1_1_0_0_n_n.lhsIdx i c 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_1 (i : S256x1024.Idx) (c : dot_S256x1024_S1024x1024_S256x1024_1_1_0_0_n_n.contr.Idx) :
    (dot_S256x1024_S1024x1024_S256x1024_1_1_0_0_n_n.lhsIdx i c 1).val = (c ⟨0, by decide⟩).val :=
  dot_S256x1024_S1024x1024_S256x1024_1_1_0_0_n_n.lhsIdx_val_of_single rfl i c
theorem rhs_0 (i : S256x1024.Idx) (c : dot_S256x1024_S1024x1024_S256x1024_1_1_0_0_n_n.contr.Idx) :
    (dot_S256x1024_S1024x1024_S256x1024_1_1_0_0_n_n.rhsIdx i c 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_1 (i : S256x1024.Idx) (c : dot_S256x1024_S1024x1024_S256x1024_1_1_0_0_n_n.contr.Idx) :
    (dot_S256x1024_S1024x1024_S256x1024_1_1_0_0_n_n.rhsIdx i c 1).val = (c ⟨0, by decide⟩).val :=
  dot_S256x1024_S1024x1024_S256x1024_1_1_0_0_n_n.rhsIdx_val_of_single rfl i c

/-! ## The accumulator's update -/

/-- The update all three kernels share, at output index `(p, n)`. -/
theorem pay2_core (x : FVec Ideal S256x1024 .f32) (w : FVec Ideal S1024x1024 .f32) (mk : IVec S1024x1024 32) (s : FVec Ideal S256x1024 .f32)
    (mbit : S1024x1024.Idx → BitVec 1) (hm : ∀ i, mk i = (mbit i).setWidth 32) (p : Fin 256) (q : Fin 1024) :
    addf s (matmul (F := Ideal) dot_S256x1024_S1024x1024_S256x1024_1_1_0_0_n_n none (truncf .bf16 x bitsLt_bf16_f32)
        (mulf (truncf .bf16 w bitsLt_bf16_f32)
          (truncf .bf16 (sitofp .f32 (extui 32 (cmpi .ne mk (constantI S1024x1024 32 0#32)) natLt_1_32)) bitsLt_bf16_f32))
        (constant S256x1024 .f32 0x00000000#32)) (ix2 p q)
      = s (ix2 p q) + ∑ kk : Fin 1024, x (ix2 p kk) * (w (ix2 q kk) * Cert.Spec.mval (mbit (ix2 q kk))) := by
  rw [addf_apply]
  refine congrArg (s (ix2 p q) + ·) ?_
  simp only [matmul]
  rw [Ideal.matmul_constant_zero_apply, ← Equiv.sum_comp (contrEquiv1 dot_S256x1024_S1024x1024_S256x1024_1_1_0_0_n_n 1024 rfl rfl).symm]
  refine Finset.sum_congr rfl fun kk _ => ?_
  have hk := contrEquiv1_symm_val dot_S256x1024_S1024x1024_S256x1024_1_1_0_0_n_n 1024 rfl rfl kk
  have el : dot_S256x1024_S1024x1024_S256x1024_1_1_0_0_n_n.lhsIdx (ix2 p q) ((contrEquiv1 dot_S256x1024_S1024x1024_S256x1024_1_1_0_0_n_n 1024 rfl rfl).symm kk) = ix2 p kk := funext fun a => Fin.ext (by
    match a with
    | ⟨0, _⟩ => exact lhs_0 _ _
    | ⟨1, _⟩ => exact (lhs_1 _ _).trans hk)
  have er : dot_S256x1024_S1024x1024_S256x1024_1_1_0_0_n_n.rhsIdx (ix2 p q) ((contrEquiv1 dot_S256x1024_S1024x1024_S256x1024_1_1_0_0_n_n 1024 rfl rfl).symm kk) = ix2 q kk := funext fun a => Fin.ext (by
    match a with
    | ⟨0, _⟩ => exact rhs_0 _ _
    | ⟨1, _⟩ => exact (rhs_1 _ _).trans hk)
  rw [el, er]
  show x (ix2 p kk) * (w (ix2 q kk) * (FloatOps.sitofp .f32 ((IntOp.cmpi .ne (mk (ix2 q kk)) 0#32).setWidth 32) : Ideal .f32)) = _
  rw [hm, maskWord]

theorem pay2_0_apply (x : Vec Ideal S256x1024 .f32) (w : Vec Ideal S1024x1024 .f32) (mk : Vec Ideal S1024x1024 .i32) (s : Vec Ideal S256x1024 .f32)
    (mbit : S1024x1024.Idx → BitVec 1) (hm : ∀ i, mk i = (mbit i).setWidth 32) (p : Fin 256) (q : Fin 1024) :
    k0_pay2 (F := Ideal) x w mk s (ix2 p q) = s (ix2 p q) + ∑ kk : Fin 1024, x (ix2 p kk) * (w (ix2 q kk) * Cert.Spec.mval (mbit (ix2 q kk))) := by
  unfold k0_pay2
  simp only [shapeCast_self]
  exact pay2_core x w mk s mbit hm p q

theorem pay2_1_apply (x : Vec Ideal S256x1024 .f32) (w : Vec Ideal S1024x1024 .f32) (mk : Vec Ideal S1024x1024 .i32) (s : Vec Ideal S256x1024 .f32)
    (mbit : S1024x1024.Idx → BitVec 1) (hm : ∀ i, mk i = (mbit i).setWidth 32) (p : Fin 256) (q : Fin 1024) :
    k1_pay2 (F := Ideal) x w mk s (ix2 p q) = s (ix2 p q) + ∑ kk : Fin 1024, x (ix2 p kk) * (w (ix2 q kk) * Cert.Spec.mval (mbit (ix2 q kk))) := by
  unfold k1_pay2
  simp only [shapeCast_self]
  exact pay2_core x w mk s mbit hm p q

theorem pay2_2_apply (x : Vec Ideal S256x1024 .f32) (w : Vec Ideal S1024x1024 .f32) (mk : Vec Ideal S1024x1024 .i32) (s : Vec Ideal S256x1024 .f32)
    (mbit : S1024x1024.Idx → BitVec 1) (hm : ∀ i, mk i = (mbit i).setWidth 32) (p : Fin 256) (q : Fin 1024) :
    k2_pay2 (F := Ideal) x w mk s (ix2 p q) = s (ix2 p q) + ∑ kk : Fin 1024, x (ix2 p kk) * (w (ix2 q kk) * Cert.Spec.mval (mbit (ix2 q kk))) := by
  unfold k2_pay2
  simp only [shapeCast_self]
  exact pay2_core x w mk s mbit hm p q

/-! ## The accumulator's initial value -/

/-- A zero splat under an identity shape cast reads 0 everywhere. -/
theorem zeroSplat_apply (h : S256x1024.ShapeCasts S256x1024) (i : S256x1024.Idx) :
    shapeCast S256x1024 (broadcast S256x1024 (Scalar.ofBits (F := Ideal) .f32 0x00000000#32)) h i = 0 := by
  rw [shapeCast_self]
  exact Ideal.ofBits_zero_f32

theorem pay1_0_apply (p : Fin 256) (q : Fin 1024) : k0_pay1 (F := Ideal) (ix2 p q) = 0 := zeroSplat_apply _ _
theorem pay1_1_apply (p : Fin 256) (q : Fin 1024) : k1_pay1 (F := Ideal) (ix2 p q) = 0 := zeroSplat_apply _ _
theorem pay1_2_apply (p : Fin 256) (q : Fin 1024) : k2_pay1 (F := Ideal) (ix2 p q) = 0 := zeroSplat_apply _ _

/-! ## The finished block -/

/-- The bias row, under its identity shape cast, broadcast over the rows: at `(p, n)` it is the row's entry `n`. -/
theorem biasRow_apply (b : FVec Ideal S1x1024 .f32) (p : Fin 256) (q : Fin 1024) :
    broadcastTo S256x1024 (shapeCast S1x1024 b shapeCasts_S1x1024_S1x1024) broadcasts_S1x1024_S256x1024 (ix2 p q)
      = b (ix2 (0 : Fin 1) q) := by
  refine (broadcastTo_1b_ab_apply _ broadcasts_S1x1024_S256x1024 p q).trans ?_
  rw [shapeCast_self]

theorem pay3_0_apply (s : Vec Ideal S256x1024 .f32) (b : Vec Ideal S1x1024 .f32) (p : Fin 256) (q : Fin 1024) :
    k0_pay3 (F := Ideal) s b (ix2 p q) = Ideal.tanh (s (ix2 p q) + b (ix2 (0 : Fin 1) q)) :=
  congrArg (fun t => Ideal.tanh (s (ix2 p q) + t)) (biasRow_apply b p q)

theorem pay3_1_apply (s : Vec Ideal S256x1024 .f32) (b : Vec Ideal S1x1024 .f32) (p : Fin 256) (q : Fin 1024) :
    k1_pay3 (F := Ideal) s b (ix2 p q) = Ideal.tanh (s (ix2 p q) + b (ix2 (0 : Fin 1) q)) :=
  congrArg (fun t => Ideal.tanh (s (ix2 p q) + t)) (biasRow_apply b p q)

theorem pay3_2_apply (s : Vec Ideal S256x1024 .f32) (b : Vec Ideal S1x1024 .f32) (p : Fin 256) (q : Fin 1024) :
    k2_pay3 (F := Ideal) s b (ix2 p q) = s (ix2 p q) + b (ix2 (0 : Fin 1) q) :=
  congrArg (fun t => s (ix2 p q) + t) (biasRow_apply b p q)

end Cert.KernelIdeal.Hand

end
-- ==== Proof.KernelIdeal.Value0.lean ====
/-
  The first layer's result array after its region, at the ideal instance, as one function of the arrays the region
  finds: the masked linear layer of the activations, the weights, the mask's bits and the bias, under tanh.

  A block of window w at point t = (i * 8 + j) * 4 + k sits in its array at, per axis, block index times block size
  plus the coordinate in the block; the accumulator after point t holds the contraction's terms below (k + 1) * 1024,
  summed; at k = 3 that is the whole contraction, and the result block is tanh of it plus the bias. The blocks
  written back at the points with k = 3 tile the result array.
-/
import proofs.«159617_j84035330113916_1_alg».proof.Proof.KernelIdeal.Region0
import proofs.«159617_j84035330113916_1_alg».proof.Proof.KernelIdeal.Pay
import proofs.«159617_j84035330113916_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open scoped BigOperators

variable (V : (c : Dev nD) → (b : Ref sig .tc) → Buf (Elt Ideal) ((c : Thread nD τ).loc b))

/-! ## The windows' block indices over the grid -/

theorem idx0_0 : ∀ t : Fin cfg0.N, win0_0.index t (0 : Fin 2) = t.val / 32 ∧ win0_0.index t (1 : Fin 2) = t.val % 4 :=
  (by decide +kernel : ∀ t : Fin grid0.N, win0_0.index t (0 : Fin 2) = t.val / 32 ∧ win0_0.index t (1 : Fin 2) = t.val % 4)
theorem idx0_1 : ∀ t : Fin cfg0.N, win0_1.index t (0 : Fin 2) = t.val / 4 % 8 ∧ win0_1.index t (1 : Fin 2) = t.val % 4 :=
  (by decide +kernel : ∀ t : Fin grid0.N, win0_1.index t (0 : Fin 2) = t.val / 4 % 8 ∧ win0_1.index t (1 : Fin 2) = t.val % 4)
theorem idx0_2 : ∀ t : Fin cfg0.N, win0_2.index t (0 : Fin 2) = 0 ∧ win0_2.index t (1 : Fin 2) = t.val / 4 % 8 :=
  (by decide +kernel : ∀ t : Fin grid0.N, win0_2.index t (0 : Fin 2) = 0 ∧ win0_2.index t (1 : Fin 2) = t.val / 4 % 8)
theorem idx0_3 : ∀ t : Fin cfg0.N, win0_3.index t (0 : Fin 2) = t.val / 4 % 8 ∧ win0_3.index t (1 : Fin 2) = t.val % 4 :=
  (by decide +kernel : ∀ t : Fin grid0.N, win0_3.index t (0 : Fin 2) = t.val / 4 % 8 ∧ win0_3.index t (1 : Fin 2) = t.val % 4)
theorem idx0_4 : ∀ t : Fin cfg0.N, win0_4.index t (0 : Fin 2) = t.val / 32 ∧ win0_4.index t (1 : Fin 2) = t.val / 4 % 8 :=
  (by decide +kernel : ∀ t : Fin grid0.N, win0_4.index t (0 : Fin 2) = t.val / 32 ∧ win0_4.index t (1 : Fin 2) = t.val / 4 % 8)

theorem lt_N0 (t : Fin cfg0.N) : t.val < 256 := lt_of_lt_of_eq t.isLt (show cfg0.N = 256 from N_0)

/-! ## The blocks, read off their arrays -/

theorem xb0_apply (c : Dev nD) (t : Fin cfg0.N) (p : Fin 256) (kk : Fin 1024) :
    xb0 V c t (ix2 p kk) = (V c main_arg0 : S2048x4096.Idx → EReal)
      (ix2 ⟨t.val / 32 * 256 + p.val, by have := lt_N0 t; have := p.isLt; omega⟩ ⟨t.val % 4 * 1024 + kk.val, by have := kk.isLt; omega⟩) := by
  unfold xb0 iblk0
  rw [View.read_apply]
  show (V c main_arg0 : S2048x4096.Idx → EReal) (((cfg0.win 0).blk t).view.emb (ix2 p kk)) = _
  refine congrArg _ (funext fun a => Fin.ext ?_)
  obtain ⟨e0, e1⟩ := idx0_0 t
  match a with
  | ⟨0, _⟩ => show win0_0.index t (0 : Fin 2) * 256 + 1 * p.val = t.val / 32 * 256 + p.val; rw [e0]; omega
  | ⟨1, _⟩ => show win0_0.index t (1 : Fin 2) * 1024 + 1 * kk.val = t.val % 4 * 1024 + kk.val; rw [e1]; omega

theorem wb0_apply (c : Dev nD) (t : Fin cfg0.N) (q : Fin 1024) (kk : Fin 1024) :
    wb0 V c t (ix2 q kk) = (V c main_arg1 : S8192x4096.Idx → EReal)
      (ix2 ⟨t.val / 4 % 8 * 1024 + q.val, by have := q.isLt; omega⟩ ⟨t.val % 4 * 1024 + kk.val, by have := kk.isLt; omega⟩) := by
  unfold wb0 iblk0
  rw [View.read_apply]
  show (V c main_arg1 : S8192x4096.Idx → EReal) (((cfg0.win 1).blk t).view.emb (ix2 q kk)) = _
  refine congrArg _ (funext fun a => Fin.ext ?_)
  obtain ⟨e0, e1⟩ := idx0_1 t
  match a with
  | ⟨0, _⟩ => show win0_1.index t (0 : Fin 2) * 1024 + 1 * q.val = t.val / 4 % 8 * 1024 + q.val; rw [e0]; omega
  | ⟨1, _⟩ => show win0_1.index t (1 : Fin 2) * 1024 + 1 * kk.val = t.val % 4 * 1024 + kk.val; rw [e1]; omega

theorem mb0_apply (c : Dev nD) (t : Fin cfg0.N) (q : Fin 1024) (kk : Fin 1024) :
    mb0 V c t (ix2 q kk) = (V c main_v1 : S8192x4096.Idx → BitVec 32)
      (ix2 ⟨t.val / 4 % 8 * 1024 + q.val, by have := q.isLt; omega⟩ ⟨t.val % 4 * 1024 + kk.val, by have := kk.isLt; omega⟩) := by
  unfold mb0 iblk0
  rw [View.read_apply]
  show (V c main_v1 : S8192x4096.Idx → BitVec 32) (((cfg0.win 3).blk t).view.emb (ix2 q kk)) = _
  refine congrArg _ (funext fun a => Fin.ext ?_)
  obtain ⟨e0, e1⟩ := idx0_3 t
  match a with
  | ⟨0, _⟩ => show win0_3.index t (0 : Fin 2) * 1024 + 1 * q.val = t.val / 4 % 8 * 1024 + q.val; rw [e0]; omega
  | ⟨1, _⟩ => show win0_3.index t (1 : Fin 2) * 1024 + 1 * kk.val = t.val % 4 * 1024 + kk.val; rw [e1]; omega

theorem bb0_apply (c : Dev nD) (t : Fin cfg0.N) (q : Fin 1024) :
    bb0 V c t (ix2 (0 : Fin 1) q) = (V c main_v0 : S1x8192.Idx → EReal)
      (ix2 (0 : Fin 1) ⟨t.val / 4 % 8 * 1024 + q.val, by have := q.isLt; omega⟩) := by
  unfold bb0 iblk0
  rw [View.read_apply]
  show (V c main_v0 : S1x8192.Idx → EReal) (((cfg0.win 2).blk t).view.emb (ix2 (0 : Fin 1) q)) = _
  refine congrArg _ (funext fun a => Fin.ext ?_)
  obtain ⟨e0, e1⟩ := idx0_2 t
  match a with
  | ⟨0, _⟩ => show win0_2.index t (0 : Fin 2) * 1 + 1 * (0 : Fin 1).val = (0 : Fin 1).val; rw [e0]; omega
  | ⟨1, _⟩ => show win0_2.index t (1 : Fin 2) * 1024 + 1 * q.val = t.val / 4 % 8 * 1024 + q.val; rw [e1]; omega

/-! ## The accumulator -/

/-- The mask's bits under window 3's block at point `t`. -/
def mbit0 (Mbit : S8192x4096.Idx → BitVec 1) (t : Fin cfg0.N) : S1024x1024.Idx → BitVec 1 :=
  fun y => Mbit (ix2 ⟨t.val / 4 % 8 * 1024 + (y 0).val, by have : (y 0).val < 1024 := (y 0).isLt; omega⟩
    ⟨t.val % 4 * 1024 + (y 1).val, by have : (y 1).val < 1024 := (y 1).isLt; omega⟩)

theorem mb0_word (c : Dev nD) (Mbit : S8192x4096.Idx → BitVec 1)
    (hM : ∀ i : S8192x4096.Idx, (V c main_v1 : S8192x4096.Idx → BitVec 32) i = (Mbit i).setWidth 32)
    (t : Fin cfg0.N) (y : S1024x1024.Idx) : mb0 V c t y = (mbit0 Mbit t y).setWidth 32 := by
  obtain ⟨q, kk, rfl⟩ : ∃ (q : Fin 1024) (kk : Fin 1024), y = ix2 q kk := ⟨y 0, y 1, eq_ix2 y⟩
  rw [mb0_apply, hM]
  rfl

/-- One point's product at an output position: the contraction's terms of the point's block of positions. -/
theorem blockSum0 (c : Dev nD) (Mbit : S8192x4096.Idx → BitVec 1) (t : Fin cfg0.N) (p : Fin 256) (q : Fin 1024)
    (r : Fin 2048) (s : Fin 8192) (hr : r.val = t.val / 32 * 256 + p.val) (hs : s.val = t.val / 4 % 8 * 1024 + q.val) :
    (∑ kk : Fin 1024, xb0 V c t (ix2 p kk) * (wb0 V c t (ix2 q kk) * Cert.Spec.mval (mbit0 Mbit t (ix2 q kk))))
      = ∑ kk : Fin 1024, (fun κ : Fin 4096 => Cert.Spec.term (V c main_arg0 : S2048x4096.Idx → EReal) (V c main_arg1 : S8192x4096.Idx → EReal) Mbit r s κ)
          ⟨t.val % 4 * 1024 + kk.val, by have := kk.isLt; omega⟩ := by
  obtain ⟨r, hrlt⟩ := r
  obtain ⟨s, hslt⟩ := s
  have hr' : r = t.val / 32 * 256 + p.val := hr
  have hs' : s = t.val / 4 % 8 * 1024 + q.val := hs
  subst hr' hs'
  refine Finset.sum_congr rfl fun kk _ => ?_
  rw [xb0_apply, wb0_apply]
  rfl

theorem acc0_apply (c : Dev nD) (Mbit : S8192x4096.Idx → BitVec 1)
    (hM : ∀ i : S8192x4096.Idx, (V c main_v1 : S8192x4096.Idx → BitVec 32) i = (Mbit i).setWidth 32) :
    ∀ (n : ℕ) (h : n < cfg0.N) (p : Fin 256) (q : Fin 1024) (r : Fin 2048) (s : Fin 8192),
      r.val = n / 32 * 256 + p.val → s.val = n / 4 % 8 * 1024 + q.val →
      acc0 V c n h (ix2 p q)
        = Cert.Spec.psum (fun κ : Fin 4096 => Cert.Spec.term (V c main_arg0 : S2048x4096.Idx → EReal) (V c main_arg1 : S8192x4096.Idx → EReal) Mbit r s κ)
            ((n % 4 + 1) * 1024) := by
  intro n
  induction n with
  | zero =>
    intro h p q r s hr hs
    rw [show acc0 V c 0 h = acc0 V c (⟨0, h⟩ : Fin cfg0.N).val (⟨0, h⟩ : Fin cfg0.N).isLt from rfl,
      acc0_first V c ⟨0, h⟩ rfl, pay2_0_apply _ _ _ _ (mbit0 Mbit ⟨0, h⟩) (mb0_word V c Mbit hM ⟨0, h⟩) p q, pay1_0_apply, zero_add,
      blockSum0 V c Mbit ⟨0, h⟩ p q r s hr hs, Cert.Spec.psum_succ (B := 1024) _ (0 % 4) (by omega)]
    have hz : ∀ f : Fin 4096 → EReal, Cert.Spec.psum f (0 % 4 * 1024) = 0 := fun f => Cert.Spec.psum_zero f
    rw [hz, zero_add]
  | succ m ih =>
    intro h p q r s hr hs
    have hN : m + 1 < 256 := lt_N0 ⟨m + 1, h⟩
    by_cases h0 : (m + 1) % 4 = 0
    · rw [show acc0 V c (m + 1) h = acc0 V c (⟨m + 1, h⟩ : Fin cfg0.N).val (⟨m + 1, h⟩ : Fin cfg0.N).isLt from rfl,
        acc0_first V c ⟨m + 1, h⟩ h0, pay2_0_apply _ _ _ _ (mbit0 Mbit ⟨m + 1, h⟩) (mb0_word V c Mbit hM ⟨m + 1, h⟩) p q, pay1_0_apply, zero_add,
        blockSum0 V c Mbit ⟨m + 1, h⟩ p q r s hr hs, Cert.Spec.psum_succ (B := 1024) _ ((m + 1) % 4) (by omega)]
      have hz : ∀ f : Fin 4096 → EReal, Cert.Spec.psum f ((m + 1) % 4 * 1024) = 0 := fun f => by
        rw [h0, Nat.zero_mul]; exact Cert.Spec.psum_zero f
      rw [hz, zero_add]
    · rw [show acc0 V c (m + 1) h = acc0 V c (⟨m + 1, h⟩ : Fin cfg0.N).val (⟨m + 1, h⟩ : Fin cfg0.N).isLt from rfl,
        acc0_next V c ⟨m + 1, h⟩ h0, pay2_0_apply _ _ _ _ (mbit0 Mbit ⟨m + 1, h⟩) (mb0_word V c Mbit hM ⟨m + 1, h⟩) p q,
        blockSum0 V c Mbit ⟨m + 1, h⟩ p q r s hr hs, Cert.Spec.psum_succ (B := 1024) _ ((m + 1) % 4) (by omega)]
      congr 1
      refine (ih (Nat.lt_of_succ_lt h) p q r s (by omega) (by omega)).trans ?_
      rw [show m % 4 + 1 = (m + 1) % 4 from by omega]

/-! ## The result block at a point that writes it back -/

theorem out0_apply (c : Dev nD) (Mbit : S8192x4096.Idx → BitVec 1) (bias : (⟨1, ![8192]⟩ : Shape).Idx → EReal)
    (hM : ∀ i : S8192x4096.Idx, (V c main_v1 : S8192x4096.Idx → BitVec 32) i = (Mbit i).setWidth 32)
    (hb : ∀ n : Fin 8192, (V c main_v0 : S1x8192.Idx → EReal) (ix2 (0 : Fin 1) n) = bias (ix1 n))
    (t : Fin cfg0.N) (h3 : t.val % 4 = 3) (p : Fin 256) (q : Fin 1024) :
    out0 V c t (ix2 p q)
      = Cert.Spec.act (Cert.Spec.lin (V c main_arg0 : S2048x4096.Idx → EReal) (V c main_arg1 : S8192x4096.Idx → EReal) Mbit bias)
          (ix2 ⟨t.val / 32 * 256 + p.val, by have := lt_N0 t; have := p.isLt; omega⟩ ⟨t.val / 4 % 8 * 1024 + q.val, by have := q.isLt; omega⟩) := by
  unfold out0
  rw [pay3_0_apply, acc0_apply V c Mbit hM t.val t.isLt p q ⟨t.val / 32 * 256 + p.val, by have := lt_N0 t; have := p.isLt; omega⟩
      ⟨t.val / 4 % 8 * 1024 + q.val, by have := q.isLt; omega⟩ rfl rfl, bb0_apply, hb]
  have hfull : ∀ f : Fin 4096 → EReal, Cert.Spec.psum f ((t.val % 4 + 1) * 1024) = ∑ κ : Fin 4096, f κ := fun f => by
    rw [h3]; exact Cert.Spec.psum_full f
  rw [hfull]
  rfl

/-! ## The result array -/

/-- An index of the result array is in point `t`'s block iff each coordinate is in the block's range on its axis. -/
theorem mem_blk0_4 (t : Fin cfg0.N) (i : S2048x8192.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v2).slice (win0_4.rect t)).set ↔ _
  rw [View.set_slice_whole, Rect.mem_set_unit]
  exact Iff.rfl

/-- What a point with k = 3 writes back is its block of the layer's value. -/
theorem flushed0_eq (c : Dev nD) (Mbit : S8192x4096.Idx → BitVec 1) (bias : (⟨1, ![8192]⟩ : Shape).Idx → EReal)
    (hM : ∀ i : S8192x4096.Idx, (V c main_v1 : S8192x4096.Idx → BitVec 32) i = (Mbit i).setWidth 32)
    (hb : ∀ n : Fin 8192, (V c main_v0 : S1x8192.Idx → EReal) (ix2 (0 : Fin 1) n) = bias (ix1 n))
    (t : Fin cfg0.N) (hf : (cfg0.win 4).flush t = true) :
    (dat0 V c).flushed 4 t = ((cfg0.win 4).blk t).view.read (Elt Ideal)
      (Cert.Spec.act (Cert.Spec.lin (V c main_arg0 : S2048x4096.Idx → EReal) (V c main_arg1 : S8192x4096.Idx → EReal) Mbit bias)) := by
  have h3 : t.val % 4 = 3 := (flush0_4 t).mp hf
  show (cfg0.win 4).cut (grid0.coords t) ((dat0 V c).after 4 t) = _
  rw [after0_4]
  have key : ∀ y : S256x1024.Idx, out0 V c t y
      = Cert.Spec.act (Cert.Spec.lin (V c main_arg0 : S2048x4096.Idx → EReal) (V c main_arg1 : S8192x4096.Idx → EReal) Mbit bias)
          (((cfg0.win 4).blk t).view.emb y) := by
    intro y
    obtain ⟨p, q, rfl⟩ : ∃ (p : Fin 256) (q : Fin 1024), y = ix2 p q := ⟨y 0, y 1, eq_ix2 y⟩
    rw [out0_apply V c Mbit bias hM hb t h3 p q]
    refine congrArg _ (funext fun a => Fin.ext ?_)
    obtain ⟨e0, e1⟩ := idx0_4 t
    match a with
    | ⟨0, _⟩ => show t.val / 32 * 256 + p.val = win0_4.index t (0 : Fin 2) * 256 + 1 * p.val; rw [e0]; omega
    | ⟨1, _⟩ => show t.val / 4 % 8 * 1024 + q.val = win0_4.index t (1 : Fin 2) * 1024 + 1 * q.val; rw [e1]; omega
  funext y
  rw [View.read_apply]
  exact key y

/-- The blocks written back tile the result array. -/
theorem cover0 (i : S2048x8192.Idx) :
    ∃ t : Fin cfg0.N, (cfg0.win 4).flush t = true ∧ i ∈ ((cfg0.win 4).blk t).view.set := by
  have h0 : (i 0).val < 2048 := (i 0).isLt
  have h1 : (i 1).val < 8192 := (i 1).isLt
  obtain ⟨t, ht⟩ : ∃ t : Fin cfg0.N, t.val = ((i 0).val / 256 * 8 + (i 1).val / 1024) * 4 + 3 :=
    ⟨⟨((i 0).val / 256 * 8 + (i 1).val / 1024) * 4 + 3, by rw [show cfg0.N = 256 from N_0]; omega⟩, rfl⟩
  refine ⟨t, (flush0_4 t).mpr (by omega), ?_⟩
  rw [mem_blk0_4]
  obtain ⟨e0, e1⟩ := idx0_4 t
  intro a
  match a with
  | ⟨0, _⟩ => show win0_4.index t (0 : Fin 2) * 256 ≤ (i 0).val ∧ (i 0).val < win0_4.index t (0 : Fin 2) * 256 + 256; rw [e0]; omega
  | ⟨1, _⟩ => show win0_4.index t (1 : Fin 2) * 1024 ≤ (i 1).val ∧ (i 1).val < win0_4.index t (1 : Fin 2) * 1024 + 1024; rw [e1]; omega

/-- The first layer's result array after its region: the masked linear layer of the arrays the region finds, under tanh. -/
theorem final0 (c : Dev nD) (Mbit : S8192x4096.Idx → BitVec 1) (bias : (⟨1, ![8192]⟩ : Shape).Idx → EReal)
    (hM : ∀ i : S8192x4096.Idx, (V c main_v1 : S8192x4096.Idx → BitVec 32) i = (Mbit i).setWidth 32)
    (hb : ∀ n : Fin 8192, (V c main_v0 : S1x8192.Idx → EReal) (ix2 (0 : Fin 1) n) = bias (ix1 n)) :
    ((dat0 V c).arrAt 4 cfg0.N : S2048x8192.Idx → EReal)
      = Cert.Spec.act (Cert.Spec.lin (V c main_arg0 : S2048x4096.Idx → EReal) (V c main_arg1 : S8192x4096.Idx → EReal) Mbit bias) :=
  (dat0 V c).arrAt_eq_of_cover 4 _ (fun t hf => flushed0_eq V c Mbit bias hM hb t hf) cover0

end Cert.KernelIdeal.Hand

end
-- ==== Proof.KernelIdeal.Value1.lean ====
/-
  What the second layer's pallas_call leaves in its result array, as one function of the arrays it reads.

  The grid is 8 x 8 x 8: point t = (i * 8 + j) * 8 + k works on row block i (256 rows), column block j (1024 output
  columns) and contraction block k (1024 positions). At every point the accumulator gains the block product
    (p, q) ↦ ∑ κ in block k, X(i*256 + p, κ) * (W(j*1024 + q, κ) * mask(j*1024 + q, κ)),
  starting from zero at k = 0, so after point t it is the contraction's partial sum over the first (k + 1) * 1024
  positions. At k = 7 that is the whole contraction; the bias entry of column j*1024 + q is added, tanh is applied and
  the block is written to rows i*256.., columns j*1024.. of the result. The blocks written at the 64 points with
  k = 7 tile the result array, so it ends holding tanh (lin X W mask bias) everywhere.
-/
import proofs.«159617_j84035330113916_1_alg».proof.Proof.KernelIdeal.Region1
import proofs.«159617_j84035330113916_1_alg».proof.Proof.KernelIdeal.Pay
import proofs.«159617_j84035330113916_1_alg».proof.Proof.Spec
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## The point's blocks -/

theorem point_lt1 (t : Fin cfg1.N) : t.val < 512 := lt_of_lt_of_eq t.isLt (show cfg1.N = 512 from N_1)

/-- The windows' block indices at point t = (i * 8 + j) * 8 + k, decided over the grid: activations (i, k), weights and
    mask (j, k), bias (0, j), result (i, j). -/
theorem blockIdx1 : ∀ t : Fin cfg1.N,
    win1_0.index t (0 : Fin 2) = t.val / 64 ∧ win1_0.index t (1 : Fin 2) = t.val % 8
    ∧ win1_1.index t (0 : Fin 2) = t.val / 8 % 8 ∧ win1_1.index t (1 : Fin 2) = t.val % 8
    ∧ win1_2.index t (0 : Fin 2) = 0 ∧ win1_2.index t (1 : Fin 2) = t.val / 8 % 8
    ∧ win1_3.index t (0 : Fin 2) = t.val / 8 % 8 ∧ win1_3.index t (1 : Fin 2) = t.val % 8
    ∧ win1_4.index t (0 : Fin 2) = t.val / 64 ∧ win1_4.index t (1 : Fin 2) = t.val / 8 % 8 :=
  (by decide +kernel : ∀ t : Fin grid1.N, _)

/-- Row p of the point's row block, in the array. -/
abbrev rowAt1 (t : Fin cfg1.N) (p : Fin 256) : Fin 2048 :=
  ⟨t.val / 64 * 256 + p.val, by have := point_lt1 t; have := p.isLt; omega⟩
/-- Column q of the point's column block, in the array. -/
abbrev colAt1 (t : Fin cfg1.N) (q : Fin 1024) : Fin 8192 :=
  ⟨t.val / 8 % 8 * 1024 + q.val, by have := q.isLt; omega⟩
/-- Position kk of the point's contraction block, in the array. -/
abbrev conAt1 (t : Fin cfg1.N) (kk : Fin 1024) : Fin 8192 :=
  ⟨t.val % 8 * 1024 + kk.val, by have := kk.isLt; omega⟩

/-- The activations' block at a point is rows i*256.., contraction positions k*1024.. of the array. -/
theorem xb1_apply (c : Dev nD) (t : Fin cfg1.N) (p : Fin 256) (kk : Fin 1024) :
    xb1 V c t (ix2 p kk) = (V c main_v2 : S2048x8192.Idx → EReal) (ix2 (rowAt1 t p) (conAt1 t kk)) := by
  unfold xb1 iblk1
  rw [View.read_apply]
  show (V c main_v2 : S2048x8192.Idx → EReal) (((cfg1.win 0).blk t).view.emb (ix2 p kk)) = (V c main_v2 : S2048x8192.Idx → EReal) (ix2 (rowAt1 t p) (conAt1 t kk))
  refine congrArg _ (funext fun a => Fin.ext ?_)
  obtain ⟨e0, e1, -⟩ := blockIdx1 t
  match a with
  | ⟨0, _⟩ => show win1_0.index t (0 : Fin 2) * 256 + 1 * p.val = t.val / 64 * 256 + p.val; omega
  | ⟨1, _⟩ => show win1_0.index t (1 : Fin 2) * 1024 + 1 * kk.val = t.val % 8 * 1024 + kk.val; omega

/-- The weights' block at a point is rows (output columns) j*1024.., contraction positions k*1024.. of the array. -/
theorem wb1_apply (c : Dev nD) (t : Fin cfg1.N) (q : Fin 1024) (kk : Fin 1024) :
    wb1 V c t (ix2 q kk) = (V c main_arg4 : S8192x8192.Idx → EReal) (ix2 (colAt1 t q) (conAt1 t kk)) := by
  unfold wb1 iblk1
  rw [View.read_apply]
  show (V c main_arg4 : S8192x8192.Idx → EReal) (((cfg1.win 1).blk t).view.emb (ix2 q kk)) = (V c main_arg4 : S8192x8192.Idx → EReal) (ix2 (colAt1 t q) (conAt1 t kk))
  refine congrArg _ (funext fun a => Fin.ext ?_)
  obtain ⟨-, -, e0, e1, -⟩ := blockIdx1 t
  match a with
  | ⟨0, _⟩ => show win1_1.index t (0 : Fin 2) * 1024 + 1 * q.val = t.val / 8 % 8 * 1024 + q.val; omega
  | ⟨1, _⟩ => show win1_1.index t (1 : Fin 2) * 1024 + 1 * kk.val = t.val % 8 * 1024 + kk.val; omega

/-- The mask words' block at a point, likewise. -/
theorem mb1_apply (c : Dev nD) (t : Fin cfg1.N) (q : Fin 1024) (kk : Fin 1024) :
    mb1 V c t (ix2 q kk) = (V c main_v4 : S8192x8192.Idx → BitVec 32) (ix2 (colAt1 t q) (conAt1 t kk)) := by
  unfold mb1 iblk1
  rw [View.read_apply]
  show (V c main_v4 : S8192x8192.Idx → BitVec 32) (((cfg1.win 3).blk t).view.emb (ix2 q kk)) = (V c main_v4 : S8192x8192.Idx → BitVec 32) (ix2 (colAt1 t q) (conAt1 t kk))
  refine congrArg _ (funext fun a => Fin.ext ?_)
  obtain ⟨-, -, -, -, -, -, e0, e1, -⟩ := blockIdx1 t
  match a with
  | ⟨0, _⟩ => show win1_3.index t (0 : Fin 2) * 1024 + 1 * q.val = t.val / 8 % 8 * 1024 + q.val; omega
  | ⟨1, _⟩ => show win1_3.index t (1 : Fin 2) * 1024 + 1 * kk.val = t.val % 8 * 1024 + kk.val; omega

/-- The bias row's block at a point is columns j*1024.. of the row. -/
theorem bb1_apply (c : Dev nD) (t : Fin cfg1.N) (q : Fin 1024) :
    bb1 V c t (ix2 (0 : Fin 1) q) = (V c main_v3 : S1x8192.Idx → EReal) (ix2 (0 : Fin 1) (colAt1 t q)) := by
  unfold bb1 iblk1
  rw [View.read_apply]
  show (V c main_v3 : S1x8192.Idx → EReal) (((cfg1.win 2).blk t).view.emb (ix2 (0 : Fin 1) q)) = (V c main_v3 : S1x8192.Idx → EReal) (ix2 (0 : Fin 1) (colAt1 t q))
  refine congrArg _ (funext fun a => Fin.ext ?_)
  obtain ⟨-, -, -, -, e0, e1, -⟩ := blockIdx1 t
  match a with
  | ⟨0, _⟩ => show win1_2.index t (0 : Fin 2) * 1 + 1 * 0 = 0; omega
  | ⟨1, _⟩ => show win1_2.index t (1 : Fin 2) * 1024 + 1 * q.val = t.val / 8 % 8 * 1024 + q.val; omega

/-! ## The accumulator -/

/-- One point's update at an index: the accumulator gains the contraction's terms of the point's block. -/
theorem step1_apply (c : Dev nD) (Mbit : S8192x8192.Idx → BitVec 1)
    (hM : ∀ i : S8192x8192.Idx, (V c main_v4 : S8192x8192.Idx → BitVec 32) i = (Mbit i).setWidth 32)
    (t : Fin cfg1.N) (s : Vec Ideal S256x1024 .f32) (p : Fin 256) (q : Fin 1024) :
    k1_pay2 (F := Ideal) (xb1 V c t) (wb1 V c t) (mb1 V c t) s (ix2 p q)
      = s (ix2 p q) + ∑ kk : Fin 1024, Cert.Spec.term (V c main_v2 : S2048x8192.Idx → EReal) (V c main_arg4 : S8192x8192.Idx → EReal) Mbit
          (rowAt1 t p) (colAt1 t q) (conAt1 t kk) := by
  rw [pay2_1_apply (xb1 V c t) (wb1 V c t) (mb1 V c t) s
    (fun i : S1024x1024.Idx => Mbit (ix2 (colAt1 t (i 0)) (conAt1 t (i 1))))
    (fun i => by
      obtain ⟨q', k', rfl⟩ : ∃ (q' : Fin 1024) (k' : Fin 1024), i = ix2 q' k' := ⟨i 0, i 1, eq_ix2 i⟩
      exact (mb1_apply V c t q' k').trans (hM _)) p q]
  refine congrArg (s (ix2 p q) + ·) (Finset.sum_congr rfl fun kk _ => ?_)
  rw [xb1_apply, wb1_apply]
  rfl

/-- The contraction's terms of the result's entry (r, n). -/
abbrev terms1 (c : Dev nD) (Mbit : S8192x8192.Idx → BitVec 1) (r : Fin 2048) (n : Fin 8192) : Fin 8192 → EReal :=
  fun κ => Cert.Spec.term (V c main_v2 : S2048x8192.Idx → EReal) (V c main_arg4 : S8192x8192.Idx → EReal) Mbit r n κ

/-- The partial sum through the point's contraction block is the one through the blocks before it plus the block's terms. -/
theorem psum_block1 (f : Fin 8192 → EReal) (t : Fin cfg1.N) :
    Cert.Spec.psum f ((t.val % 8 + 1) * 1024) = Cert.Spec.psum f (t.val % 8 * 1024) + ∑ kk : Fin 1024, f (conAt1 t kk) :=
  Cert.Spec.psum_succ (B := 1024) f (t.val % 8) (by omega)

/-- A point's update takes the partial sum through the blocks before the point's to the one through the point's. -/
theorem point1_apply (c : Dev nD) (Mbit : S8192x8192.Idx → BitVec 1)
    (hM : ∀ i : S8192x8192.Idx, (V c main_v4 : S8192x8192.Idx → BitVec 32) i = (Mbit i).setWidth 32)
    (t : Fin cfg1.N) (s : Vec Ideal S256x1024 .f32) (p : Fin 256) (q : Fin 1024)
    (hs : s (ix2 p q) = Cert.Spec.psum (terms1 V c Mbit (rowAt1 t p) (colAt1 t q)) (t.val % 8 * 1024)) :
    k1_pay2 (F := Ideal) (xb1 V c t) (wb1 V c t) (mb1 V c t) s (ix2 p q)
      = Cert.Spec.psum (terms1 V c Mbit (rowAt1 t p) (colAt1 t q)) ((t.val % 8 + 1) * 1024) := by
  rw [step1_apply V c Mbit hM t s p q, hs]
  exact (psum_block1 (terms1 V c Mbit (rowAt1 t p) (colAt1 t q)) t).symm

/-- After point t = (i * 8 + j) * 8 + k the accumulator holds, at (p, q), the contraction of row i*256 + p with column
    j*1024 + q summed over the first (k + 1) * 1024 positions. -/
theorem acc1_apply (c : Dev nD) (Mbit : S8192x8192.Idx → BitVec 1)
    (hM : ∀ i : S8192x8192.Idx, (V c main_v4 : S8192x8192.Idx → BitVec 32) i = (Mbit i).setWidth 32) :
    ∀ (n : ℕ) (h : n < cfg1.N) (p : Fin 256) (q : Fin 1024),
      acc1 V c n h (ix2 p q)
        = Cert.Spec.psum (terms1 V c Mbit (rowAt1 ⟨n, h⟩ p) (colAt1 ⟨n, h⟩ q)) ((n % 8 + 1) * 1024) := by
  intro n
  induction n using Nat.strong_induction_on with
  | _ n ih =>
    intro h p q
    have hn : n < 512 := point_lt1 ⟨n, h⟩
    by_cases h0 : n % 8 = 0
    · -- the first contraction block: the accumulator starts from zero
      refine (congrFun (acc1_first V c ⟨n, h⟩ h0) (ix2 p q)).trans ?_
      refine point1_apply V c Mbit hM ⟨n, h⟩ _ p q ?_
      rw [pay1_1_apply]
      show 0 = Cert.Spec.psum _ (n % 8 * 1024)
      rw [h0, Nat.zero_mul, Cert.Spec.psum_zero]
    · -- a later block: the point before has the same row and column blocks and the contraction block before
      refine (congrFun (acc1_next V c ⟨n, h⟩ h0) (ix2 p q)).trans ?_
      refine point1_apply V c Mbit hM ⟨n, h⟩ _ p q ?_
      have hlt : n - 1 < cfg1.N := Nat.lt_of_le_of_lt (Nat.sub_le _ _) h
      show acc1 V c (n - 1) hlt (ix2 p q) = Cert.Spec.psum _ (n % 8 * 1024)
      rw [ih (n - 1) (by omega) hlt p q]
      have er : rowAt1 ⟨n - 1, hlt⟩ p = rowAt1 ⟨n, h⟩ p :=
        Fin.ext (by show (n - 1) / 64 * 256 + p.val = n / 64 * 256 + p.val; omega)
      have ec : colAt1 ⟨n - 1, hlt⟩ q = colAt1 ⟨n, h⟩ q :=
        Fin.ext (by show (n - 1) / 8 % 8 * 1024 + q.val = n / 8 % 8 * 1024 + q.val; omega)
      have ek : ((n - 1) % 8 + 1) * 1024 = n % 8 * 1024 := by omega
      rw [er, ec, ek]

/-! ## The finished block -/

/-- What the result array ends holding. -/
abbrev G1 (c : Dev nD) (Mbit : S8192x8192.Idx → BitVec 1) (bias : (⟨1, ![8192]⟩ : Shape).Idx → EReal) : S2048x8192.Idx → EReal :=
  Cert.Spec.act (Cert.Spec.lin (V c main_v2 : S2048x8192.Idx → EReal) (V c main_arg4 : S8192x8192.Idx → EReal) Mbit bias)

/-- At a point with k = 7 the contraction is complete: the block stored is the layer's value on rows i*256.., columns j*1024... -/
theorem out1_apply (c : Dev nD) (Mbit : S8192x8192.Idx → BitVec 1) (bias : (⟨1, ![8192]⟩ : Shape).Idx → EReal)
    (hM : ∀ i : S8192x8192.Idx, (V c main_v4 : S8192x8192.Idx → BitVec 32) i = (Mbit i).setWidth 32)
    (hb : ∀ n : Fin 8192, (V c main_v3 : S1x8192.Idx → EReal) (ix2 (0 : Fin 1) n) = bias (ix1 n))
    (t : Fin cfg1.N) (h7 : t.val % 8 = 7) (p : Fin 256) (q : Fin 1024) :
    out1 V c t (ix2 p q) = G1 V c Mbit bias (ix2 (rowAt1 t p) (colAt1 t q)) := by
  unfold out1
  rw [pay3_1_apply, acc1_apply V c Mbit hM t.val t.isLt p q, bb1_apply, hb]
  rw [show (t.val % 8 + 1) * 1024 = 8192 from by omega, Cert.Spec.psum_full]
  rfl

/-! ## From the blocks to the array -/

/-- What a point with k = 7 writes back is its block of the layer's value. -/
theorem flushed1_eq (c : Dev nD) (Mbit : S8192x8192.Idx → BitVec 1) (bias : (⟨1, ![8192]⟩ : Shape).Idx → EReal)
    (hM : ∀ i : S8192x8192.Idx, (V c main_v4 : S8192x8192.Idx → BitVec 32) i = (Mbit i).setWidth 32)
    (hb : ∀ n : Fin 8192, (V c main_v3 : S1x8192.Idx → EReal) (ix2 (0 : Fin 1) n) = bias (ix1 n))
    (t : Fin cfg1.N) (hf : (cfg1.win 4).flush t = true) :
    (dat1 V c).flushed 4 t = ((cfg1.win 4).blk t).view.read (Elt Ideal) (G1 V c Mbit bias) := by
  have h7 : t.val % 8 = 7 := (flush1_4 t).mp hf
  show (cfg1.win 4).cut (grid1.coords t) ((dat1 V c).after 4 t) = _
  rw [after1_4]
  funext y
  obtain ⟨p, q, rfl⟩ : ∃ (p : Fin 256) (q : Fin 1024), y = ix2 p q := ⟨y 0, y 1, eq_ix2 (n0 := 256) (n1 := 1024) y⟩
  show out1 V c t (ix2 p q) = G1 V c Mbit bias (((cfg1.win 4).blk t).view.emb (ix2 p q))
  rw [out1_apply V c Mbit bias hM hb t h7 p q]
  refine congrArg _ (funext fun a => Fin.ext ?_)
  obtain ⟨-, -, -, -, -, -, -, -, e0, e1⟩ := blockIdx1 t
  match a with
  | ⟨0, _⟩ => show t.val / 64 * 256 + p.val = win1_4.index t (0 : Fin 2) * 256 + 1 * p.val; omega
  | ⟨1, _⟩ => show t.val / 8 % 8 * 1024 + q.val = win1_4.index t (1 : Fin 2) * 1024 + 1 * q.val; omega

/-- An index of the result array is in a point's block iff each coordinate is in the block's range on its axis. -/
theorem mem_block1 (t : Fin cfg1.N) (i : S2048x8192.Idx) :
    i ∈ ((cfg1.win 4).blk t).view.set ↔ ∀ a : Fin 2, win1_4.index t a * S256x1024.size a ≤ (i a).val ∧ (i a).val < win1_4.index t a * S256x1024.size a + S256x1024.size a := by
  show i ∈ ((View.whole main_v5).slice (win1_4.rect t)).set ↔ _
  rw [View.set_slice_whole, Rect.mem_set_unit]
  exact Iff.rfl

/-- The blocks written at the points with k = 7 tile the array: entry (r, n) is in the block of row block r / 256 and column
    block n / 1024. -/
theorem cover1 (i : S2048x8192.Idx) :
    ∃ t : Fin cfg1.N, (cfg1.win 4).flush t = true ∧ i ∈ ((cfg1.win 4).blk t).view.set := by
  have hr : (i 0).val < 2048 := (i 0).isLt
  have hc : (i 1).val < 8192 := (i 1).isLt
  have hlt : ((i 0).val / 256 * 8 + (i 1).val / 1024) * 8 + 7 < cfg1.N :=
    lt_of_lt_of_eq (by omega : ((i 0).val / 256 * 8 + (i 1).val / 1024) * 8 + 7 < 512) (show cfg1.N = 512 from N_1).symm
  obtain ⟨t, ht⟩ : ∃ t : Fin cfg1.N, t.val = ((i 0).val / 256 * 8 + (i 1).val / 1024) * 8 + 7 := ⟨⟨_, hlt⟩, rfl⟩
  refine ⟨t, (flush1_4 t).mpr (by omega), ?_⟩
  rw [mem_block1]
  obtain ⟨-, -, -, -, -, -, -, -, e0, e1⟩ := blockIdx1 t
  intro a
  match a with
  | ⟨0, _⟩ =>
    show win1_4.index t (0 : Fin 2) * 256 ≤ (i 0).val ∧ (i 0).val < win1_4.index t (0 : Fin 2) * 256 + 256
    omega
  | ⟨1, _⟩ =>
    show win1_4.index t (1 : Fin 2) * 1024 ≤ (i 1).val ∧ (i 1).val < win1_4.index t (1 : Fin 2) * 1024 + 1024
    omega

/-- The result array after the region: tanh of the masked linear layer of the arrays the region reads. -/
theorem final1 (c : Dev nD) (Mbit : S8192x8192.Idx → BitVec 1) (bias : (⟨1, ![8192]⟩ : Shape).Idx → EReal)
    (hM : ∀ i : S8192x8192.Idx, (V c main_v4 : S8192x8192.Idx → BitVec 32) i = (Mbit i).setWidth 32)
    (hb : ∀ n : Fin 8192, (V c main_v3 : S1x8192.Idx → EReal) (ix2 (0 : Fin 1) n) = bias (ix1 n)) :
    ((dat1 V c).arrAt 4 cfg1.N : S2048x8192.Idx → EReal)
      = Cert.Spec.act (Cert.Spec.lin (V c main_v2 : S2048x8192.Idx → EReal) (V c main_arg4 : S8192x8192.Idx → EReal) Mbit bias) :=
  (dat1 V c).arrAt_eq_of_cover 4 (G1 V c Mbit bias) (fun t hf => flushed1_eq V c Mbit bias hM hb t hf) cover1

end Cert.KernelIdeal.Hand

end
-- ==== Proof.KernelIdeal.Value2.lean ====
/-
  What the third layer's result array holds after its region, at the ideal instance, as one function of the arrays the
  region finds: the masked linear layer of the activations, the weights, the mask bits and the bias.

  Point t of the grid [8, 4, 8] is (i, j, k) = (t / 32, t / 8 % 4, t % 8): row block i, column block j, contraction block k.
  The block of activations read there is rows i*256 .. of contraction positions k*1024 .. ; the blocks of weights and of
  mask words are rows j*1024 .. (the output's columns) at the same contraction positions; the bias block is columns
  j*1024 .. ; the result block is rows i*256 .. , columns j*1024 .. .
  The accumulator after point t holds, at (p, q), the contraction's terms below position (k + 1) * 1024 summed, for row
  i*256 + p and column j*1024 + q: a block of 1024 terms is added at each point, starting from zero at k = 0. At k = 7
  that is the whole contraction, the bias is added, and the block is written back. The 32 blocks written back tile the
  array, so the array ends holding the layer.
-/
import proofs.«159617_j84035330113916_1_alg».proof.Proof.KernelIdeal.Region2
import proofs.«159617_j84035330113916_1_alg».proof.Proof.KernelIdeal.Pay
import proofs.«159617_j84035330113916_1_alg».proof.Proof.Spec
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-! ## Where a point's blocks sit -/

/-- The five windows' block indices at point t, decided over the grid's 256 points. -/
theorem blockIdx2 : ∀ t : Fin cfg2.N,
    win2_0.index t (0 : Fin 2) = t.val / 32 ∧ win2_0.index t (1 : Fin 2) = t.val % 8
    ∧ win2_1.index t (0 : Fin 2) = t.val / 8 % 4 ∧ win2_1.index t (1 : Fin 2) = t.val % 8
    ∧ win2_2.index t (0 : Fin 2) = 0 ∧ win2_2.index t (1 : Fin 2) = t.val / 8 % 4
    ∧ win2_3.index t (0 : Fin 2) = t.val / 8 % 4 ∧ win2_3.index t (1 : Fin 2) = t.val % 8
    ∧ win2_4.index t (0 : Fin 2) = t.val / 32 ∧ win2_4.index t (1 : Fin 2) = t.val / 8 % 4 :=
  (by decide +kernel : ∀ t : Fin grid2.N, _)

/-- The array's row under row p of the row block of point n. -/
def row2 (n : ℕ) (h : n < 256) (p : Fin 256) : Fin 2048 := ⟨n / 32 * 256 + p.val, by have := p.isLt; omega⟩
/-- The array's column under column q of the column block of point n. -/
def col2 (n : ℕ) (h : n < 256) (q : Fin 1024) : Fin 4096 := ⟨n / 8 % 4 * 1024 + q.val, by have := q.isLt; omega⟩
/-- The contraction position under position kk of the contraction block of point n. -/
def con2 (n : ℕ) (h : n < 256) (kk : Fin 1024) : Fin 8192 := ⟨n % 8 * 1024 + kk.val, by have := kk.isLt; omega⟩

theorem lt2 (t : Fin cfg2.N) : t.val < 256 := lt_of_lt_of_eq t.isLt N_2

/-! ## The blocks, read off the arrays -/

/-- The activations' block at point t is rows i*256 .. , contraction positions k*1024 .. of the activations. -/
theorem xb2_apply (c : Dev nD) (t : Fin cfg2.N) (p : Fin 256) (kk : Fin 1024) :
    xb2 V c t (ix2 p kk) = (V c main_v5 : S2048x8192.Idx → EReal) (ix2 (row2 t.val (lt2 t) p) (con2 t.val (lt2 t) kk)) := by
  obtain ⟨e0, e1, -⟩ := blockIdx2 t
  unfold xb2 iblk2
  rw [View.read_apply]
  show V c main_v5 (((cfg2.win 0).blk t).view.emb (ix2 p kk)) = V c main_v5 _
  refine congrArg (V c main_v5) (funext fun a => Fin.ext ?_)
  match a with
  | ⟨0, _⟩ => show win2_0.index t (0 : Fin 2) * 256 + 1 * p.val = t.val / 32 * 256 + p.val; rw [e0]; omega
  | ⟨1, _⟩ => show win2_0.index t (1 : Fin 2) * 1024 + 1 * kk.val = t.val % 8 * 1024 + kk.val; rw [e1]; omega

/-- The weights' block at point t is rows j*1024 .. (the output's columns), contraction positions k*1024 .. of the weights. -/
theorem wb2_apply (c : Dev nD) (t : Fin cfg2.N) (q : Fin 1024) (kk : Fin 1024) :
    wb2 V c t (ix2 q kk) = (V c main_arg7 : S4096x8192.Idx → EReal) (ix2 (col2 t.val (lt2 t) q) (con2 t.val (lt2 t) kk)) := by
  obtain ⟨-, -, e0, e1, -⟩ := blockIdx2 t
  unfold wb2 iblk2
  rw [View.read_apply]
  show V c main_arg7 (((cfg2.win 1).blk t).view.emb (ix2 q kk)) = V c main_arg7 _
  refine congrArg (V c main_arg7) (funext fun a => Fin.ext ?_)
  match a with
  | ⟨0, _⟩ => show win2_1.index t (0 : Fin 2) * 1024 + 1 * q.val = t.val / 8 % 4 * 1024 + q.val; rw [e0]; omega
  | ⟨1, _⟩ => show win2_1.index t (1 : Fin 2) * 1024 + 1 * kk.val = t.val % 8 * 1024 + kk.val; rw [e1]; omega

/-- The mask words' block at point t sits where the weights' block does. -/
theorem mb2_apply (c : Dev nD) (t : Fin cfg2.N) (q : Fin 1024) (kk : Fin 1024) :
    mb2 V c t (ix2 q kk) = (V c main_v7 : S4096x8192.Idx → BitVec 32) (ix2 (col2 t.val (lt2 t) q) (con2 t.val (lt2 t) kk)) := by
  obtain ⟨-, -, -, -, -, -, e0, e1, -⟩ := blockIdx2 t
  unfold mb2 iblk2
  rw [View.read_apply]
  show V c main_v7 (((cfg2.win 3).blk t).view.emb (ix2 q kk)) = V c main_v7 _
  refine congrArg (V c main_v7) (funext fun a => Fin.ext ?_)
  match a with
  | ⟨0, _⟩ => show win2_3.index t (0 : Fin 2) * 1024 + 1 * q.val = t.val / 8 % 4 * 1024 + q.val; rw [e0]; omega
  | ⟨1, _⟩ => show win2_3.index t (1 : Fin 2) * 1024 + 1 * kk.val = t.val % 8 * 1024 + kk.val; rw [e1]; omega

/-- The bias row's block at point t is columns j*1024 .. of the bias row. -/
theorem bb2_apply (c : Dev nD) (t : Fin cfg2.N) (q : Fin 1024) :
    bb2 V c t (ix2 (0 : Fin 1) q) = (V c main_v6 : S1x4096.Idx → EReal) (ix2 (0 : Fin 1) (col2 t.val (lt2 t) q)) := by
  obtain ⟨-, -, -, -, e0, e1, -⟩ := blockIdx2 t
  unfold bb2 iblk2
  rw [View.read_apply]
  show V c main_v6 (((cfg2.win 2).blk t).view.emb (ix2 (0 : Fin 1) q)) = V c main_v6 _
  refine congrArg (V c main_v6) (funext fun a => Fin.ext ?_)
  match a with
  | ⟨0, _⟩ => show win2_2.index t (0 : Fin 2) * 1 + 1 * 0 = 0; rw [e0]
  | ⟨1, _⟩ => show win2_2.index t (1 : Fin 2) * 1024 + 1 * q.val = t.val / 8 % 4 * 1024 + q.val; rw [e1]; omega

/-! ## The accumulator -/

/-- The mask bits under the mask block of point n. -/
def mbit2 (Mbit : S4096x8192.Idx → BitVec 1) (n : ℕ) (h : n < 256) : S1024x1024.Idx → BitVec 1 :=
  fun i => Mbit (ix2 (col2 n h (i 0)) (con2 n h (i 1)))

/-- After point n the accumulator holds, at (p, q), the terms of row i*256 + p and column j*1024 + q below contraction
    position (k + 1) * 1024, summed: zero plus the first block of terms at k = 0, the next block added to what the point
    before left otherwise (that point has the same row and column blocks and the contraction block before). -/
theorem acc2_apply (c : Dev nD) (Mbit : S4096x8192.Idx → BitVec 1)
    (hM : ∀ i : S4096x8192.Idx, (V c main_v7 : S4096x8192.Idx → BitVec 32) i = (Mbit i).setWidth 32) :
    ∀ (n : ℕ) (h : n < cfg2.N) (p : Fin 256) (q : Fin 1024),
      acc2 V c n h (ix2 p q)
        = Cert.Spec.psum (fun κ : Fin 8192 => Cert.Spec.term (V c main_v5 : S2048x8192.Idx → EReal) (V c main_arg7 : S4096x8192.Idx → EReal) Mbit
            (row2 n (lt_of_lt_of_eq h N_2) p) (col2 n (lt_of_lt_of_eq h N_2) q) κ) ((n % 8 + 1) * 1024) := by
  intro n
  induction n using Nat.strong_induction_on with
  | _ n ih =>
    intro h p q
    have hN : n < 256 := lt_of_lt_of_eq h N_2
    have hle : (n % 8 + 1) * 1024 ≤ 8192 := by omega
    rw [Cert.Spec.psum_succ (B := 1024) _ (n % 8) hle]
    -- this point's update: its block of 1024 terms added
    have hblk : ∀ s : Vec Ideal S256x1024 .f32,
        k2_pay2 (F := Ideal) (xb2 V c ⟨n, h⟩) (wb2 V c ⟨n, h⟩) (mb2 V c ⟨n, h⟩) s (ix2 p q)
          = s (ix2 p q) + ∑ kk : Fin 1024, Cert.Spec.term (V c main_v5 : S2048x8192.Idx → EReal) (V c main_arg7 : S4096x8192.Idx → EReal) Mbit
              (row2 n hN p) (col2 n hN q) ⟨n % 8 * 1024 + kk.val, by have := kk.isLt; omega⟩ := by
      intro s
      rw [pay2_2_apply (xb2 V c ⟨n, h⟩) (wb2 V c ⟨n, h⟩) (mb2 V c ⟨n, h⟩) s (mbit2 Mbit n hN) (fun i => by
        obtain ⟨q', kk, rfl⟩ : ∃ (q' : Fin 1024) (kk : Fin 1024), i = ix2 q' kk := ⟨i 0, i 1, eq_ix2 i⟩
        rw [mb2_apply, hM]; rfl) p q]
      refine congrArg (s (ix2 p q) + ·) (Finset.sum_congr rfl fun kk _ => ?_)
      rw [xb2_apply, wb2_apply]; rfl
    by_cases h0 : n % 8 = 0
    · rw [acc2_first V c ⟨n, h⟩ h0, hblk, pay1_2_apply,
        show Cert.Spec.psum _ (n % 8 * 1024) = 0 from by rw [h0, Nat.zero_mul]; exact Cert.Spec.psum_zero _]
    · have h1 : n - 1 < cfg2.N := Nat.lt_of_le_of_lt (Nat.sub_le _ _) h
      have hprev := ih (n - 1) (by omega) h1 p q
      have er : ∀ hh, row2 (n - 1) hh p = row2 n hN p := fun hh => Fin.ext (by
        show (n - 1) / 32 * 256 + p.val = n / 32 * 256 + p.val; omega)
      have ec : ∀ hh, col2 (n - 1) hh q = col2 n hN q := fun hh => Fin.ext (by
        show (n - 1) / 8 % 4 * 1024 + q.val = n / 8 % 4 * 1024 + q.val; omega)
      have ek : ((n - 1) % 8 + 1) * 1024 = n % 8 * 1024 := by omega
      rw [er, ec, ek] at hprev
      rw [acc2_next V c ⟨n, h⟩ h0, hblk]
      exact congrArg (· + _) hprev

/-! ## The finished block -/

/-- At a point with k = 7 the block stored into the result window is, at (p, q), the layer at row i*256 + p and column
    j*1024 + q: the accumulator there is the whole contraction, and the bias entry of that column is added. -/
theorem out2_apply (c : Dev nD) (Mbit : S4096x8192.Idx → BitVec 1) (bias : (⟨1, ![4096]⟩ : Shape).Idx → EReal)
    (hM : ∀ i : S4096x8192.Idx, (V c main_v7 : S4096x8192.Idx → BitVec 32) i = (Mbit i).setWidth 32)
    (hb : ∀ n : Fin 4096, (V c main_v6 : S1x4096.Idx → EReal) (ix2 (0 : Fin 1) n) = bias (ix1 n))
    (t : Fin cfg2.N) (hk : t.val % 8 = 7) (p : Fin 256) (q : Fin 1024) :
    out2 V c t (ix2 p q)
      = Cert.Spec.lin (V c main_v5 : S2048x8192.Idx → EReal) (V c main_arg7 : S4096x8192.Idx → EReal) Mbit bias
          (ix2 (row2 t.val (lt2 t) p) (col2 t.val (lt2 t) q)) := by
  unfold out2
  rw [pay3_2_apply, acc2_apply V c Mbit hM t.val t.isLt p q, bb2_apply, hb, Cert.Spec.lin_apply,
    show (t.val % 8 + 1) * 1024 = 8192 from by omega, Cert.Spec.psum_full]

/-! ## From the blocks to the array -/

/-- What a point with k = 7 writes back is its block of the layer. -/
theorem flushed2_eq (c : Dev nD) (Mbit : S4096x8192.Idx → BitVec 1) (bias : (⟨1, ![4096]⟩ : Shape).Idx → EReal)
    (hM : ∀ i : S4096x8192.Idx, (V c main_v7 : S4096x8192.Idx → BitVec 32) i = (Mbit i).setWidth 32)
    (hb : ∀ n : Fin 4096, (V c main_v6 : S1x4096.Idx → EReal) (ix2 (0 : Fin 1) n) = bias (ix1 n))
    (t : Fin cfg2.N) (hf : (cfg2.win 4).flush t = true) :
    (dat2 V c).flushed 4 t = ((cfg2.win 4).blk t).view.read (Elt Ideal)
      (Cert.Spec.lin (V c main_v5 : S2048x8192.Idx → EReal) (V c main_arg7 : S4096x8192.Idx → EReal) Mbit bias) := by
  have hk : t.val % 8 = 7 := (flush2_4 t).mp hf
  obtain ⟨-, -, -, -, -, -, -, -, e0, e1⟩ := blockIdx2 t
  show (cfg2.win 4).cut (grid2.coords t) ((dat2 V c).after 4 t) = _
  rw [after2_4]
  funext y
  obtain ⟨p, q, rfl⟩ : ∃ (p : Fin 256) (q : Fin 1024), y = ix2 p q := ⟨y 0, y 1, eq_ix2 (n0 := 256) (n1 := 1024) y⟩
  show out2 V c t (ix2 p q) = Cert.Spec.lin (V c main_v5 : S2048x8192.Idx → EReal) (V c main_arg7 : S4096x8192.Idx → EReal) Mbit bias
    (((cfg2.win 4).blk t).view.emb (ix2 p q))
  rw [out2_apply V c Mbit bias hM hb t hk p q]
  refine congrArg (Cert.Spec.lin (V c main_v5 : S2048x8192.Idx → EReal) (V c main_arg7 : S4096x8192.Idx → EReal) Mbit bias)
    (funext fun a => Fin.ext ?_)
  match a with
  | ⟨0, _⟩ => show t.val / 32 * 256 + p.val = win2_4.index t (0 : Fin 2) * 256 + 1 * p.val; rw [e0]; omega
  | ⟨1, _⟩ => show t.val / 8 % 4 * 1024 + q.val = win2_4.index t (1 : Fin 2) * 1024 + 1 * q.val; rw [e1]; omega

/-- An index of the result array is in point t's block iff each coordinate is in the block's range on its axis. -/
theorem mem_blk2_4 (t : Fin cfg2.N) (i : S2048x4096.Idx) :
    i ∈ ((cfg2.win 4).blk t).view.set ↔ ∀ a : Fin 2, win2_4.index t a * S256x1024.size a ≤ (i a).val
      ∧ (i a).val < win2_4.index t a * S256x1024.size a + S256x1024.size a := by
  show i ∈ ((View.whole main_v8).slice (win2_4.rect t)).set ↔ _
  rw [View.set_slice_whole, Rect.mem_set_unit]
  exact Iff.rfl

/-- Every index (r, n) of the result array is in the block written back at the point (r / 256, n / 1024, 7). -/
theorem cover2_4 (i : S2048x4096.Idx) :
    ∃ t : Fin cfg2.N, (cfg2.win 4).flush t = true ∧ i ∈ ((cfg2.win 4).blk t).view.set := by
  have h0 : (i 0).val < 2048 := (i 0).isLt
  have h1 : (i 1).val < 4096 := (i 1).isLt
  have ht : ((i 0).val / 256 * 4 + (i 1).val / 1024) * 8 + 7 < cfg2.N := by rw [show cfg2.N = 256 from N_2]; omega
  obtain ⟨-, -, -, -, -, -, -, -, e0, e1⟩ := blockIdx2 ⟨((i 0).val / 256 * 4 + (i 1).val / 1024) * 8 + 7, ht⟩
  have e0' : win2_4.index ⟨((i 0).val / 256 * 4 + (i 1).val / 1024) * 8 + 7, ht⟩ (0 : Fin 2)
      = (((i 0).val / 256 * 4 + (i 1).val / 1024) * 8 + 7) / 32 := e0
  have e1' : win2_4.index ⟨((i 0).val / 256 * 4 + (i 1).val / 1024) * 8 + 7, ht⟩ (1 : Fin 2)
      = (((i 0).val / 256 * 4 + (i 1).val / 1024) * 8 + 7) / 8 % 4 := e1
  refine ⟨⟨((i 0).val / 256 * 4 + (i 1).val / 1024) * 8 + 7, ht⟩, (flush2_4 _).mpr ?_, ?_⟩
  · show (((i 0).val / 256 * 4 + (i 1).val / 1024) * 8 + 7) % 8 = 7; omega
  · rw [mem_blk2_4]
    intro a
    match a with
    | ⟨0, _⟩ =>
      show win2_4.index ⟨((i 0).val / 256 * 4 + (i 1).val / 1024) * 8 + 7, ht⟩ (0 : Fin 2) * 256 ≤ (i 0).val
        ∧ (i 0).val < win2_4.index ⟨((i 0).val / 256 * 4 + (i 1).val / 1024) * 8 + 7, ht⟩ (0 : Fin 2) * 256 + 256
      rw [e0']; omega
    | ⟨1, _⟩ =>
      show win2_4.index ⟨((i 0).val / 256 * 4 + (i 1).val / 1024) * 8 + 7, ht⟩ (1 : Fin 2) * 1024 ≤ (i 1).val
        ∧ (i 1).val < win2_4.index ⟨((i 0).val / 256 * 4 + (i 1).val / 1024) * 8 + 7, ht⟩ (1 : Fin 2) * 1024 + 1024
      rw [e1']; omega

/-- The result array after the region is the masked linear layer of the activations, the weights, the mask bits and the
    bias: every block written back is its block of the layer, and the blocks written back cover the array. -/
theorem final2 (c : Dev nD) (Mbit : S4096x8192.Idx → BitVec 1) (bias : (⟨1, ![4096]⟩ : Shape).Idx → EReal)
    (hM : ∀ i : S4096x8192.Idx, (V c main_v7 : S4096x8192.Idx → BitVec 32) i = (Mbit i).setWidth 32)
    (hb : ∀ n : Fin 4096, (V c main_v6 : S1x4096.Idx → EReal) (ix2 (0 : Fin 1) n) = bias (ix1 n)) :
    ((dat2 V c).arrAt 4 cfg2.N : S2048x4096.Idx → EReal)
      = Cert.Spec.lin (V c main_v5 : S2048x8192.Idx → EReal) (V c main_arg7 : S4096x8192.Idx → EReal) Mbit bias :=
  (dat2 V c).arrAt_eq_of_cover 4
    (Cert.Spec.lin (V c main_v5 : S2048x8192.Idx → EReal) (V c main_arg7 : S4096x8192.Idx → EReal) Mbit bias)
    (fun t hf => flushed2_eq V c Mbit bias hM hb t hf) cover2_4

end Cert.KernelIdeal.Hand

end
-- ==== Proof.Bridge.lean ====
/-
  The kernel's program computes the three-layer network of Spec: each region's result array is the masked linear
  layer of what it reads (final0, final1, final2), and what a region reads is fixed by the items before it — the host
  stretch before each region reshapes the bias vector into a row and widens the Boolean mask to 32-bit words, the weights
  are the launch arrays, and the activations are the launch array (layer 1) or the previous region's result (layers 2, 3).
-/
import proofs.«159617_j84035330113916_1_alg».proof.Proof.KernelIdeal.Run
import proofs.«159617_j84035330113916_1_alg».proof.Proof.KernelIdeal.Value0
import proofs.«159617_j84035330113916_1_alg».proof.Proof.KernelIdeal.Value1
import proofs.«159617_j84035330113916_1_alg».proof.Proof.KernelIdeal.Value2
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-! ## What layer 1 reads -/

theorem V1_arg0 (c : Dev nD) : V1 m c main_arg0 = m ((c : Thread nD τ).loc main_arg0) :=
  (StableHlo.after_of_writes_sub hostOps0 _ hostOps0_writes (by decide)).trans rfl
theorem V1_arg1 (c : Dev nD) : V1 m c main_arg1 = m ((c : Thread nD τ).loc main_arg1) :=
  (StableHlo.after_of_writes_sub hostOps0 _ hostOps0_writes (by decide)).trans rfl
theorem V1_v0 (c : Dev nD) :
    (V1 m c main_v0 : S1x8192.Idx → EReal) = shapeCast S1x8192 (m ((c : Thread nD τ).loc main_arg2)) shapeCasts_S8192_S1x8192 := by
  show StableHlo.after hostOps0 (fun b => m (c, b)) (Proc.devRef .tc main_v0) = _
  after_results
  rfl
theorem V1_v1 (c : Dev nD) :
    (V1 m c main_v1 : S8192x4096.Idx → BitVec 32) = extui 32 (m ((c : Thread nD τ).loc main_arg3)) natLt_1_32 := by
  show StableHlo.after hostOps0 (fun b => m (c, b)) (Proc.devRef .tc main_v1) = _
  after_results

theorem hb1 (c : Dev nD) (n : Fin 8192) :
    (V1 m c main_v0 : S1x8192.Idx → EReal) (ix2 (0 : Fin 1) n) = (m ((c : Thread nD τ).loc main_arg2) : S8192.Idx → EReal) (ix1 n) := by
  rw [V1_v0]; exact shapeCast_a_1a_apply _ _ _ _
theorem hM1 (c : Dev nD) (i : S8192x4096.Idx) :
    (V1 m c main_v1 : S8192x4096.Idx → BitVec 32) i = ((m ((c : Thread nD τ).loc main_arg3) : S8192x4096.Idx → BitVec 1) i).setWidth 32 := by
  rw [V1_v1]; rfl

/-! ## What layer 2 reads -/
theorem V3_v2 (c : Dev nD) : V3 m c main_v2 = (dat0 (V1 m) c).arrAt 4 cfg0.N :=
  (StableHlo.after_of_writes_sub hostOps1 _ hostOps1_writes (by decide)).trans (W2_arr m c 4)
theorem V3_arg4 (c : Dev nD) : V3 m c main_arg4 = m ((c : Thread nD τ).loc main_arg4) :=
  (StableHlo.after_of_writes_sub hostOps1 _ hostOps1_writes (by decide)).trans <|
    (W2_keep m c main_arg4 (by decide)).trans <| (StableHlo.after_of_writes_sub hostOps0 _ hostOps0_writes (by decide)).trans rfl
theorem W2_arg5 (c : Dev nD) : W2 m c (Proc.devRef .tc main_arg5) = m ((c : Thread nD τ).loc main_arg5) :=
  (W2_keep m c main_arg5 (by decide)).trans <| (StableHlo.after_of_writes_sub hostOps0 _ hostOps0_writes (by decide)).trans rfl
theorem W2_arg6 (c : Dev nD) : W2 m c (Proc.devRef .tc main_arg6) = m ((c : Thread nD τ).loc main_arg6) :=
  (W2_keep m c main_arg6 (by decide)).trans <| (StableHlo.after_of_writes_sub hostOps0 _ hostOps0_writes (by decide)).trans rfl
theorem V3_v3 (c : Dev nD) :
    (V3 m c main_v3 : S1x8192.Idx → EReal) = shapeCast S1x8192 (m ((c : Thread nD τ).loc main_arg5)) shapeCasts_S8192_S1x8192 := by
  rw [← W2_arg5 m c]
  show StableHlo.after hostOps1 (W2 m c) (Proc.devRef .tc main_v3) = _
  after_results
  rfl
theorem V3_v4 (c : Dev nD) :
    (V3 m c main_v4 : S8192x8192.Idx → BitVec 32) = extui 32 (m ((c : Thread nD τ).loc main_arg6)) natLt_1_32 := by
  rw [← W2_arg6 m c]
  show StableHlo.after hostOps1 (W2 m c) (Proc.devRef .tc main_v4) = _
  after_results

theorem hb2 (c : Dev nD) (n : Fin 8192) :
    (V3 m c main_v3 : S1x8192.Idx → EReal) (ix2 (0 : Fin 1) n) = (m ((c : Thread nD τ).loc main_arg5) : S8192.Idx → EReal) (ix1 n) := by
  rw [V3_v3]; exact shapeCast_a_1a_apply _ _ _ _
theorem hM2 (c : Dev nD) (i : S8192x8192.Idx) :
    (V3 m c main_v4 : S8192x8192.Idx → BitVec 32) i = ((m ((c : Thread nD τ).loc main_arg6) : S8192x8192.Idx → BitVec 1) i).setWidth 32 := by
  rw [V3_v4]; rfl

/-! ## What layer 3 reads -/

/-- A buffer the first two host stretches do not write and the first two regions' results do not land in holds its
    launch contents when the third host stretch begins. -/
theorem W4_launch (c : Dev nD) (r : Ref sig .tc) (h0 : r ∉ hostOps0_W) (h1 : r ≠ main_v2) (h2 : r ∉ hostOps1_W) (h3 : r ≠ main_v5) :
    W4 m c (Proc.devRef .tc r) = m ((c : Thread nD τ).loc r) :=
  (W4_keep m c r h3).trans <| (StableHlo.after_of_writes_sub hostOps1 _ hostOps1_writes h2).trans <|
    (W2_keep m c r h1).trans <| (StableHlo.after_of_writes_sub hostOps0 _ hostOps0_writes h0).trans rfl
theorem V5_v5 (c : Dev nD) : V5 m c main_v5 = (dat1 (V3 m) c).arrAt 4 cfg1.N :=
  (StableHlo.after_of_writes_sub hostOps2 _ hostOps2_writes (by decide)).trans (W4_arr m c 4)
theorem V5_arg7 (c : Dev nD) : V5 m c main_arg7 = m ((c : Thread nD τ).loc main_arg7) :=
  (StableHlo.after_of_writes_sub hostOps2 _ hostOps2_writes (by decide)).trans
    (W4_launch m c main_arg7 (by decide) (by decide) (by decide) (by decide))
theorem V5_v6 (c : Dev nD) :
    (V5 m c main_v6 : S1x4096.Idx → EReal) = shapeCast S1x4096 (m ((c : Thread nD τ).loc main_arg8)) shapeCasts_S4096_S1x4096 := by
  rw [← W4_launch m c main_arg8 (by decide) (by decide) (by decide) (by decide)]
  show StableHlo.after hostOps2 (W4 m c) (Proc.devRef .tc main_v6) = _
  after_results
  rfl
theorem V5_v7 (c : Dev nD) :
    (V5 m c main_v7 : S4096x8192.Idx → BitVec 32) = extui 32 (m ((c : Thread nD τ).loc main_arg9)) natLt_1_32 := by
  rw [← W4_launch m c main_arg9 (by decide) (by decide) (by decide) (by decide)]
  show StableHlo.after hostOps2 (W4 m c) (Proc.devRef .tc main_v7) = _
  after_results
theorem hb3 (c : Dev nD) (n : Fin 4096) :
    (V5 m c main_v6 : S1x4096.Idx → EReal) (ix2 (0 : Fin 1) n) = (m ((c : Thread nD τ).loc main_arg8) : S4096.Idx → EReal) (ix1 n) := by
  rw [V5_v6]; exact shapeCast_a_1a_apply _ _ _ _
theorem hM3 (c : Dev nD) (i : S4096x8192.Idx) :
    (V5 m c main_v7 : S4096x8192.Idx → BitVec 32) i = ((m ((c : Thread nD τ).loc main_arg9) : S4096x8192.Idx → BitVec 1) i).setWidth 32 := by
  rw [V5_v7]; rfl

/-! ## The whole network -/

/-- The last region's result array is the network of the launch arrays. -/
theorem kernel_net (c : Dev nD) :
    ((dat2 (V5 m) c).arrAt 4 cfg2.N : S2048x4096.Idx → EReal)
      = Cert.Spec.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  have h0 := final0 (V1 m) c (m ((c : Thread nD τ).loc main_arg3)) (m ((c : Thread nD τ).loc main_arg2)) (hM1 m c) (hb1 m c)
  rw [V1_arg0, V1_arg1] at h0
  have h1 := final1 (V3 m) c (m ((c : Thread nD τ).loc main_arg6)) (m ((c : Thread nD τ).loc main_arg5)) (hM2 m c) (hb2 m c)
  rw [V3_v2, h0, V3_arg4] at h1
  have h2 := final2 (V5 m) c (m ((c : Thread nD τ).loc main_arg9)) (m ((c : Thread nD τ).loc main_arg8)) (hM3 m c) (hb3 m c)
  rw [V5_v5, h1, V5_arg7] at h2
  unfold Cert.Spec.net
  exact h2

end Cert.KernelIdeal.Hand

end
-- ==== Proof.RefValue.lean ====
/-
  The reference program computes the three masked linear layers of Spec.net.
  Each layer of the reference is: the mask read as a number, times the weights, transposed, contracted with the
  activations over the shared axis, plus the bias repeated along the rows; tanh follows the first two layers.
  Entry (r, n) of one layer is therefore (sum over κ of X(r, κ) * (W(n, κ) * mask(n, κ))) + b(n), which is Spec.lin.
-/
import proofs.«159617_j84035330113916_1_alg».proof.Proof.Gen.ReferenceIdeal.Read
import proofs.«159617_j84035330113916_1_alg».proof.Proof.Spec

noncomputable section

open scoped BigOperators

namespace Cert.ReferenceIdeal.RefValue

open Cert.ReferenceIdeal Cert.ReferenceIdeal.Read Idealize.ShloMosaic Idealize.ShloMosaic.ValueIdx Idealize.ShloMosaic.StableHlo

/-- The first layer before its tanh, at entry (r, n). -/
theorem pre1_apply (x0 : (⟨S2048x4096, .f32⟩ : BufTy).Contents (Elt Ideal)) (x1 : (⟨S8192x4096, .f32⟩ : BufTy).Contents (Elt Ideal)) (x2 : (⟨S8192, .f32⟩ : BufTy).Contents (Elt Ideal)) (x3 : (⟨S8192x4096, .i1⟩ : BufTy).Contents (Elt Ideal)) (r : Fin 2048) (n : Fin 8192) :
    val_main_v6 (F := Ideal) x0 x1 x2 x3 (ix2 r n) = Cert.Spec.lin x0 x1 x3 x2 (ix2 r n) := by
  rw [val_main_v6_apply, val_main_v3_apply, val_main_v5_apply, val_main_v4_apply, Cert.Spec.lin_apply, Ideal.addf_def]
  have eb : idx_main_v4 (idx_main_v5 (ix2 r n)) = ix1 n := funext fun a => Fin.ext (by match a with | ⟨0, _⟩ => rfl)
  rw [eb]
  congr 1
  refine Finset.sum_congr rfl fun k _ => ?_
  rw [val_main_v2_apply, val_main_v1_apply, val_main_v0_apply]
  have el : lidx_main_v3 (ix2 r n) k = ix2 r k := funext fun a => Fin.ext (by match a with | ⟨0, _⟩ => rfl | ⟨1, _⟩ => rfl)
  have er : idx_main_v2 (ridx_main_v3 (ix2 r n) k) = ix2 n k := funext fun a => Fin.ext (by match a with | ⟨0, _⟩ => rfl | ⟨1, _⟩ => rfl)
  rw [el, er]
  rfl

/-- The first layer. -/
theorem layer1 (x0 : (⟨S2048x4096, .f32⟩ : BufTy).Contents (Elt Ideal)) (x1 : (⟨S8192x4096, .f32⟩ : BufTy).Contents (Elt Ideal)) (x2 : (⟨S8192, .f32⟩ : BufTy).Contents (Elt Ideal)) (x3 : (⟨S8192x4096, .i1⟩ : BufTy).Contents (Elt Ideal)) :
    val_main_v7 (F := Ideal) x0 x1 x2 x3 = Cert.Spec.act (Cert.Spec.lin x0 x1 x3 x2) := by
  funext i
  obtain ⟨r, n, rfl⟩ : ∃ (r : Fin 2048) (n : Fin 8192), i = ix2 r n := ⟨i 0, i 1, eq_ix2 i⟩
  rw [val_main_v7_apply, Ideal.hostUnary_tanh_def, pre1_apply]
  rfl

/-- The second layer before its tanh, at entry (r, n), over the first layer's result whatever it is. -/
theorem pre2_apply (x0 : (⟨S2048x4096, .f32⟩ : BufTy).Contents (Elt Ideal)) (x1 : (⟨S8192x4096, .f32⟩ : BufTy).Contents (Elt Ideal)) (x2 : (⟨S8192, .f32⟩ : BufTy).Contents (Elt Ideal)) (x3 : (⟨S8192x4096, .i1⟩ : BufTy).Contents (Elt Ideal)) (x4 : (⟨S8192x8192, .f32⟩ : BufTy).Contents (Elt Ideal)) (x5 : (⟨S8192, .f32⟩ : BufTy).Contents (Elt Ideal)) (x6 : (⟨S8192x8192, .i1⟩ : BufTy).Contents (Elt Ideal)) (r : Fin 2048) (n : Fin 8192) :
    val_main_v14 (F := Ideal) x0 x1 x2 x3 x4 x5 x6 (ix2 r n)
      = Cert.Spec.lin (val_main_v7 (F := Ideal) x0 x1 x2 x3) x4 x6 x5 (ix2 r n) := by
  rw [val_main_v14_apply, val_main_v11_apply, val_main_v13_apply, val_main_v12_apply, Cert.Spec.lin_apply, Ideal.addf_def]
  generalize val_main_v7 (F := Ideal) x0 x1 x2 x3 = h1
  have eb : idx_main_v12 (idx_main_v13 (ix2 r n)) = ix1 n := funext fun a => Fin.ext (by match a with | ⟨0, _⟩ => rfl)
  rw [eb]
  congr 1
  refine Finset.sum_congr rfl fun k _ => ?_
  rw [val_main_v10_apply, val_main_v9_apply, val_main_v8_apply]
  have el : lidx_main_v11 (ix2 r n) k = ix2 r k := funext fun a => Fin.ext (by match a with | ⟨0, _⟩ => rfl | ⟨1, _⟩ => rfl)
  have er : idx_main_v10 (ridx_main_v11 (ix2 r n) k) = ix2 n k := funext fun a => Fin.ext (by match a with | ⟨0, _⟩ => rfl | ⟨1, _⟩ => rfl)
  rw [el, er]
  rfl

/-- The second layer, over the first. -/
theorem layer2 (x0 : (⟨S2048x4096, .f32⟩ : BufTy).Contents (Elt Ideal)) (x1 : (⟨S8192x4096, .f32⟩ : BufTy).Contents (Elt Ideal)) (x2 : (⟨S8192, .f32⟩ : BufTy).Contents (Elt Ideal)) (x3 : (⟨S8192x4096, .i1⟩ : BufTy).Contents (Elt Ideal)) (x4 : (⟨S8192x8192, .f32⟩ : BufTy).Contents (Elt Ideal)) (x5 : (⟨S8192, .f32⟩ : BufTy).Contents (Elt Ideal)) (x6 : (⟨S8192x8192, .i1⟩ : BufTy).Contents (Elt Ideal)) :
    val_main_v15 (F := Ideal) x0 x1 x2 x3 x4 x5 x6
      = Cert.Spec.act (Cert.Spec.lin (val_main_v7 (F := Ideal) x0 x1 x2 x3) x4 x6 x5) := by
  funext i
  obtain ⟨r, n, rfl⟩ : ∃ (r : Fin 2048) (n : Fin 8192), i = ix2 r n := ⟨i 0, i 1, eq_ix2 i⟩
  rw [val_main_v15_apply, Ideal.hostUnary_tanh_def, pre2_apply]
  rfl

/-- The third layer at entry (r, n), over the second layer's result whatever it is. -/
theorem pre3_apply (x0 : (⟨S2048x4096, .f32⟩ : BufTy).Contents (Elt Ideal)) (x1 : (⟨S8192x4096, .f32⟩ : BufTy).Contents (Elt Ideal)) (x2 : (⟨S8192, .f32⟩ : BufTy).Contents (Elt Ideal)) (x3 : (⟨S8192x4096, .i1⟩ : BufTy).Contents (Elt Ideal)) (x4 : (⟨S8192x8192, .f32⟩ : BufTy).Contents (Elt Ideal)) (x5 : (⟨S8192, .f32⟩ : BufTy).Contents (Elt Ideal)) (x6 : (⟨S8192x8192, .i1⟩ : BufTy).Contents (Elt Ideal)) (x7 : (⟨S4096x8192, .f32⟩ : BufTy).Contents (Elt Ideal)) (x8 : (⟨S4096, .f32⟩ : BufTy).Contents (Elt Ideal)) (x9 : (⟨S4096x8192, .i1⟩ : BufTy).Contents (Elt Ideal)) (r : Fin 2048) (n : Fin 4096) :
    val_main_v22 (F := Ideal) x0 x1 x2 x3 x4 x5 x6 x7 x8 x9 (ix2 r n)
      = Cert.Spec.lin (val_main_v15 (F := Ideal) x0 x1 x2 x3 x4 x5 x6) x7 x9 x8 (ix2 r n) := by
  rw [val_main_v22_apply, val_main_v19_apply, val_main_v21_apply, val_main_v20_apply, Cert.Spec.lin_apply, Ideal.addf_def]
  generalize val_main_v15 (F := Ideal) x0 x1 x2 x3 x4 x5 x6 = h2
  have eb : idx_main_v20 (idx_main_v21 (ix2 r n)) = ix1 n := funext fun a => Fin.ext (by match a with | ⟨0, _⟩ => rfl)
  rw [eb]
  congr 1
  refine Finset.sum_congr rfl fun k _ => ?_
  rw [val_main_v18_apply, val_main_v17_apply, val_main_v16_apply]
  have el : lidx_main_v19 (ix2 r n) k = ix2 r k := funext fun a => Fin.ext (by match a with | ⟨0, _⟩ => rfl | ⟨1, _⟩ => rfl)
  have er : idx_main_v18 (ridx_main_v19 (ix2 r n) k) = ix2 n k := funext fun a => Fin.ext (by match a with | ⟨0, _⟩ => rfl | ⟨1, _⟩ => rfl)
  rw [el, er]
  rfl

/-- The reference program computes the three-layer network. -/
theorem ref_net (x0 : (⟨S2048x4096, .f32⟩ : BufTy).Contents (Elt Ideal)) (x1 : (⟨S8192x4096, .f32⟩ : BufTy).Contents (Elt Ideal)) (x2 : (⟨S8192, .f32⟩ : BufTy).Contents (Elt Ideal)) (x3 : (⟨S8192x4096, .i1⟩ : BufTy).Contents (Elt Ideal)) (x4 : (⟨S8192x8192, .f32⟩ : BufTy).Contents (Elt Ideal)) (x5 : (⟨S8192, .f32⟩ : BufTy).Contents (Elt Ideal)) (x6 : (⟨S8192x8192, .i1⟩ : BufTy).Contents (Elt Ideal)) (x7 : (⟨S4096x8192, .f32⟩ : BufTy).Contents (Elt Ideal)) (x8 : (⟨S4096, .f32⟩ : BufTy).Contents (Elt Ideal)) (x9 : (⟨S4096x8192, .i1⟩ : BufTy).Contents (Elt Ideal)) :
    Cert.ReferenceIdeal.Read.val_main_v22 (F := Ideal) x0 x1 x2 x3 x4 x5 x6 x7 x8 x9 = Cert.Spec.net x0 x1 x2 x3 x4 x5 x6 x7 x8 x9 := by
  funext i
  obtain ⟨r, n, rfl⟩ : ∃ (r : Fin 2048) (n : Fin 4096), i = ix2 r n := ⟨i 0, i 1, eq_ix2 i⟩
  rw [pre3_apply, layer2, layer1]
  rfl

end Cert.ReferenceIdeal.RefValue

end
-- ==== Proof.lean ====
/-
  Three masked linear layers, y = act(x · (W ∘ mask)ᵀ + b) with act = tanh, tanh, identity, computed by three pipelined
  kernels that accumulate the contraction in blocks of 1024 in a scratch buffer, against the plain jnp expression.
  Over the extended reals the two are one function (Spec.net): a blocked sum is the whole sum in any commutative
  monoid, the mask bit is 0 or 1 on both sides, and a change of float format is the identity; no law that needs
  finite inputs is used, so the precondition is never opened.
  Frames: each kernel program runs as its three regions between short host stretches (Kernel/Run, KernelIdeal/Run);
  the reference is its generated run. The ideal pass rewrote nothing, so the idealization claim is trivial.
-/
import proofs.«159617_j84035330113916_1_alg».proof.Defs
import proofs.«159617_j84035330113916_1_alg».proof.Proof.Gen.Kernel
import proofs.«159617_j84035330113916_1_alg».proof.Proof.Gen.KernelIdeal
import proofs.«159617_j84035330113916_1_alg».proof.Proof.Gen.ReferenceIdeal
import proofs.«159617_j84035330113916_1_alg».proof.Proof.Gen.ReferenceIdeal.Run
import proofs.«159617_j84035330113916_1_alg».proof.Proof.Gen.ReferenceIdeal.Read
import proofs.«159617_j84035330113916_1_alg».proof.Proof.Gen.Pre_finite_inputs
import proofs.«159617_j84035330113916_1_alg».proof.Proof.Kernel.Run
import proofs.«159617_j84035330113916_1_alg».proof.Proof.Bridge
import proofs.«159617_j84035330113916_1_alg».proof.Proof.RefValue

noncomputable section

namespace Cert.Proof

open Idealize.ShloMosaic Idealize.SL.Sem

/-- The word-level kernel program runs to the end and leaves its arguments as launched. -/
theorem frame_k : Cert.frame_Kernel := fun m ρ _ =>
  (θ_run (Cert.Kernel.defs (F := Bits)) _ _).mono (fun _ h c => (h c).2) (Cert.Kernel.Hand.run_main (F := Bits) m ρ)

/-- So does its reading over the extended reals. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- Both programs end with the result array at the three-layer network of the argument arrays. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run (Cert.KernelIdeal.defs (F := Ideal)) _ _).mono
      (fun _ h c => ⟨(h c).1.trans (Cert.KernelIdeal.Hand.kernel_net m c), (h c).2⟩)
      (Cert.KernelIdeal.Hand.run_main (F := Ideal) m ρ)
  · refine (θ_run (Cert.ReferenceIdeal.defs (F := Ideal)) _ _).mono (fun _ h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v22_eq, Cert.ReferenceIdeal.RefValue.ref_net, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
